-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v56)) (v1 : (c : Dev Cert.KernelIdeal.nD) → Buf (Elt Ideal) ((c.tc : Thread Cert.KernelIdeal.nD Cert.KernelIdeal.τ).loc Cert.KernelIdeal.main_v20_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_v20_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S200000x128 : Shape := ⟨2, ![200000, 128]⟩
abbrev S200000x2 : Shape := ⟨2, ![200000, 2]⟩
abbrev S384x768 : Shape := ⟨2, ![384, 768]⟩
abbrev S768 : Shape := ⟨1, ![768]⟩
abbrev S768x512 : Shape := ⟨2, ![768, 512]⟩
abbrev S512 : Shape := ⟨1, ![512]⟩
abbrev S1024x512 : Shape := ⟨2, ![1024, 512]⟩
abbrev S256x512 : Shape := ⟨2, ![256, 512]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S200000x128 : S_.BroadcastsInDim S200000x128 (![] : Fin 0 → Fin S200000x128.rank)
  reducesTo_S200000x128_S_d0_1 : S200000x128.ReducesTo [0, 1] S_
  bcast_S_S384x768 : S_.BroadcastsInDim S384x768 (![] : Fin 0 → Fin S384x768.rank)
  reducesTo_S384x768_S_d0_1 : S384x768.ReducesTo [0, 1] S_
  bcast_S_S768 : S_.BroadcastsInDim S768 (![] : Fin 0 → Fin S768.rank)
  reducesTo_S768_S_d0 : S768.ReducesTo [0] S_
  bcast_S_S768x512 : S_.BroadcastsInDim S768x512 (![] : Fin 0 → Fin S768x512.rank)
  reducesTo_S768x512_S_d0_1 : S768x512.ReducesTo [0, 1] S_
  bcast_S_S512 : S_.BroadcastsInDim S512 (![] : Fin 0 → Fin S512.rank)
  reducesTo_S512_S_d0 : S512.ReducesTo [0] S_
  bcast_S_S1024x512 : S_.BroadcastsInDim S1024x512 (![] : Fin 0 → Fin S1024x512.rank)
  reducesTo_S1024x512_S_d0_1 : S1024x512.ReducesTo [0, 1] S_
  bcast_S_S256x512 : S_.BroadcastsInDim S256x512 (![] : Fin 0 → Fin S256x512.rank)
  reducesTo_S256x512_S_d0_1 : S256x512.ReducesTo [0, 1] S_
  bcast_S_S200000x2 : S_.BroadcastsInDim S200000x2 (![] : Fin 0 → Fin S200000x2.rank)
  reducesTo_S200000x2_S_d0_1 : S200000x2.ReducesTo [0, 1] S_

variable [Facts]

def fn_part3 {F : FTy → Type} [FloatOps F] (main_arg2 : IVec S200000x2 32) (main_v48 : IVec S_ 1) (main_v50 : IVec S200000x2 1) : IVec S_ 1 :=
  let main_c_19 : IVec S_ 32 := constantI S_ 32 100000#32
  let main_v51 : IVec S200000x2 32 := broadcastInDim S200000x2 ![] bcast_S_S200000x2 main_c_19
  let main_v52 : IVec S200000x2 1 := cmpi .slt main_arg2 main_v51
  let main_v53 : IVec S200000x2 1 := andi main_v50 main_v52
  let main_c_20 : IVec S_ 1 := constantI S_ 1 1#1
  let main_v54 : IVec S_ 1 := (fun x v => Host.reduce IntOp.andi x v reducesTo_S200000x2_S_d0_1 h_S_) main_v53 main_c_20
  let main_v55 : IVec S_ 1 := andi main_v48 main_v54
  main_v55

def fn_part2 {F : FTy → Type} [FloatOps F] (main_arg2 : IVec S200000x2 32) (main_arg8 : FVec F S512 .f32) (main_arg9 : FVec F S256x512 .f32) (main_arg10 : FVec F S512 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S256x512 .f32 := Host.absf main_arg9
  let main_cst_14 : FVec F S_ .f32 := constant S_ .f32 0x7F800000#32
  let main_v40 : FVec F S256x512 .f32 := broadcastInDim S256x512 ![] bcast_S_S256x512 main_cst_14
  let main_v41 : IVec S256x512 1 := cmpf .olt main_v39 main_v40
  let main_c_15 : IVec S_ 1 := constantI S_ 1 1#1
  let main_v42 : IVec S_ 1 := (fun x v => Host.reduce IntOp.andi x v reducesTo_S256x512_S_d0_1 h_S_) main_v41 main_c_15
  let main_v43 : IVec S_ 1 := andi main_v38 main_v42
  let main_v44 : FVec F S512 .f32 := Host.absf main_arg10
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_c_18 : IVec S_ 32 := constantI S_ 32 4294867296#32
  let main_v49 : IVec S200000x2 32 := broadcastInDim S200000x2 ![] bcast_S_S200000x2 main_c_18
  let main_v50 : IVec S200000x2 1 := cmpi .sge main_arg2 main_v49
  fn_part3 (F := F) main_arg2 main_v48 main_v50

def fn_part1 {F : FTy → Type} [FloatOps F] (main_arg2 : IVec S200000x2 32) (main_arg5 : FVec F S768x512 .f32) (main_arg6 : FVec F S512 .f32) (main_arg7 : FVec F S1024x512 .f32) (main_arg8 : FVec F S512 .f32) (main_arg9 : FVec F S256x512 .f32) (main_arg10 : FVec F S512 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S768x512 .f32 := Host.absf main_arg5
  let main_cst_6 : FVec F S_ .f32 := constant S_ .f32 0x7F800000#32
  let main_v20 : FVec F S768x512 .f32 := broadcastInDim S768x512 ![] bcast_S_S768x512 main_cst_6
  let main_v21 : IVec S768x512 1 := cmpf .olt main_v19 main_v20
  let main_c_7 : IVec S_ 1 := constantI S_ 1 1#1
  let main_v22 : IVec S_ 1 := (fun x v => Host.reduce IntOp.andi x v reducesTo_S768x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S1024x512 .f32 := Host.absf main_arg7
  let main_cst_10 : FVec F S_ .f32 := constant S_ .f32 0x7F800000#32
  let main_v30 : FVec F S1024x512 .f32 := broadcastInDim S1024x512 ![] bcast_S_S1024x512 main_cst_10
  let main_v31 : IVec S1024x512 1 := cmpf .olt main_v29 main_v30
  let main_c_11 : IVec S_ 1 := constantI S_ 1 1#1
  let main_v32 : IVec S_ 1 := (fun x v => Host.reduce IntOp.andi x v reducesTo_S1024x512_S_d0_1 h_S_) main_v31 main_c_11
  let main_v33 : IVec S_ 1 := andi main_v28 main_v32
  fn_part2 (F := F) main_arg2 main_arg8 main_arg9 main_arg10 main_v33

def fn {F : FTy → Type} [FloatOps F] (main_arg0 : FVec F S100000x128 .f32) (main_arg1 : FVec F S200000x128 .f32) (main_arg2 : IVec S200000x2 32) (main_arg3 : FVec F S384x768 .f32) (main_arg4 : FVec F S768 .f32) (main_arg5 : FVec F S768x512 .f32) (main_arg6 : FVec F S512 .f32) (main_arg7 : FVec F S1024x512 .f32) (main_arg8 : FVec F S512 .f32) (main_arg9 : FVec F S256x512 .f32) (main_arg10 : FVec F S512 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S200000x128 .f32 := Host.absf main_arg1
  let main_cst_0 : FVec F S_ .f32 := constant S_ .f32 0x7F800000#32
  let main_v5 : FVec F S200000x128 .f32 := broadcastInDim S200000x128 ![] bcast_S_S200000x128 main_cst_0
  let main_v6 : IVec S200000x128 1 := cmpf .olt main_v4 main_v5
  let main_c_1 : IVec S_ 1 := constantI S_ 1 1#1
  let main_v7 : IVec S_ 1 := (fun x v => Host.reduce IntOp.andi x v reducesTo_S200000x128_S_d0_1 h_S_) main_v6 main_c_1
  let main_v8 : IVec S_ 1 := andi main_v3 main_v7
  let main_v9 : FVec F S384x768 .f32 := Host.absf main_arg3
  let main_cst_2 : FVec F S_ .f32 := constant S_ .f32 0x7F800000#32
  let main_v10 : FVec F S384x768 .f32 := broadcastInDim S384x768 ![] bcast_S_S384x768 main_cst_2
  let main_v11 : IVec S384x768 1 := cmpf .olt main_v9 main_v10
  let main_c_3 : IVec S_ 1 := constantI S_ 1 1#1
  let main_v12 : IVec S_ 1 := (fun x v => Host.reduce IntOp.andi x v reducesTo_S384x768_S_d0_1 h_S_) main_v11 main_c_3
  let main_v13 : IVec S_ 1 := andi main_v8 main_v12
  let main_v14 : FVec F S768 .f32 := Host.absf main_arg4
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg2 main_arg5 main_arg6 main_arg7 main_arg8 main_arg9 main_arg10 main_v13 main_v16
-- ==== Kernel.lean ====
abbrev S100000x128 : Shape := ⟨2, ![100000, 128]⟩
abbrev S200000x128 : Shape := ⟨2, ![200000, 128]⟩
abbrev S200000x2 : Shape := ⟨2, ![200000, 2]⟩
abbrev S384x768 : Shape := ⟨2, ![384, 768]⟩
abbrev S768 : Shape := ⟨1, ![768]⟩
abbrev S768x512 : Shape := ⟨2, ![768, 512]⟩
abbrev S512 : Shape := ⟨1, ![512]⟩
abbrev S1024x512 : Shape := ⟨2, ![1024, 512]⟩
abbrev S256x512 : Shape := ⟨2, ![256, 512]⟩
abbrev S200000x1 : Shape := ⟨2, ![200000, 1]⟩
abbrev S200000 : Shape := ⟨1, ![200000]⟩
abbrev S_ : Shape := ⟨0, ![]⟩
abbrev S1 : Shape := ⟨1, ![1]⟩
abbrev S1x1 : Shape := ⟨2, ![1, 1]⟩
abbrev S1x768 : Shape := ⟨2, ![1, 768]⟩
abbrev S1x512 : Shape := ⟨2, ![1, 512]⟩
abbrev S512x512 : Shape := ⟨2, ![512, 512]⟩
abbrev S200000x512 : Shape := ⟨2, ![200000, 512]⟩
abbrev S200000x256 : Shape := ⟨2, ![200000, 256]⟩
abbrev S1600x128 : Shape := ⟨2, ![1600, 128]⟩
abbrev S1600x512 : Shape := ⟨2, ![1600, 512]⟩
abbrev S1600x256 : Shape := ⟨2, ![1600, 256]⟩
abbrev S1600x384 : Shape := ⟨2, ![1600, 384]⟩
abbrev S1600x768 : Shape := ⟨2, ![1600, 768]⟩
abbrev S100000x256 : Shape := ⟨2, ![100000, 256]⟩
abbrev S100000 : Shape := ⟨1, ![100000]⟩
abbrev S100000x1 : Shape := ⟨2, ![100000, 1]⟩
abbrev S100000x512 : Shape := ⟨2, ![100000, 512]⟩
abbrev S2000x256 : Shape := ⟨2, ![2000, 256]⟩
abbrev S2000x1 : Shape := ⟨2, ![2000, 1]⟩
abbrev S2000x512 : Shape := ⟨2, ![2000, 512]⟩

abbrev nBuf : Space → Nat
  | .hbm => 126
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S200000x128, .f32⟩
  | .hbm, ⟨2, _⟩ => ⟨S200000x2, .i32⟩
  | .hbm, ⟨3, _⟩ => ⟨S384x768, .f32⟩
  | .hbm, ⟨4, _⟩ => ⟨S768, .f32⟩
  | .hbm, ⟨5, _⟩ => ⟨S768x512, .f32⟩
  | .hbm, ⟨6, _⟩ => ⟨S512, .f32⟩
  | .hbm, ⟨7, _⟩ => ⟨S1024x512, .f32⟩
  | .hbm, ⟨8, _⟩ => ⟨S512, .f32⟩
  | .hbm, ⟨9, _⟩ => ⟨S256x512, .f32⟩
  | .hbm, ⟨10, _⟩ => ⟨S512, .f32⟩
  | .hbm, ⟨11, _⟩ => ⟨S200000x1, .i32⟩
  | .hbm, ⟨12, _⟩ => ⟨S200000, .i32⟩
  | .hbm, ⟨13, _⟩ => ⟨S200000x1, .i32⟩
  | .hbm, ⟨14, _⟩ => ⟨S200000, .i32⟩
  | .hbm, ⟨15, _⟩ => ⟨S_, .i32⟩
  | .hbm, ⟨16, _⟩ => ⟨S200000, .i32⟩
  | .hbm, ⟨17, _⟩ => ⟨S200000, .i1⟩
  | .hbm, ⟨18, _⟩ => ⟨S_, .i32⟩
  | .hbm, ⟨19, _⟩ => ⟨S200000, .i32⟩
  | .hbm, ⟨20, _⟩ => ⟨S200000, .i32⟩
  | .hbm, ⟨21, _⟩ => ⟨S200000, .i32⟩
  | .hbm, ⟨22, _⟩ => ⟨S200000x1, .i32⟩
  | .hbm, ⟨23, _⟩ => ⟨S1, .i32⟩
  | .hbm, ⟨24, _⟩ => ⟨S_, .i32⟩
  | .hbm, ⟨25, _⟩ => ⟨S200000x1, .i32⟩
  | .hbm, ⟨26, _⟩ => ⟨S200000x1, .i1⟩
  | .hbm, ⟨27, _⟩ => ⟨S1x1, .i32⟩
  | .hbm, ⟨28, _⟩ => ⟨S200000x1, .i32⟩
  | .hbm, ⟨29, _⟩ => ⟨S200000x1, .i1⟩
  | .hbm, ⟨30, _⟩ => ⟨S200000x1, .i1⟩
  | .hbm, ⟨31, _⟩ => ⟨S_, .i1⟩
  | .hbm, ⟨32, _⟩ => ⟨S200000, .i1⟩
  | .hbm, ⟨33, _⟩ => ⟨S200000x128, .f32⟩
  | .hbm, ⟨34, _⟩ => ⟨S200000x128, .i1⟩
  | .hbm, ⟨35, _⟩ => ⟨S_, .f32⟩
  | .hbm, ⟨36, _⟩ => ⟨S200000x128, .f32⟩
  | .hbm, ⟨37, _⟩ => ⟨S200000x128, .f32⟩
  | .hbm, ⟨38, _⟩ => ⟨S200000x128, .bf16⟩
  | .hbm, ⟨39, _⟩ => ⟨S_, .i32⟩
  | .hbm, ⟨40, _⟩ => ⟨S200000, .i32⟩
  | .hbm, ⟨41, _⟩ => ⟨S200000, .i1⟩
  | .hbm, ⟨42, _⟩ => ⟨S_, .i32⟩
  | .hbm, ⟨43, _⟩ => ⟨S200000, .i32⟩
  | .hbm, ⟨44, _⟩ => ⟨S200000, .i32⟩
  | .hbm, ⟨45, _⟩ => ⟨S200000, .i32⟩
  | .hbm, ⟨46, _⟩ => ⟨S200000x1, .i32⟩
  | .hbm, ⟨47, _⟩ => ⟨S1, .i32⟩
  | .hbm, ⟨48, _⟩ => ⟨S_, .i32⟩
  | .hbm, ⟨49, _⟩ => ⟨S200000x1, .i32⟩
  | .hbm, ⟨50, _⟩ => ⟨S200000x1, .i1⟩
  | .hbm, ⟨51, _⟩ => ⟨S1x1, .i32⟩
  | .hbm, ⟨52, _⟩ => ⟨S200000x1, .i32⟩
  | .hbm, ⟨53, _⟩ => ⟨S200000x1, .i1⟩
  | .hbm, ⟨54, _⟩ => ⟨S200000x1, .i1⟩
  | .hbm, ⟨55, _⟩ => ⟨S_, .i1⟩
  | .hbm, ⟨56, _⟩ => ⟨S200000, .i1⟩
  | .hbm, ⟨57, _⟩ => ⟨S200000x128, .f32⟩
  | .hbm, ⟨58, _⟩ => ⟨S200000x128, .i1⟩
  | .hbm, ⟨59, _⟩ => ⟨S_, .f32⟩
  | .hbm, ⟨60, _⟩ => ⟨S200000x128, .f32⟩
  | .hbm, ⟨61, _⟩ => ⟨S200000x128, .f32⟩
  | .hbm, ⟨62, _⟩ => ⟨S200000x128, .bf16⟩
  | .hbm, ⟨63, _⟩ => ⟨S200000x128, .bf16⟩
  | .hbm, ⟨64, _⟩ => ⟨S384x768, .bf16⟩
  | .hbm, ⟨65, _⟩ => ⟨S1x768, .f32⟩
  | .hbm, ⟨66, _⟩ => ⟨S768x512, .bf16⟩
  | .hbm, ⟨67, _⟩ => ⟨S1x512, .f32⟩
  | .hbm, ⟨68, _⟩ => ⟨S256x512, .f32⟩
  | .hbm, ⟨69, _⟩ => ⟨S256x512, .bf16⟩
  | .hbm, ⟨70, _⟩ => ⟨S512x512, .f32⟩
  | .hbm, ⟨71, _⟩ => ⟨S512x512, .bf16⟩
  | .hbm, ⟨72, _⟩ => ⟨S256x512, .f32⟩
  | .hbm, ⟨73, _⟩ => ⟨S256x512, .bf16⟩
  | .hbm, ⟨74, _⟩ => ⟨S1x512, .f32⟩
  | .hbm, ⟨75, _⟩ => ⟨S200000x512, .f32⟩
  | .hbm, ⟨76, _⟩ => ⟨S200000x256, .f32⟩
  | .hbm, ⟨77, _⟩ => ⟨S200000x256, .f32⟩
  | .hbm, ⟨78, _⟩ => ⟨S_, .f32⟩
  | .hbm, ⟨79, _⟩ => ⟨S100000x256, .f32⟩
  | .hbm, ⟨80, _⟩ => ⟨S_, .i32⟩
  | .hbm, ⟨81, _⟩ => ⟨S200000, .i32⟩
  | .hbm, ⟨82, _⟩ => ⟨S200000, .i1⟩
  | .hbm, ⟨83, _⟩ => ⟨S_, .i32⟩
  | .hbm, ⟨84, _⟩ => ⟨S200000, .i32⟩
  | .hbm, ⟨85, _⟩ => ⟨S200000, .i32⟩
  | .hbm, ⟨86, _⟩ => ⟨S200000, .i32⟩
  | .hbm, ⟨87, _⟩ => ⟨S200000x1, .i32⟩
  | .hbm, ⟨88, _⟩ => ⟨S100000x256, .f32⟩
  | .hbm, ⟨89, _⟩ => ⟨S_, .i32⟩
  | .hbm, ⟨90, _⟩ => ⟨S200000, .i32⟩
  | .hbm, ⟨91, _⟩ => ⟨S200000, .i1⟩
  | .hbm, ⟨92, _⟩ => ⟨S_, .i32⟩
  | .hbm, ⟨93, _⟩ => ⟨S200000, .i32⟩
  | .hbm, ⟨94, _⟩ => ⟨S200000, .i32⟩
  | .hbm, ⟨95, _⟩ => ⟨S200000, .i32⟩
  | .hbm, ⟨96, _⟩ => ⟨S200000x1, .i32⟩
  | .hbm, ⟨97, _⟩ => ⟨S100000x256, .f32⟩
  | .hbm, ⟨98, _⟩ => ⟨S_, .f32⟩
  | .hbm, ⟨99, _⟩ => ⟨S100000, .f32⟩
  | .hbm, ⟨100, _⟩ => ⟨S_, .i32⟩
  | .hbm, ⟨101, _⟩ => ⟨S200000, .i32⟩
  | .hbm, ⟨102, _⟩ => ⟨S200000, .i1⟩
  | .hbm, ⟨103, _⟩ => ⟨S_, .i32⟩
  | .hbm, ⟨104, _⟩ => ⟨S200000, .i32⟩
  | .hbm, ⟨105, _⟩ => ⟨S200000, .i32⟩
  | .hbm, ⟨106, _⟩ => ⟨S200000, .i32⟩
  | .hbm, ⟨107, _⟩ => ⟨S200000x1, .i32⟩
  | .hbm, ⟨108, _⟩ => ⟨S_, .f32⟩
  | .hbm, ⟨109, _⟩ => ⟨S200000, .f32⟩
  | .hbm, ⟨110, _⟩ => ⟨S100000, .f32⟩
  | .hbm, ⟨111, _⟩ => ⟨S_, .i32⟩
  | .hbm, ⟨112, _⟩ => ⟨S200000, .i32⟩
  | .hbm, ⟨113, _⟩ => ⟨S200000, .i1⟩
  | .hbm, ⟨114, _⟩ => ⟨S_, .i32⟩
  | .hbm, ⟨115, _⟩ => ⟨S200000, .i32⟩
  | .hbm, ⟨116, _⟩ => ⟨S200000, .i32⟩
  | .hbm, ⟨117, _⟩ => ⟨S200000, .i32⟩
  | .hbm, ⟨118, _⟩ => ⟨S200000x1, .i32⟩
  | .hbm, ⟨119, _⟩ => ⟨S_, .f32⟩
  | .hbm, ⟨120, _⟩ => ⟨S200000, .f32⟩
  | .hbm, ⟨121, _⟩ => ⟨S100000, .f32⟩
  | .hbm, ⟨122, _⟩ => ⟨S100000x1, .f32⟩
  | .hbm, ⟨123, _⟩ => ⟨S256x512, .bf16⟩
  | .hbm, ⟨124, _⟩ => ⟨S1x512, .f32⟩
  | .hbm, ⟨125, _⟩ => ⟨S100000x512, .f32⟩
  | .local _ .vmem, ⟨0, _⟩ => ⟨S1600x128, .bf16⟩
  | .local _ .vmem, ⟨1, _⟩ => ⟨S1600x128, .bf16⟩
  | .local _ .vmem, ⟨2, _⟩ => ⟨S1600x128, .bf16⟩
  | .local _ .vmem, ⟨3, _⟩ => ⟨S1600x128, .bf16⟩
  | .local _ .vmem, ⟨4, _⟩ => ⟨S1600x128, .bf16⟩
  | .local _ .vmem, ⟨5, _⟩ => ⟨S1600x128, .bf16⟩
  | .local _ .vmem, ⟨6, _⟩ => ⟨S384x768, .bf16⟩
  | .local _ .vmem, ⟨7, _⟩ => ⟨S1x768, .f32⟩
  | .local _ .vmem, ⟨8, _⟩ => ⟨S768x512, .bf16⟩
  | .local _ .vmem, ⟨9, _⟩ => ⟨S1x512, .f32⟩
  | .local _ .vmem, ⟨10, _⟩ => ⟨S256x512, .bf16⟩
  | .local _ .vmem, ⟨11, _⟩ => ⟨S512x512, .bf16⟩
  | .local _ .vmem, ⟨12, _⟩ => ⟨S256x512, .bf16⟩
  | .local _ .vmem, ⟨13, _⟩ => ⟨S1x512, .f32⟩
  | .local _ .vmem, ⟨14, _⟩ => ⟨S1600x512, .f32⟩
  | .local _ .vmem, ⟨15, _⟩ => ⟨S1600x512, .f32⟩
  | .local _ .vmem, ⟨16, _⟩ => ⟨S1600x256, .f32⟩
  | .local _ .vmem, ⟨17, _⟩ => ⟨S1600x256, .f32⟩
  | .local _ .vmem, ⟨18, _⟩ => ⟨S1600x256, .f32⟩
  | .local _ .vmem, ⟨19, _⟩ => ⟨S1600x256, .f32⟩
  | .local _ .vmem, ⟨20, _⟩ => ⟨S2000x256, .f32⟩
  | .local _ .vmem, ⟨21, _⟩ => ⟨S2000x256, .f32⟩
  | .local _ .vmem, ⟨22, _⟩ => ⟨S2000x1, .f32⟩
  | .local _ .vmem, ⟨23, _⟩ => ⟨S2000x1, .f32⟩
  | .local _ .vmem, ⟨24, _⟩ => ⟨S256x512, .bf16⟩
  | .local _ .vmem, ⟨25, _⟩ => ⟨S1x512, .f32⟩
  | .local _ .vmem, ⟨26, _⟩ => ⟨S2000x512, .f32⟩
  | .local _ .vmem, ⟨27, _⟩ => ⟨S2000x512, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v4 : Ref sig .tc := ⟨.hbm, 37, rfl⟩
abbrev main_v5 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v6 : Ref sig .tc := ⟨.hbm, 61, rfl⟩
abbrev main_v7 : Ref sig .tc := ⟨.hbm, 62, rfl⟩
abbrev main_v8 : Ref sig .tc := ⟨.hbm, 63, rfl⟩
abbrev main_v9 : Ref sig .tc := ⟨.hbm, 64, rfl⟩
abbrev main_v10 : Ref sig .tc := ⟨.hbm, 65, rfl⟩
abbrev main_v11 : Ref sig .tc := ⟨.hbm, 66, rfl⟩
abbrev main_v12 : Ref sig .tc := ⟨.hbm, 67, rfl⟩
abbrev main_v13 : Ref sig .tc := ⟨.hbm, 68, rfl⟩
abbrev main_v14 : Ref sig .tc := ⟨.hbm, 69, rfl⟩
abbrev main_v15 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_v20_0 : Ref sig .tc := ⟨.hbm, 75, rfl⟩
abbrev main_v20_1 : Ref sig .tc := ⟨.hbm, 76, rfl⟩
abbrev main_v20_2 : Ref sig .tc := ⟨.hbm, 77, rfl⟩
abbrev main_cst : Ref sig .tc := ⟨.hbm, 78, rfl⟩
abbrev main_v21 : Ref sig .tc := ⟨.hbm, 79, rfl⟩
abbrev main_c : Ref sig .tc := ⟨.hbm, 80, rfl⟩
abbrev main_v22 : Ref sig .tc := ⟨.hbm, 81, rfl⟩
abbrev main_v23 : Ref sig .tc := ⟨.hbm, 82, rfl⟩
abbrev main_c_0 : Ref sig .tc := ⟨.hbm, 83, rfl⟩
abbrev main_v24 : Ref sig .tc := ⟨.hbm, 84, rfl⟩
abbrev main_v25 : Ref sig .tc := ⟨.hbm, 85, rfl⟩
abbrev main_v26 : Ref sig .tc := ⟨.hbm, 86, rfl⟩
abbrev main_v27 : Ref sig .tc := ⟨.hbm, 87, rfl⟩
abbrev main_v28 : Ref sig .tc := ⟨.hbm, 88, rfl⟩
abbrev main_c_1 : Ref sig .tc := ⟨.hbm, 89, rfl⟩
abbrev main_v29 : Ref sig .tc := ⟨.hbm, 90, rfl⟩
abbrev main_v30 : Ref sig .tc := ⟨.hbm, 91, rfl⟩
abbrev main_c_2 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_v34 : Ref sig .tc := ⟨.hbm, 96, rfl⟩
abbrev main_v35 : Ref sig .tc := ⟨.hbm, 97, rfl⟩
abbrev main_cst_3 : Ref sig .tc := ⟨.hbm, 98, rfl⟩
abbrev main_v36 : Ref sig .tc := ⟨.hbm, 99, rfl⟩
abbrev main_c_4 : Ref sig .tc := ⟨.hbm, 100, rfl⟩
abbrev main_v37 : Ref sig .tc := ⟨.hbm, 101, rfl⟩
abbrev main_v38 : Ref sig .tc := ⟨.hbm, 102, rfl⟩
abbrev main_c_5 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_v42 : Ref sig .tc := ⟨.hbm, 107, rfl⟩
abbrev main_cst_6 : Ref sig .tc := ⟨.hbm, 108, rfl⟩
abbrev main_v43 : Ref sig .tc := ⟨.hbm, 109, rfl⟩
abbrev main_v44 : Ref sig .tc := ⟨.hbm, 110, rfl⟩
abbrev main_c_7 : Ref sig .tc := ⟨.hbm, 111, rfl⟩
abbrev main_v45 : Ref sig .tc := ⟨.hbm, 112, rfl⟩
abbrev main_v46 : Ref sig .tc := ⟨.hbm, 113, rfl⟩
abbrev main_c_8 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_v50 : Ref sig .tc := ⟨.hbm, 118, rfl⟩
abbrev main_cst_9 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_v56 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg3_0 : Ref sig .tc := ⟨.vmem, 25, rfl⟩
abbrev cc1_stg4_0 : Ref sig .tc := ⟨.vmem, 26, rfl⟩
abbrev cc1_stg4_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem3_0 : DmaSem sig := 25
abbrev cc1_sem4_0 : DmaSem sig := 26
abbrev cc1_sem4_1 : DmaSem sig := 27

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1600x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1600x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1600x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1600x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1600x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1600x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S200000x2_S200000x1_0_0 : S200000x2.Slices ![0, 0] S200000x1
  shapeCasts_S200000x1_S200000 : S200000x1.ShapeCasts S200000
  slices_S200000x2_S200000x1_0_1 : S200000x2.Slices ![0, 1] S200000x1
  bcast_S_S200000 : S_.BroadcastsInDim S200000 (![] : Fin 0 → Fin S200000.rank)
  bcast_S200000_S200000x1_0 : S200000.BroadcastsInDim S200000x1 (![0] : Fin 1 → Fin S200000x1.rank)
  bcast_S_S200000x1 : S_.BroadcastsInDim S200000x1 (![] : Fin 0 → Fin S200000x1.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  reducesTo_S200000x1_S200000_d1 : S200000x1.ReducesTo [1] S200000
  h_S_ : 0 < S_.numel
  bcast_S200000_S200000x128_0 : S200000.BroadcastsInDim S200000x128 (![0] : Fin 1 → Fin S200000x128.rank)
  bcast_S_S200000x128 : S_.BroadcastsInDim S200000x128 (![] : Fin 0 → Fin S200000x128.rank)
  bitsLt_bf16_f32 : FTy.bits .bf16 < FTy.bits .f32
  shapeCasts_S768_S1x768 : S768.ShapeCasts S1x768
  shapeCasts_S512_S1x512 : S512.ShapeCasts S1x512
  slices_S1024x512_S256x512_0_0 : S1024x512.Slices ![0, 0] S256x512
  slices_S1024x512_S512x512_256_0 : S1024x512.Slices ![256, 0] S512x512
  slices_S1024x512_S256x512_768_0 : S1024x512.Slices ![768, 0] S256x512
  inb_S1600x128_S1600x128_0_0 : ∀ a, (![0, 0] : Fin 2 → Nat) a + S1600x128.size a ≤ S1600x128.size a
  h_S1600x128 : 0 < S1600x128.numel
  shapeCasts_S1600x128_S1600x128 : S1600x128.ShapeCasts S1600x128
  concatenates_S1600x128_S1600x128_S1600x128_S1600x384_d1 : Shape.Concatenates [S1600x128, S1600x128, S1600x128] S1600x384 1
  inb_S384x768_S384x768_0_0 : ∀ a, (![0, 0] : Fin 2 → Nat) a + S384x768.size a ≤ S384x768.size a
  h_S384x768 : 0 < S384x768.numel
  shapeCasts_S384x768_S384x768 : S384x768.ShapeCasts S384x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1600x768 : S1x768.Broadcasts S1600x768
  inb_S768x512_S768x512_0_0 : ∀ a, (![0, 0] : Fin 2 → Nat) a + S768x512.size a ≤ S768x512.size a
  h_S768x512 : 0 < S768x512.numel
  shapeCasts_S768x512_S768x512 : S768x512.ShapeCasts S768x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1600x512 : S1x512.Broadcasts S1600x512
  slices_S1600x768_o0_0_S1600x256 : S1600x768.Slices ![0, 0] S1600x256
  slices_S1600x768_o0_512_S1600x256 : S1600x768.Slices ![0, 512] S1600x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  slices_S1600x512_o0_0_S1600x256 : S1600x512.Slices ![0, 0] S1600x256
  slices_S1600x512_o0_256_S1600x256 : S1600x512.Slices ![0, 256] S1600x256
  inb_S1600x512_S1600x512_0_0 : ∀ a, (![0, 0] : Fin 2 → Nat) a + S1600x512.size a ≤ S1600x512.size a
  h_S1600x512 : 0 < S1600x512.numel
  inb_S1600x256_S1600x256_0_0 : ∀ a, (![0, 0] : Fin 2 → Nat) a + S1600x256.size a ≤ S1600x256.size a
  h_S1600x256 : 0 < S1600x256.numel
  bcast_S_S100000x256 : S_.BroadcastsInDim S100000x256 (![] : Fin 0 → Fin S100000x256.rank)
  bcast_S_S100000 : S_.BroadcastsInDim S100000 (![] : Fin 0 → Fin S100000.rank)
  shapeCasts_S100000_S100000x1 : S100000.ShapeCasts S100000x1
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  broadcasts_S1x512_S2000x512 : S1x512.Broadcasts S2000x512
  inb_S2000x512_S2000x512_0_0 : ∀ a, (![0, 0] : Fin 2 → Nat) a + S2000x512.size a ≤ S2000x512.size a
  h_S2000x512 : 0 < S2000x512.numel
  gather_S100000x128_S200000x1_S200000x128_1_0_n_n_0_1_1128_wf : GatherDims.WF S100000x128 S200000x1 S200000x128 [1] [0] [] [0] [] 1 ![1, 128]
  dot_S1600x384_S384x768_S1600x768_1_0_0_1_n_n_wf : DotDims.WF S1600x384 S384x768 S1600x768 [1] [0] [0] [1] [] []
  dot_S1600x768_S768x512_S1600x512_1_0_0_1_n_n_wf : DotDims.WF S1600x768 S768x512 S1600x512 [1] [0] [0] [1] [] []
  dot_S1600x256_S256x512_S1600x512_1_0_0_1_n_n_wf : DotDims.WF S1600x256 S256x512 S1600x512 [1] [0] [0] [1] [] []
  dot_S1600x512_S512x512_S1600x512_1_0_0_1_n_n_wf : DotDims.WF S1600x512 S512x512 S1600x512 [1] [0] [0] [1] [] []
  scatter_S100000x256_S200000x1_S200000x256_1_0_0_1_wf : ScatterDims.WF S100000x256 S200000x1 S200000x256 [1] [0] [0] 1
  scatter_S100000_S200000x1_S200000_n_0_0_1_wf : ScatterDims.WF S100000 S200000x1 S200000 [] [0] [0] 1
  dot_S2000x256_S256x512_S2000x512_1_0_0_1_n_n_wf : DotDims.WF S2000x256 S256x512 S2000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1600x128.size a ≤ S200000x128.size a
  hwx0_0 : ∀ i : grid0.Coords, EltTy.bits .bf16 = 32 ∨ (Rect.block (s := S200000x128) S1600x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1600x128.size a ≤ S200000x128.size a
  hwx0_1 : ∀ i : grid0.Coords, EltTy.bits .bf16 = 32 ∨ (Rect.block (s := S200000x128) S1600x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1600x128.size a ≤ S200000x128.size a
  hwx0_2 : ∀ i : grid0.Coords, EltTy.bits .bf16 = 32 ∨ (Rect.block (s := S200000x128) S1600x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x768.size a ≤ S384x768.size a
  hwx0_3 : ∀ i : grid0.Coords, EltTy.bits .bf16 = 32 ∨ (Rect.block (s := S384x768) S384x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768x512.size a ≤ S768x512.size a
  hwx0_5 : ∀ i : grid0.Coords, EltTy.bits .bf16 = 32 ∨ (Rect.block (s := S768x512) S768x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x512.size a ≤ S256x512.size a
  hwx0_7 : ∀ i : grid0.Coords, EltTy.bits .bf16 = 32 ∨ (Rect.block (s := S256x512) S256x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S512x512.size a
  hwx0_8 : ∀ i : grid0.Coords, EltTy.bits .bf16 = 32 ∨ (Rect.block (s := S512x512) S512x512.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x512.size a ≤ S256x512.size a
  hwx0_9 : ∀ i : grid0.Coords, EltTy.bits .bf16 = 32 ∨ (Rect.block (s := S256x512) S256x512.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x512.size a
  hwx0_10 : ∀ i : grid0.Coords, EltTy.bits .f32 = 32 ∨ (Rect.block (s := S1x512) S1x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1600x512.size a ≤ S200000x512.size a
  hwx0_11 : ∀ i : grid0.Coords, EltTy.bits .f32 = 32 ∨ (Rect.block (s := S200000x512) S1600x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1600x256.size a ≤ S200000x256.size a
  hwx0_12 : ∀ i : grid0.Coords, EltTy.bits .f32 = 32 ∨ (Rect.block (s := S200000x256) S1600x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1600x256.size a ≤ S200000x256.size a
  hwx0_13 : ∀ i : grid0.Coords, EltTy.bits .f32 = 32 ∨ (Rect.block (s := S200000x256) S1600x256.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x512.size a ≤ S256x512.size a
  hwx1_2 : ∀ i : grid1.Coords, EltTy.bits .bf16 = 32 ∨ (Rect.block (s := S256x512) S256x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x512.size a ≤ S100000x512.size a
  hwx1_4 : ∀ i : grid1.Coords, EltTy.bits .f32 = 32 ∨ (Rect.block (s := S100000x512) S2000x512.size (cc1_transform_4 i) (hinb1_4 i)).WholeWords (EltTy.packing .f32)

variable [Facts₀]

def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def dot_S1600x384_S384x768_S1600x768_1_0_0_1_n_n : DotDims S1600x384 S384x768 S1600x768 where
  lhsContracting := [1]
  rhsContracting := [0]
  lhsNonContracting := [0]
  rhsNonContracting := [1]
  lhsBatch := []
  rhsBatch := []
  wf := dot_S1600x384_S384x768_S1600x768_1_0_0_1_n_n_wf
def dot_S1600x768_S768x512_S1600x512_1_0_0_1_n_n : DotDims S1600x768 S768x512 S1600x512 where
  lhsContracting := [1]
  rhsContracting := [0]
  lhsNonContracting := [0]
  rhsNonContracting := [1]
  lhsBatch := []
  rhsBatch := []
  wf := dot_S1600x768_S768x512_S1600x512_1_0_0_1_n_n_wf
def dot_S1600x256_S256x512_S1600x512_1_0_0_1_n_n : DotDims S1600x256 S256x512 S1600x512 where
  lhsContracting := [1]
  rhsContracting := [0]
  lhsNonContracting := [0]
  rhsNonContracting := [1]
  lhsBatch := []
  rhsBatch := []
  wf := dot_S1600x256_S256x512_S1600x512_1_0_0_1_n_n_wf
def dot_S1600x512_S512x512_S1600x512_1_0_0_1_n_n : DotDims S1600x512 S512x512 S1600x512 where
  lhsContracting := [1]
  rhsContracting := [0]
  lhsNonContracting := [0]
  rhsNonContracting := [1]
  lhsBatch := []
  rhsBatch := []
  wf := dot_S1600x512_S512x512_S1600x512_1_0_0_1_n_n_wf
def scatter_S100000x256_S200000x1_S200000x256_1_0_0_1 : ScatterDims S100000x256 S200000x1 S200000x256 where
  updateWindowDims := [1]
  insertedWindowDims := [0]
  scatterDimsToOperandDims := [0]
  indexVectorDim := 1
  wf := scatter_S100000x256_S200000x1_S200000x256_1_0_0_1_wf
def scatter_S100000_S200000x1_S200000_n_0_0_1 : ScatterDims S100000 S200000x1 S200000 where
  updateWindowDims := []
  insertedWindowDims := [0]
  scatterDimsToOperandDims := [0]
  indexVectorDim := 1
  wf := scatter_S100000_S200000x1_S200000_n_0_0_1_wf
def dot_S2000x256_S256x512_S2000x512_1_0_0_1_n_n : DotDims S2000x256 S256x512 S2000x512 where
  lhsContracting := [1]
  rhsContracting := [0]
  lhsNonContracting := [0]
  rhsNonContracting := [1]
  lhsBatch := []
  rhsBatch := []
  wf := dot_S2000x256_S256x512_S2000x512_1_0_0_1_n_n_wf

abbrev win0_0 : Pipeline.Window sig grid0 :=
  Pipeline.Window.ofSpec (Memref.whole main_v5) S1600x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1600x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1600x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S384x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S768x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S256x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16) S512x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v18) S256x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v19) S1x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v20_0) S1600x512.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v20_1) S1600x256.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v20_2) S1600x256.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_v35) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v54) S256x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v55) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v56) S2000x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S200000x128 : Shape := ⟨2, ![200000, 128]⟩
abbrev S200000x2 : Shape := ⟨2, ![200000, 2]⟩
abbrev S384x768 : Shape := ⟨2, ![384, 768]⟩
abbrev S768 : Shape := ⟨1, ![768]⟩
abbrev S768x512 : Shape := ⟨2, ![768, 512]⟩
abbrev S512 : Shape := ⟨1, ![512]⟩
abbrev S1024x512 : Shape := ⟨2, ![1024, 512]⟩
abbrev S256x512 : Shape := ⟨2, ![256, 512]⟩
abbrev S200000x1 : Shape := ⟨2, ![200000, 1]⟩
abbrev S200000 : Shape := ⟨1, ![200000]⟩
abbrev S_ : Shape := ⟨0, ![]⟩
abbrev S200000x384 : Shape := ⟨2, ![200000, 384]⟩
abbrev S200000x768 : Shape := ⟨2, ![200000, 768]⟩
abbrev S1x768 : Shape := ⟨2, ![1, 768]⟩
abbrev S200000x256 : Shape := ⟨2, ![200000, 256]⟩
abbrev S200000x512 : Shape := ⟨2, ![200000, 512]⟩
abbrev S1x512 : Shape := ⟨2, ![1, 512]⟩
abbrev S200000x1024 : Shape := ⟨2, ![200000, 1024]⟩
abbrev S100000x256 : Shape := ⟨2, ![100000, 256]⟩
abbrev S100000 : Shape := ⟨1, ![100000]⟩
abbrev S100000x1 : Shape := ⟨2, ![100000, 1]⟩
abbrev S100000x512 : Shape := ⟨2, ![100000, 512]⟩

abbrev nBuf : Space → Nat
  | .hbm => 118
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S200000x128, .f32⟩
  | .hbm, ⟨2, _⟩ => ⟨S200000x2, .i32⟩
  | .hbm, ⟨3, _⟩ => ⟨S384x768, .f32⟩
  | .hbm, ⟨4, _⟩ => ⟨S768, .f32⟩
  | .hbm, ⟨5, _⟩ => ⟨S768x512, .f32⟩
  | .hbm, ⟨6, _⟩ => ⟨S512, .f32⟩
  | .hbm, ⟨7, _⟩ => ⟨S1024x512, .f32⟩
  | .hbm, ⟨8, _⟩ => ⟨S512, .f32⟩
  | .hbm, ⟨9, _⟩ => ⟨S256x512, .f32⟩
  | .hbm, ⟨10, _⟩ => ⟨S512, .f32⟩
  | .hbm, ⟨11, _⟩ => ⟨S200000x1, .i32⟩
  | .hbm, ⟨12, _⟩ => ⟨S200000, .i32⟩
  | .hbm, ⟨13, _⟩ => ⟨S200000x1, .i32⟩
  | .hbm, ⟨14, _⟩ => ⟨S200000, .i32⟩
  | .hbm, ⟨15, _⟩ => ⟨S_, .i32⟩
  | .hbm, ⟨16, _⟩ => ⟨S200000, .i32⟩
  | .hbm, ⟨17, _⟩ => ⟨S200000, .i1⟩
  | .hbm, ⟨18, _⟩ => ⟨S_, .i32⟩
  | .hbm, ⟨19, _⟩ => ⟨S200000, .i32⟩
  | .hbm, ⟨20, _⟩ => ⟨S200000, .i32⟩
  | .hbm, ⟨21, _⟩ => ⟨S200000, .i32⟩
  | .hbm, ⟨22, _⟩ => ⟨S200000x1, .i32⟩
  | .hbm, ⟨23, _⟩ => ⟨S200000x128, .f32⟩
  | .hbm, ⟨24, _⟩ => ⟨S_, .i32⟩
  | .hbm, ⟨25, _⟩ => ⟨S200000, .i32⟩
  | .hbm, ⟨26, _⟩ => ⟨S200000, .i1⟩
  | .hbm, ⟨27, _⟩ => ⟨S_, .i32⟩
  | .hbm, ⟨28, _⟩ => ⟨S200000, .i32⟩
  | .hbm, ⟨29, _⟩ => ⟨S200000, .i32⟩
  | .hbm, ⟨30, _⟩ => ⟨S200000, .i32⟩
  | .hbm, ⟨31, _⟩ => ⟨S200000x1, .i32⟩
  | .hbm, ⟨32, _⟩ => ⟨S200000x128, .f32⟩
  | .hbm, ⟨33, _⟩ => ⟨S200000x384, .f32⟩
  | .hbm, ⟨34, _⟩ => ⟨S200000x768, .f32⟩
  | .hbm, ⟨35, _⟩ => ⟨S1x768, .f32⟩
  | .hbm, ⟨36, _⟩ => ⟨S200000x768, .f32⟩
  | .hbm, ⟨37, _⟩ => ⟨S200000x768, .f32⟩
  | .hbm, ⟨38, _⟩ => ⟨S_, .f32⟩
  | .hbm, ⟨39, _⟩ => ⟨S200000x768, .f32⟩
  | .hbm, ⟨40, _⟩ => ⟨S200000x768, .f32⟩
  | .hbm, ⟨41, _⟩ => ⟨S200000x256, .f32⟩
  | .hbm, ⟨42, _⟩ => ⟨S200000x256, .f32⟩
  | .hbm, ⟨43, _⟩ => ⟨S200000x256, .f32⟩
  | .hbm, ⟨44, _⟩ => ⟨S200000x768, .f32⟩
  | .hbm, ⟨45, _⟩ => ⟨S200000x512, .f32⟩
  | .hbm, ⟨46, _⟩ => ⟨S1x512, .f32⟩
  | .hbm, ⟨47, _⟩ => ⟨S200000x512, .f32⟩
  | .hbm, ⟨48, _⟩ => ⟨S200000x512, .f32⟩
  | .hbm, ⟨49, _⟩ => ⟨S_, .f32⟩
  | .hbm, ⟨50, _⟩ => ⟨S200000x512, .f32⟩
  | .hbm, ⟨51, _⟩ => ⟨S200000x512, .f32⟩
  | .hbm, ⟨52, _⟩ => ⟨S200000x1024, .f32⟩
  | .hbm, ⟨53, _⟩ => ⟨S200000x512, .f32⟩
  | .hbm, ⟨54, _⟩ => ⟨S1x512, .f32⟩
  | .hbm, ⟨55, _⟩ => ⟨S200000x512, .f32⟩
  | .hbm, ⟨56, _⟩ => ⟨S200000x512, .f32⟩
  | .hbm, ⟨57, _⟩ => ⟨S_, .f32⟩
  | .hbm, ⟨58, _⟩ => ⟨S200000x512, .f32⟩
  | .hbm, ⟨59, _⟩ => ⟨S200000x512, .f32⟩
  | .hbm, ⟨60, _⟩ => ⟨S200000x256, .f32⟩
  | .hbm, ⟨61, _⟩ => ⟨S200000x256, .f32⟩
  | .hbm, ⟨62, _⟩ => ⟨S_, .f32⟩
  | .hbm, ⟨63, _⟩ => ⟨S100000x256, .f32⟩
  | .hbm, ⟨64, _⟩ => ⟨S_, .i32⟩
  | .hbm, ⟨65, _⟩ => ⟨S200000, .i32⟩
  | .hbm, ⟨66, _⟩ => ⟨S200000, .i1⟩
  | .hbm, ⟨67, _⟩ => ⟨S_, .i32⟩
  | .hbm, ⟨68, _⟩ => ⟨S200000, .i32⟩
  | .hbm, ⟨69, _⟩ => ⟨S200000, .i32⟩
  | .hbm, ⟨70, _⟩ => ⟨S200000, .i32⟩
  | .hbm, ⟨71, _⟩ => ⟨S200000x1, .i32⟩
  | .hbm, ⟨72, _⟩ => ⟨S100000x256, .f32⟩
  | .hbm, ⟨73, _⟩ => ⟨S_, .i32⟩
  | .hbm, ⟨74, _⟩ => ⟨S200000, .i32⟩
  | .hbm, ⟨75, _⟩ => ⟨S200000, .i1⟩
  | .hbm, ⟨76, _⟩ => ⟨S_, .i32⟩
  | .hbm, ⟨77, _⟩ => ⟨S200000, .i32⟩
  | .hbm, ⟨78, _⟩ => ⟨S200000, .i32⟩
  | .hbm, ⟨79, _⟩ => ⟨S200000, .i32⟩
  | .hbm, ⟨80, _⟩ => ⟨S200000x1, .i32⟩
  | .hbm, ⟨81, _⟩ => ⟨S100000x256, .f32⟩
  | .hbm, ⟨82, _⟩ => ⟨S_, .f32⟩
  | .hbm, ⟨83, _⟩ => ⟨S100000, .f32⟩
  | .hbm, ⟨84, _⟩ => ⟨S_, .f32⟩
  | .hbm, ⟨85, _⟩ => ⟨S200000, .f32⟩
  | .hbm, ⟨86, _⟩ => ⟨S_, .i32⟩
  | .hbm, ⟨87, _⟩ => ⟨S200000, .i32⟩
  | .hbm, ⟨88, _⟩ => ⟨S200000, .i1⟩
  | .hbm, ⟨89, _⟩ => ⟨S_, .i32⟩
  | .hbm, ⟨90, _⟩ => ⟨S200000, .i32⟩
  | .hbm, ⟨91, _⟩ => ⟨S200000, .i32⟩
  | .hbm, ⟨92, _⟩ => ⟨S200000, .i32⟩
  | .hbm, ⟨93, _⟩ => ⟨S200000x1, .i32⟩
  | .hbm, ⟨94, _⟩ => ⟨S100000, .f32⟩
  | .hbm, ⟨95, _⟩ => ⟨S_, .i32⟩
  | .hbm, ⟨96, _⟩ => ⟨S200000, .i32⟩
  | .hbm, ⟨97, _⟩ => ⟨S200000, .i1⟩
  | .hbm, ⟨98, _⟩ => ⟨S_, .i32⟩
  | .hbm, ⟨99, _⟩ => ⟨S200000, .i32⟩
  | .hbm, ⟨100, _⟩ => ⟨S200000, .i32⟩
  | .hbm, ⟨101, _⟩ => ⟨S200000, .i32⟩
  | .hbm, ⟨102, _⟩ => ⟨S200000x1, .i32⟩
  | .hbm, ⟨103, _⟩ => ⟨S100000, .f32⟩
  | .hbm, ⟨104, _⟩ => ⟨S_, .f32⟩
  | .hbm, ⟨105, _⟩ => ⟨S_, .f32⟩
  | .hbm, ⟨106, _⟩ => ⟨S100000, .f32⟩
  | .hbm, ⟨107, _⟩ => ⟨S100000, .f32⟩
  | .hbm, ⟨108, _⟩ => ⟨S100000x1, .f32⟩
  | .hbm, ⟨109, _⟩ => ⟨S100000x256, .f32⟩
  | .hbm, ⟨110, _⟩ => ⟨S100000x256, .f32⟩
  | .hbm, ⟨111, _⟩ => ⟨S100000x512, .f32⟩
  | .hbm, ⟨112, _⟩ => ⟨S1x512, .f32⟩
  | .hbm, ⟨113, _⟩ => ⟨S100000x512, .f32⟩
  | .hbm, ⟨114, _⟩ => ⟨S100000x512, .f32⟩
  | .hbm, ⟨115, _⟩ => ⟨S_, .f32⟩
  | .hbm, ⟨116, _⟩ => ⟨S100000x512, .f32⟩
  | .hbm, ⟨117, _⟩ => ⟨S100000x512, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_cst : Ref sig .tc := ⟨.hbm, 38, rfl⟩
abbrev main_call0_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_call1_cst : Ref sig .tc := ⟨.hbm, 49, rfl⟩
abbrev main_call1_v0 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_call2_cst : Ref sig .tc := ⟨.hbm, 57, rfl⟩
abbrev main_call2_v0 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst : Ref sig .tc := ⟨.hbm, 62, rfl⟩
abbrev main_v41 : Ref sig .tc := ⟨.hbm, 63, rfl⟩
abbrev main_c_3 : Ref sig .tc := ⟨.hbm, 64, rfl⟩
abbrev main_v42 : Ref sig .tc := ⟨.hbm, 65, rfl⟩
abbrev main_v43 : Ref sig .tc := ⟨.hbm, 66, rfl⟩
abbrev main_c_4 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_c_5 : Ref sig .tc := ⟨.hbm, 73, rfl⟩
abbrev main_v49 : Ref sig .tc := ⟨.hbm, 74, rfl⟩
abbrev main_v50 : Ref sig .tc := ⟨.hbm, 75, rfl⟩
abbrev main_c_6 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_7 : Ref sig .tc := ⟨.hbm, 82, rfl⟩
abbrev main_v56 : Ref sig .tc := ⟨.hbm, 83, rfl⟩
abbrev main_cst_8 : Ref sig .tc := ⟨.hbm, 84, rfl⟩
abbrev main_v57 : Ref sig .tc := ⟨.hbm, 85, rfl⟩
abbrev main_c_9 : Ref sig .tc := ⟨.hbm, 86, rfl⟩
abbrev main_v58 : Ref sig .tc := ⟨.hbm, 87, rfl⟩
abbrev main_v59 : Ref sig .tc := ⟨.hbm, 88, rfl⟩
abbrev main_c_10 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_c_11 : Ref sig .tc := ⟨.hbm, 95, rfl⟩
abbrev main_v65 : Ref sig .tc := ⟨.hbm, 96, rfl⟩
abbrev main_v66 : Ref sig .tc := ⟨.hbm, 97, rfl⟩
abbrev main_c_12 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_13 : Ref sig .tc := ⟨.hbm, 104, rfl⟩
abbrev main_call3_v0 : Ref sig .tc := ⟨.hbm, 105, rfl⟩
abbrev main_call3_v1 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_call4_cst : Ref sig .tc := ⟨.hbm, 115, rfl⟩
abbrev main_call4_v0 : Ref sig .tc := ⟨.hbm, 116, rfl⟩
abbrev main_v80 : Ref sig .tc := ⟨.hbm, 117, rfl⟩

abbrev nD : Nat := 1
abbrev τ : Topo := Topo.v7x

variable {F : FTy → Type} [FloatOps F]

class Facts₀ : Prop where
  slices_S200000x2_S200000x1_0_0 : S200000x2.Slices ![0, 0] S200000x1
  shapeCasts_S200000x1_S200000 : S200000x1.ShapeCasts S200000
  slices_S200000x2_S200000x1_0_1 : S200000x2.Slices ![0, 1] S200000x1
  bcast_S_S200000 : S_.BroadcastsInDim S200000 (![] : Fin 0 → Fin S200000.rank)
  bcast_S200000_S200000x1_0 : S200000.BroadcastsInDim S200000x1 (![0] : Fin 1 → Fin S200000x1.rank)
  concatenates_S200000x128_S200000x128_S200000x128_S200000x384_d1 : Shape.Concatenates [S200000x128, S200000x128, S200000x128] S200000x384 1
  bcast_S768_S1x768_1 : S768.BroadcastsInDim S1x768 (![1] : Fin 1 → Fin S1x768.rank)
  bcast_S1x768_S200000x768_0_1 : S1x768.BroadcastsInDim S200000x768 (![0, 1] : Fin 2 → Fin S200000x768.rank)
  bcast_S_S200000x768 : S_.BroadcastsInDim S200000x768 (![] : Fin 0 → Fin S200000x768.rank)
  slices_S200000x768_S200000x256_0_0 : S200000x768.Slices ![0, 0] S200000x256
  slices_S200000x768_S200000x256_0_256 : S200000x768.Slices ![0, 256] S200000x256
  slices_S200000x768_S200000x256_0_512 : S200000x768.Slices ![0, 512] S200000x256
  concatenates_S200000x256_S200000x256_S200000x256_S200000x768_d1 : Shape.Concatenates [S200000x256, S200000x256, S200000x256] S200000x768 1
  bcast_S512_S1x512_1 : S512.BroadcastsInDim S1x512 (![1] : Fin 1 → Fin S1x512.rank)
  bcast_S1x512_S200000x512_0_1 : S1x512.BroadcastsInDim S200000x512 (![0, 1] : Fin 2 → Fin S200000x512.rank)
  bcast_S_S200000x512 : S_.BroadcastsInDim S200000x512 (![] : Fin 0 → Fin S200000x512.rank)
  concatenates_S200000x256_S200000x512_S200000x256_S200000x1024_d1 : Shape.Concatenates [S200000x256, S200000x512, S200000x256] S200000x1024 1
  slices_S200000x512_S200000x256_0_0 : S200000x512.Slices ![0, 0] S200000x256
  slices_S200000x512_S200000x256_0_256 : S200000x512.Slices ![0, 256] S200000x256
  bcast_S_S100000x256 : S_.BroadcastsInDim S100000x256 (![] : Fin 0 → Fin S100000x256.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S1x512_S100000x512_0_1 : S1x512.BroadcastsInDim S100000x512 (![0, 1] : Fin 2 → Fin S100000x512.rank)
  bcast_S_S100000x512 : S_.BroadcastsInDim S100000x512 (![] : Fin 0 → Fin S100000x512.rank)
  gather_S100000x128_S200000x1_S200000x128_1_0_n_n_0_1_1128_wf : GatherDims.WF S100000x128 S200000x1 S200000x128 [1] [0] [] [0] [] 1 ![1, 128]
  dot_S200000x384_S384x768_S200000x768_1_0_0_1_n_n_wf : DotDims.WF S200000x384 S384x768 S200000x768 [1] [0] [0] [1] [] []
  dot_S200000x768_S768x512_S200000x512_1_0_0_1_n_n_wf : DotDims.WF S200000x768 S768x512 S200000x512 [1] [0] [0] [1] [] []
  dot_S200000x1024_S1024x512_S200000x512_1_0_0_1_n_n_wf : DotDims.WF S200000x1024 S1024x512 S200000x512 [1] [0] [0] [1] [] []
  scatter_S100000x256_S200000x1_S200000x256_1_0_0_1_wf : ScatterDims.WF S100000x256 S200000x1 S200000x256 [1] [0] [0] 1
  scatter_S100000_S200000x1_S200000_n_0_0_1_wf : ScatterDims.WF S100000 S200000x1 S200000 [] [0] [0] 1
  dot_S100000x256_S256x512_S100000x512_1_0_0_1_n_n_wf : DotDims.WF S100000x256 S256x512 S100000x512 [1] [0] [0] [1] [] []

variable [Facts₀]

def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def dot_S200000x384_S384x768_S200000x768_1_0_0_1_n_n : DotDims S200000x384 S384x768 S200000x768 where
  lhsContracting := [1]
  rhsContracting := [0]
  lhsNonContracting := [0]
  rhsNonContracting := [1]
  lhsBatch := []
  rhsBatch := []
  wf := dot_S200000x384_S384x768_S200000x768_1_0_0_1_n_n_wf
def dot_S200000x768_S768x512_S200000x512_1_0_0_1_n_n : DotDims S200000x768 S768x512 S200000x512 where
  lhsContracting := [1]
  rhsContracting := [0]
  lhsNonContracting := [0]
  rhsNonContracting := [1]
  lhsBatch := []
  rhsBatch := []
  wf := dot_S200000x768_S768x512_S200000x512_1_0_0_1_n_n_wf
def dot_S200000x1024_S1024x512_S200000x512_1_0_0_1_n_n : DotDims S200000x1024 S1024x512 S200000x512 where
  lhsContracting := [1]
  rhsContracting := [0]
  lhsNonContracting := [0]
  rhsNonContracting := [1]
  lhsBatch := []
  rhsBatch := []
  wf := dot_S200000x1024_S1024x512_S200000x512_1_0_0_1_n_n_wf
def scatter_S100000x256_S200000x1_S200000x256_1_0_0_1 : ScatterDims S100000x256 S200000x1 S200000x256 where
  updateWindowDims := [1]
  insertedWindowDims := [0]
  scatterDimsToOperandDims := [0]
  indexVectorDim := 1
  wf := scatter_S100000x256_S200000x1_S200000x256_1_0_0_1_wf
def scatter_S100000_S200000x1_S200000_n_0_0_1 : ScatterDims S100000 S200000x1 S200000 where
  updateWindowDims := []
  insertedWindowDims := [0]
  scatterDimsToOperandDims := [0]
  indexVectorDim := 1
  wf := scatter_S100000_S200000x1_S200000_n_0_0_1_wf
def dot_S100000x256_S256x512_S100000x512_1_0_0_1_n_n : DotDims S100000x256 S256x512 S100000x512 where
  lhsContracting := [1]
  rhsContracting := [0]
  lhsNonContracting := [0]
  rhsNonContracting := [1]
  lhsBatch := []
  rhsBatch := []
  wf := dot_S100000x256_S256x512_S100000x512_1_0_0_1_n_n_wf

class Facts : Prop extends Facts₀ where

variable [Facts]
-- ==== Proof.Spec.lean ====
/-
  One message-passing step of a graph network, as whole-array functions on the extended reals.

  Every edge t has a subject row s(t), a predicate row p(t) and an object row o(t), each 128 wide. With
  relu x = max x 0 and a dense layer  dense A W b = relu (A · W + b)  (row r, column c: the sum over k of
  A(r,k) · W(k,c), plus b(c), then the rectifier):

    hidden   = dense [s | p | o] W_in b_in                          200000 × 768
    new_pred = dense hidden W_edge b_edge                           200000 × 512
    new_t    = dense [hidden[:, 0:256] | new_pred | hidden[:, 512:768]] W_node b_node
    new_s, new_o = new_t[:, 0:256], new_t[:, 256:512]

  and, once the rows new_s, new_o have been summed into their nodes (pooled, with counts the number of edge ends
  at a node):

    new_obj  = dense (pooled / max 1 counts) W_out b_out            100000 × 512.

  [A | B | C] joins three matrices of equal height side by side. The last section is the one algebraic law the
  comparison of the two programs needs: a dense layer over a three-way join is the rectified sum of three
  products, one per piece against the matching rows of the weights. It only regroups a finite sum in a
  commutative monoid, so it holds for all extended reals, the infinities included.
-/
import Idealize.ShloMosaic.PureOps.Ideal
import Idealize.ShloMosaic.Lib.ValueIdx

noncomputable section

namespace Cert.EdgeNet

open Idealize.ShloMosaic Idealize.ShloMosaic.ValueIdx

/-- A matrix of extended reals with M rows and N columns. -/
abbrev Mat (M N : Nat) : Type := (⟨2, ![M, N]⟩ : Shape).Idx → EReal
/-- A vector of extended reals of length N. -/
abbrev Vect (N : Nat) : Type := (⟨1, ![N]⟩ : Shape).Idx → EReal

variable {M K N : Nat}

/-! ## A dense layer with its rectifier -/

/-- Entry (r, c) of relu (A · W + b). -/
def dense (A : Mat M K) (W : Mat K N) (b : Vect N) : Mat M N :=
  fun i => max (∑ k : Fin K, A (ix2 (i 0) k) * W (ix2 k (i 1)) + b (ix1 (i 1))) 0

theorem dense_apply (A : Mat M K) (W : Mat K N) (b : Vect N) (r : Fin M) (c : Fin N) :
    dense A W b (ix2 r c) = max (∑ k : Fin K, A (ix2 r k) * W (ix2 k c) + b (ix1 c)) 0 := rfl

/-! ## Columns: a window of them, and three matrices side by side -/

/-- Columns off, …, off + w - 1 of A. -/
def cols (off w : Nat) (h : off + w ≤ N) (A : Mat M N) : Mat M w :=
  fun i => A (ix2 (i 0) ⟨off + (i 1).val, by have := idx2_lt1 i; omega⟩)

theorem cols_apply (off w : Nat) (h : off + w ≤ N) (A : Mat M N) (r : Fin M) (c : Fin w) :
    cols off w h A (ix2 r c) = A (ix2 r ⟨off + c.val, by have := c.isLt; omega⟩) := rfl

variable {a b c : Nat}

/-- [A | B | C]: column j comes from A for j < a, from B for a ≤ j < a + b, from C beyond. -/
def join3 (n : Nat) (h : n = a + b + c) (A : Mat M a) (B : Mat M b) (C : Mat M c) : Mat M n :=
  fun i =>
    if h1 : (i 1).val < a then A (ix2 (i 0) ⟨(i 1).val, h1⟩)
    else if h2 : (i 1).val < a + b then B (ix2 (i 0) ⟨(i 1).val - a, by omega⟩)
    else C (ix2 (i 0) ⟨(i 1).val - (a + b), by have := idx2_lt1 i; omega⟩)

theorem join3_apply (n : Nat) (h : n = a + b + c) (A : Mat M a) (B : Mat M b) (C : Mat M c) (r : Fin M) (j : Fin n) :
    join3 n h A B C (ix2 r j) =
      if h1 : j.val < a then A (ix2 r ⟨j.val, h1⟩)
      else if h2 : j.val < a + b then B (ix2 r ⟨j.val - a, by omega⟩)
      else C (ix2 r ⟨j.val - (a + b), by have := j.isLt; omega⟩) := rfl

/-- A 1 × N matrix read as a vector of length N. -/
def rowVec (x : Mat 1 N) : Vect N := fun j => x (ix2 ⟨0, Nat.one_pos⟩ (j 0))

theorem rowVec_apply (x : Mat 1 N) (c : Fin N) : rowVec x (ix1 c) = x (ix2 ⟨0, Nat.one_pos⟩ c) := rfl

/-! ## The layers -/

/-- hidden = dense [s | p | o] W_in b_in. -/
def hidden (s p o : Mat M 128) (Win : Mat 384 768) (bin : Vect 768) : Mat M 768 :=
  dense (join3 384 rfl s p o) Win bin

/-- new_pred = dense hidden W_edge b_edge. -/
def newPred (hid : Mat M 768) (Wedge : Mat 768 512) (bedge : Vect 512) : Mat M 512 :=
  dense hid Wedge bedge

/-- new_t = dense [hidden[:, 0:256] | new_pred | hidden[:, 512:768]] W_node b_node. -/
def newT (hid : Mat M 768) (np : Mat M 512) (Wnode : Mat 1024 512) (bnode : Vect 512) : Mat M 512 :=
  dense (join3 1024 rfl (cols 0 256 (by omega) hid) np (cols 512 256 (by omega) hid)) Wnode bnode

/-- The pooled rows divided by the number of edge ends at the node, that number raised to 1 where it is smaller. -/
def normed (pooled : Mat M 256) (counts : Mat M 1) : Mat M 256 :=
  fun i => Ideal.div (pooled i) (max 1 (counts (ix2 (i 0) ⟨0, Nat.one_pos⟩)))

theorem normed_apply (pooled : Mat M 256) (counts : Mat M 1) (r : Fin M) (k : Fin 256) :
    normed pooled counts (ix2 r k) = Ideal.div (pooled (ix2 r k)) (max 1 (counts (ix2 r ⟨0, Nat.one_pos⟩))) := rfl

/-- new_obj = dense (pooled / max 1 counts) W_out b_out. -/
def newObj (pooled : Mat M 256) (counts : Mat M 1) (Wout : Mat 256 512) (bout : Vect 512) : Mat M 512 :=
  dense (normed pooled counts) Wout bout

/-! ## A dense layer over three matrices side by side is three products -/

/-- Entry (r, col) of dense [A | B | C] W bias: the contraction over the joined columns splits into the contraction of
    A against the first a rows of W, of B against the next b rows and of C against the last c rows. Only the
    grouping of a finite sum changes, so nothing is asked of the entries. -/
theorem dense_join3 (n : Nat) (h : n = a + b + c) (A : Mat M a) (B : Mat M b) (C : Mat M c) (W : Mat n N) (bias : Vect N)
    (r : Fin M) (col : Fin N) :
    dense (join3 n h A B C) W bias (ix2 r col) =
      max ((∑ k : Fin a, A (ix2 r k) * W (ix2 ⟨k.val, by omega⟩ col))
          + (∑ k : Fin b, B (ix2 r k) * W (ix2 ⟨a + k.val, by omega⟩ col))
          + (∑ k : Fin c, C (ix2 r k) * W (ix2 ⟨a + b + k.val, by omega⟩ col))
          + bias (ix1 col)) 0 := by
  subst h
  rw [dense_apply, Fin.sum_univ_add, Fin.sum_univ_add]
  have hA : ∀ k : Fin a, join3 (a + b + c) rfl A B C (ix2 r (Fin.castAdd c (Fin.castAdd b k)))
      * W (ix2 (Fin.castAdd c (Fin.castAdd b k)) col) = A (ix2 r k) * W (ix2 ⟨k.val, by omega⟩ col) := by
    intro k
    rw [join3_apply, dif_pos (show (Fin.castAdd c (Fin.castAdd b k)).val < a from k.isLt)]
    rfl
  have hB : ∀ k : Fin b, join3 (a + b + c) rfl A B C (ix2 r (Fin.castAdd c (Fin.natAdd a k)))
      * W (ix2 (Fin.castAdd c (Fin.natAdd a k)) col) = B (ix2 r k) * W (ix2 ⟨a + k.val, by omega⟩ col) := by
    intro k
    have e : (Fin.castAdd c (Fin.natAdd a k)).val = a + k.val := rfl
    rw [join3_apply, dif_neg (by rw [e]; omega), dif_pos (by rw [e]; omega)]
    have ek : (⟨(Fin.castAdd c (Fin.natAdd a k)).val - a, by rw [e]; omega⟩ : Fin b) = k :=
      Fin.ext (by show a + k.val - a = k.val; omega)
    rw [ek]
    rfl
  have hC : ∀ k : Fin c, join3 (a + b + c) rfl A B C (ix2 r (Fin.natAdd (a + b) k))
      * W (ix2 (Fin.natAdd (a + b) k) col) = C (ix2 r k) * W (ix2 ⟨a + b + k.val, by omega⟩ col) := by
    intro k
    have e : (Fin.natAdd (a + b) k).val = a + b + k.val := rfl
    rw [join3_apply, dif_neg (by rw [e]; omega), dif_neg (by rw [e]; omega)]
    have ek : (⟨(Fin.natAdd (a + b) k).val - (a + b), by rw [e]; omega⟩ : Fin c) = k :=
      Fin.ext (by show a + b + k.val - (a + b) = k.val; omega)
    rw [ek]
    rfl
  simp only [hA, hB, hC]

/-! ## The same law, array to array, and the node update in its two forms -/

/-- Rows off, …, off + h - 1 of W. -/
def rows (off h : Nat) (hle : off + h ≤ K) (W : Mat K N) : Mat h N :=
  fun i => W (ix2 ⟨off + (i 0).val, by have := idx2_lt0 i; omega⟩ (i 1))

theorem rows_apply (off h : Nat) (hle : off + h ≤ K) (W : Mat K N) (k : Fin h) (col : Fin N) :
    rows off h hle W (ix2 k col) = W (ix2 ⟨off + k.val, by have := k.isLt; omega⟩ col) := rfl

/-- relu (A · Wa + B · Wb + C · Wc + bias): three products, summed in that order, then the bias. -/
def dense3 (A : Mat M a) (Wa : Mat a N) (B : Mat M b) (Wb : Mat b N) (C : Mat M c) (Wc : Mat c N) (bias : Vect N) :
    Mat M N :=
  fun i => max ((∑ k : Fin a, A (ix2 (i 0) k) * Wa (ix2 k (i 1)))
      + (∑ k : Fin b, B (ix2 (i 0) k) * Wb (ix2 k (i 1)))
      + (∑ k : Fin c, C (ix2 (i 0) k) * Wc (ix2 k (i 1)))
      + bias (ix1 (i 1))) 0

theorem dense3_apply (A : Mat M a) (Wa : Mat a N) (B : Mat M b) (Wb : Mat b N) (C : Mat M c) (Wc : Mat c N)
    (bias : Vect N) (r : Fin M) (col : Fin N) :
    dense3 A Wa B Wb C Wc bias (ix2 r col) =
      max ((∑ k : Fin a, A (ix2 r k) * Wa (ix2 k col)) + (∑ k : Fin b, B (ix2 r k) * Wb (ix2 k col))
        + (∑ k : Fin c, C (ix2 r k) * Wc (ix2 k col)) + bias (ix1 col)) 0 := rfl

/-- A dense layer over [A | B | C] is the three-product layer of A, B, C against the first a, the next b and the last c
    rows of the weights. -/
theorem dense_join3_eq (n : Nat) (h : n = a + b + c) (A : Mat M a) (B : Mat M b) (C : Mat M c) (W : Mat n N)
    (bias : Vect N) :
    dense (join3 n h A B C) W bias
      = dense3 A (rows 0 a (by omega) W) B (rows a b (by omega) W) C (rows (a + b) c (by omega) W) bias := by
  funext i
  obtain ⟨r, col, rfl⟩ : ∃ (r : Fin M) (col : Fin N), i = ix2 r col := ⟨i 0, i 1, eq_ix2 i⟩
  rw [dense_join3, dense3_apply]
  simp only [rows_apply, Nat.zero_add]

/-- The node update as three products: the first 256 hidden columns, new_pred, and the last 256 hidden columns, each
    against its own weights. -/
def newT3 (hid : Mat M 768) (np : Mat M 512) (Ws : Mat 256 512) (Wp : Mat 512 512) (Wo : Mat 256 512)
    (bnode : Vect 512) : Mat M 512 :=
  dense3 (cols 0 256 (by omega) hid) Ws np Wp (cols 512 256 (by omega) hid) Wo bnode

/-- The two forms of the node update agree: the three weight matrices are rows 0–255, 256–767 and 768–1023 of W_node. -/
theorem newT_eq_newT3 (hid : Mat M 768) (np : Mat M 512) (Wnode : Mat 1024 512) (bnode : Vect 512) :
    newT hid np Wnode bnode
      = newT3 hid np (rows 0 256 (by omega) Wnode) (rows 256 512 (by omega) Wnode) (rows 768 256 (by omega) Wnode) bnode :=
  dense_join3_eq 1024 rfl _ _ _ Wnode bnode

end Cert.EdgeNet

end
-- ==== Proof.Step.lean ====
/-
  What the two programs do identically around the dense layers, stated once.

  Column 0 of the edge list holds each edge's subject node, column 1 its object node. An entry e < 0 stands for the
  node e + 100000. The rows of a node table are gathered at those indices; per-edge rows are summed into their nodes,
  first by subject and then by object, starting from zero; and the number of edge ends at a node is the same sum with
  every row replaced by 1. Gathering and summing are taken as they are given, as functions of the index array: both
  programs apply the same ones to the same indices, so nothing here reads them at an entry.

  The shape facts the operations ask for are arguments: each program supplies its own.
-/
import proofs.«424232_j87694642250356_3_alg».proof.Proof.Spec
import Idealize.ShloMosaic.PureOps.Contract
import Idealize.ShloMosaic.PureOps.ShapeOps

noncomputable section

namespace Cert.EdgeNet

open Idealize.ShloMosaic

/-- The edge list, one column of it, that column as a vector, and a scalar. -/
abbrev SE : Shape := ⟨2, ![200000, 2]⟩
abbrev SC : Shape := ⟨2, ![200000, 1]⟩
abbrev SV : Shape := ⟨1, ![200000]⟩
abbrev S0 : Shape := ⟨0, ![]⟩

section Index

variable (off : Fin 2 → Nat) (hs : SE.Slices off SC) (hc : SC.ShapeCasts SV)
  (hb0 : S0.BroadcastsInDim SV (![] : Fin 0 → Fin SV.rank)) (hb1 : SV.BroadcastsInDim SC (![0] : Fin 1 → Fin SC.rank))

/-- One column of the edge list as a vector. -/
def column (edges : IVec SE 32) : IVec SV 32 := shapeCast SV (extractStridedSlice SC off edges hs) hc

/-- That column as node indices: a negative entry e is replaced by e + 100000; laid out as a 200000 × 1 index array. -/
def nodeIdx (edges : IVec SE 32) : IVec SC 32 :=
  broadcastInDim SC ![0] hb1
    (select (cmpi .slt (column off hs hc edges) (broadcastInDim SV ![] hb0 (constantI S0 32 0#32)))
      (addi (column off hs hc edges) (broadcastInDim SV ![] hb0 (constantI S0 32 100000#32)))
      (column off hs hc edges))

end Index

end Cert.EdgeNet

end
-- ==== Proof.Whole.lean ====
/-
  The two results of the step as functions of the eleven argument arrays.

  With sIdx, oIdx the subject and object node indices of the edges (a negative entry wrapped once), srows and orows the
  node table's rows gathered at them, and the layers of the specification:

    hid    = hidden srows pred_vecs orows W_in b_in
    pred   = newPred hid W_edge b_edge                                  -- the second result
    node   = newT hid pred W_node b_node
    pooled = 0  +[at sIdx] node[:, 0:256]  +[at oIdx] node[:, 256:512]   -- rows summed into their nodes
    counts = 0  +[at sIdx] 1               +[at oIdx] 1                  -- edge ends per node, as a 100000 × 1 column
    obj    = newObj pooled counts W_out b_out                            -- the first result

  Gathering and summing into nodes are the operations both programs print; they are applied, never read at an entry.
-/
import proofs.«424232_j87694642250356_3_alg».proof.KernelIdeal
import proofs.«424232_j87694642250356_3_alg».proof.Proof.Gen.KernelIdeal
import proofs.«424232_j87694642250356_3_alg».proof.Proof.Spec
import proofs.«424232_j87694642250356_3_alg».proof.Proof.Step

noncomputable section

namespace Cert.KernelIdeal.Whole

open Cert.KernelIdeal Cert.KernelIdeal.Gen Cert.EdgeNet Idealize.ShloMosaic

variable (x0 : Mat 100000 128) (x1 : Mat 200000 128) (e : IVec SE 32) (w3 : Mat 384 768) (b4 : Vect 768)
  (w5 : Mat 768 512) (b6 : Vect 512) (w7 : Mat 1024 512) (b8 : Vect 512) (w9 : Mat 256 512) (b10 : Vect 512)

/-- Subject and object node indices. -/
def sIdx : IVec SC 32 :=
  nodeIdx ![0, 0] slices_S200000x2_S200000x1_0_0 shapeCasts_S200000x1_S200000 bcast_S_S200000 bcast_S200000_S200000x1_0 e
def oIdx : IVec SC 32 :=
  nodeIdx ![0, 1] slices_S200000x2_S200000x1_0_1 shapeCasts_S200000x1_S200000 bcast_S_S200000 bcast_S200000_S200000x1_0 e

/-- The node table's rows at the subject and at the object of every edge. -/
def srows : Mat 200000 128 := Host.gather gather_S100000x128_S200000x1_S200000x128_1_0_n_n_0_1_1128 x0 (sIdx e)
def orows : Mat 200000 128 := Host.gather gather_S100000x128_S200000x1_S200000x128_1_0_n_n_0_1_1128 x0 (oIdx e)

def hid : Mat 200000 768 := hidden (srows x0 e) x1 (orows x0 e) w3 b4

/-- The second result. -/
def pred : Mat 200000 512 := newPred (hid x0 x1 e w3 b4) w5 b6

def node : Mat 200000 512 := newT (hid x0 x1 e w3 b4) (pred x0 x1 e w3 b4 w5 b6) w7 b8

/-- Per-edge rows summed into their nodes, by subject and then by object, from zero. -/
def pool (us uo : Mat 200000 256) : Mat 100000 256 :=
  Host.scatterAdd (F := Ideal) scatter_S100000x256_S200000x1_S200000x256_1_0_0_1
    (Host.scatterAdd (F := Ideal) scatter_S100000x256_S200000x1_S200000x256_1_0_0_1
      (broadcastInDim S100000x256 ![] bcast_S_S100000x256 (constant (F := Ideal) S_ .f32 0x00000000#32)) (sIdx e) us)
    (oIdx e) uo

/-- The number of edge ends at each node, as a column. -/
def counts : Mat 100000 1 :=
  shapeCast S100000x1
    (Host.scatterAdd (F := Ideal) scatter_S100000_S200000x1_S200000_n_0_0_1
      (Host.scatterAdd (F := Ideal) scatter_S100000_S200000x1_S200000_n_0_0_1
        (broadcastInDim S100000 ![] bcast_S_S100000 (constant (F := Ideal) S_ .f32 0x00000000#32)) (sIdx e)
        (broadcastInDim S200000 ![] bcast_S_S200000 (constant (F := Ideal) S_ .f32 0x3F800000#32)))
      (oIdx e) (broadcastInDim S200000 ![] bcast_S_S200000 (constant (F := Ideal) S_ .f32 0x3F800000#32)))
    shapeCasts_S100000_S100000x1

/-- The first result. -/
def obj : Mat 100000 512 :=
  newObj
    (pool e (cols 0 256 (by omega) (node x0 x1 e w3 b4 w5 b6 w7 b8)) (cols 256 256 (by omega) (node x0 x1 e w3 b4 w5 b6 w7 b8)))
    (counts e) w9 b10

end Cert.KernelIdeal.Whole

end
-- ==== Proof.Entry0.lean ====
/-
  What the first kernel finds in its eleven input arrays, as functions of the launch memory.

  The host operations before the kernel gather the node table's rows at the subject and object indices, change float
  formats (the identity on the extended reals), reshape the biases into one-row matrices and cut W_node into its rows
  0–255, 256–767 and 768–1023. The gather the program uses here replaces a row whose index is outside 0 … 99999 (after
  the wrap of a negative entry) by a fill value; when every entry e of the edge list has −100000 ≤ e < 100000 there is no
  such row, the fill is never taken, and the rows are the plain gather's.
-/
import proofs.«424232_j87694642250356_3_alg».proof.Defs
import proofs.«424232_j87694642250356_3_alg».proof.Proof.Gen.KernelIdeal.Frame
import proofs.«424232_j87694642250356_3_alg».proof.Proof.Gen.Pre_finite_inputs
import proofs.«424232_j87694642250356_3_alg».proof.Proof.Whole
import Idealize.ShloMosaic.Lib.StableHlo.Run
import Idealize.ShloMosaic.Lib.StableHlo.Predicate
import Idealize.ShloMosaic.Lib.ReduceAll
import Idealize.ShloMosaic.Lib.Pipeline.Value
import Idealize.ShloMosaic.Lib.ValueIdx
import Idealize.ShloMosaic.Lib.ValueLayout

set_option maxRecDepth 16384

noncomputable section

namespace Cert.KernelIdeal.Entry

open Cert.KernelIdeal Cert.KernelIdeal.Gen Cert.KernelIdeal.Whole Cert.EdgeNet
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The edge list as launched. -/
abbrev edges (c : Dev nD) : IVec SE 32 := m ((c : Thread nD τ).loc main_arg2)

/-- Every entry of the edge list, read as a signed integer, lies in −100000 … 99999. -/
def InRange : Prop :=
  ∀ (c : Dev nD) (i : SE.Idx), -100000 ≤ (edges m c i).toInt ∧ (edges m c i).toInt < 100000

/-! ## Signed compares of words, read as inequalities between integers -/

/-- The result of a reduction over every axis has one index. -/
instance : Subsingleton Cert.Pre_finite_inputs.S_.Idx := ⟨fun a b => funext fun d => d.elim0⟩

theorem sge_eq_one_iff (x y : BitVec 32) : IntOp.cmpi .sge x y = 1#1 ↔ y.toInt ≤ x.toInt := by
  show BitVec.ofBool (y.sle x) = 1#1 ↔ _
  rw [Predicate.ofBool_eq_one_iff]
  exact BitVec.sle_iff_toInt_le

theorem slt_eq_one_iff (x y : BitVec 32) : IntOp.cmpi .slt x y = 1#1 ↔ x.toInt < y.toInt := by
  show BitVec.ofBool (x.slt y) = 1#1 ↔ _
  rw [Predicate.ofBool_eq_one_iff]
  exact BitVec.slt_iff_toInt_lt

theorem sle_eq_one_iff (x y : BitVec 32) : IntOp.cmpi .sle x y = 1#1 ↔ x.toInt ≤ y.toInt := by
  show BitVec.ofBool (x.sle y) = 1#1 ↔ _
  rw [Predicate.ofBool_eq_one_iff]
  exact BitVec.sle_iff_toInt_le

/-- The precondition says so. -/
theorem inRange_of_pre [hP : Cert.Pre_finite_inputs.Facts] (h : Cert.Pre_KernelIdeal m) : InRange m := by
  intro c i
  -- the precondition at the one index of its result, its chain of operations unfolded
  have h0 := congrFun (h c) ValueIdx.ix0
  dsimp only [Cert.Pre_finite_inputs.fn, Cert.Pre_finite_inputs.fn_part1, Cert.Pre_finite_inputs.fn_part2,
    Cert.Pre_finite_inputs.fn_part3] at h0
  -- its last conjunct: the reduction by and, over both axes, of the two compares of the edge list
  have h1 := (IntOp.andi_eq_one.mp h0).2
  have h2 := Host.reduce_andi_all _ _ _ _ _ h1 i
  obtain ⟨hge, hlt⟩ := IntOp.andi_eq_one.mp h2
  have hge' : IntOp.cmpi .sge (edges m c i) 4294867296#32 = 1#1 := hge
  have hlt' : IntOp.cmpi .slt (edges m c i) 100000#32 = 1#1 := hlt
  rw [sge_eq_one_iff] at hge'
  rw [slt_eq_one_iff] at hlt'
  -- the two constants as signed integers
  have c1 : (4294867296#32 : BitVec 32).toInt = -100000 := by decide
  have c2 : (100000#32 : BitVec 32).toInt = 100000 := by decide
  rw [c1] at hge'
  rw [c2] at hlt'
  exact ⟨hge', hlt'⟩

/-! ## The guarded gather -/

/-- A fold by and, from 1, over ones is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self]
    exact foldl_andi_ones f l fun n hn => h n (List.mem_cons_of_mem _ hn)

/-- A reduction by and, from ones, of an array of ones is 1 at every index. -/
theorem reduce_andi_ones {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_ones x _ fun n _ => hx n

/-- The rows of a node table at an index array, a row whose index is outside 0 … 99999 replaced by a fill value:
    the operations of the program's gather after the wrap of the negative entries. -/
def guarded (x : Mat 100000 128) (w : IVec SC 32) : Mat 200000 128 :=
  select
    (broadcastInDim S200000x128 ![0] bcast_S200000_S200000x128_0
      (Host.reduce IntOp.andi
        (andi (cmpi .sge w (broadcastInDim S200000x1 ![] bcast_S_S200000x1 (constantI S_ 32 0#32)))
          (cmpi .sle w (broadcastInDim S200000x1 ![0, 1] bcast_S1x1_S200000x1_0_1
            (broadcastInDim S1x1 ![1] bcast_S1_S1x1_1 (constantI S1 32 99999#32)))))
        (constantI S_ 1 1#1) reducesTo_S200000x1_S200000_d1 h_S_))
    (Host.gather gather_S100000x128_S200000x1_S200000x128_1_0_n_n_0_1_1128 x w)
    (broadcastInDim S200000x128 ![] bcast_S_S200000x128 (constant (F := Ideal) S_ .f32 0x7FC00000#32))

/-- With every index in 0 … 99999 the fill is never taken: the guarded gather is the plain one. -/
theorem guarded_eq_gather (x : Mat 100000 128) (w : IVec SC 32)
    (hw : ∀ j, 0 ≤ (w j).toInt ∧ (w j).toInt ≤ 99999) :
    guarded x w = Host.gather gather_S100000x128_S200000x1_S200000x128_1_0_n_n_0_1_1128 x w := by
  funext i
  unfold guarded
  rw [select_apply]
  have hm : ∀ k, Host.reduce IntOp.andi
        (andi (cmpi .sge w (broadcastInDim S200000x1 ![] bcast_S_S200000x1 (constantI S_ 32 0#32)))
          (cmpi .sle w (broadcastInDim S200000x1 ![0, 1] bcast_S1x1_S200000x1_0_1
            (broadcastInDim S1x1 ![1] bcast_S1_S1x1_1 (constantI S1 32 99999#32)))))
        (constantI S_ 1 1#1) reducesTo_S200000x1_S200000_d1 h_S_ k = 1#1 := by
    intro k
    refine reduce_andi_ones _ _ _ _ (fun j => ?_) (fun _ => rfl) k
    show IntOp.andi (IntOp.cmpi .sge (w j) 0#32) (IntOp.cmpi .sle (w j) 99999#32) = 1#1
    rw [IntOp.andi_eq_one, sge_eq_one_iff, sle_eq_one_iff]
    have c0 : (0#32 : BitVec 32).toInt = 0 := by decide
    have c9 : (99999#32 : BitVec 32).toInt = 99999 := by decide
    rw [c0, c9]
    exact hw j
  have hb : broadcastInDim S200000x128 ![0] bcast_S200000_S200000x128_0
      (Host.reduce IntOp.andi
        (andi (cmpi .sge w (broadcastInDim S200000x1 ![] bcast_S_S200000x1 (constantI S_ 32 0#32)))
          (cmpi .sle w (broadcastInDim S200000x1 ![0, 1] bcast_S1x1_S200000x1_0_1
            (broadcastInDim S1x1 ![1] bcast_S1_S1x1_1 (constantI S1 32 99999#32)))))
        (constantI S_ 1 1#1) reducesTo_S200000x1_S200000_d1 h_S_) i = 1#1 := by
    unfold broadcastInDim
    exact hm _
  rw [hb, select_one]

/-! ## The wrapped index lies in 0 … 99999 -/

/-- A word in −100000 … 99999, with 100000 added when it is negative, lies in 0 … 99999: the addition does not wrap. -/
theorem wrap_range (v : BitVec 32) (hv : -100000 ≤ v.toInt ∧ v.toInt < 100000) :
    0 ≤ (Scalar.select (IntOp.cmpi .slt v 0#32) (IntOp.addi v 100000#32) v).toInt
      ∧ (Scalar.select (IntOp.cmpi .slt v 0#32) (IntOp.addi v 100000#32) v).toInt ≤ 99999 := by
  have c0 : (0#32 : BitVec 32).toInt = 0 := by decide
  have c1 : (100000#32 : BitVec 32).toInt = 100000 := by decide
  by_cases hneg : IntOp.cmpi .slt v 0#32 = 1#1
  · rw [hneg, select_one]
    rw [slt_eq_one_iff, c0] at hneg
    have e : (IntOp.addi v 100000#32).toInt = v.toInt + 100000 := by
      show (v + 100000#32).toInt = _
      rw [BitVec.toInt_add, c1]
      exact Int.bmod_eq_of_le (by omega) (by omega)
    rw [e]
    omega
  · have hz := eq_zero_of_ne_one hneg
    rw [slt_eq_one_iff, c0] at hneg
    rw [hz, select_zero]
    omega

/-- The node indices of a column of an edge list with entries in −100000 … 99999 lie in 0 … 99999. -/
theorem nodeIdx_range (off : Fin 2 → Nat) (hs : SE.Slices off SC) (hc : SC.ShapeCasts SV)
    (hb0 : S0.BroadcastsInDim SV (![] : Fin 0 → Fin SV.rank)) (hb1 : SV.BroadcastsInDim SC (![0] : Fin 1 → Fin SC.rank))
    (e : IVec SE 32) (he : ∀ i, -100000 ≤ (e i).toInt ∧ (e i).toInt < 100000) (j : SC.Idx) :
    0 ≤ (nodeIdx off hs hc hb0 hb1 e j).toInt ∧ (nodeIdx off hs hc hb0 hb1 e j).toInt ≤ 99999 := by
  unfold nodeIdx broadcastInDim
  rw [select_apply]
  -- the column read at an index is an entry of the edge list
  obtain ⟨i, hi⟩ : ∃ i, column off hs hc e
      (fun a => if h1 : SV.size a = 1 then ⟨0, by omega⟩ else ⟨(j (![0] a)).val, by
        have := hb1.2 a; have := (j (![0] a)).isLt; omega⟩) = e i := by
    unfold column shapeCast extractStridedSlice
    exact ⟨_, rfl⟩
  have key := wrap_range (e i) (he i)
  rw [← hi] at key
  exact key

/-! ## Reading a reshaped bias and a cut of the weights -/

/-- A vector reshaped to one row and read back as a vector is the vector. -/
theorem rowVec_addRow {N : Nat} (x : Vect N) (h : (⟨1, ![N]⟩ : Shape).ShapeCasts ⟨2, ![1, N]⟩) :
    rowVec (shapeCast ⟨2, ![1, N]⟩ x h) = x := by
  funext j
  obtain ⟨k, rfl⟩ : ∃ k : Fin N, j = ix1 k := ⟨j 0, eq_ix1 j⟩
  rw [rowVec_apply]
  exact shapeCast_a_1a_apply x h _ k

/-- The slice of h whole rows of a matrix starting at row off is rows off, …, off + h - 1 of it. -/
theorem slice_eq_rows {K N h : Nat} (off : Nat) (hle : off + h ≤ K) (W : Mat K N)
    (hs : (⟨2, ![K, N]⟩ : Shape).Slices ![off, 0] ⟨2, ![h, N]⟩) :
    extractStridedSlice ⟨2, ![h, N]⟩ ![off, 0] W hs = rows off h hle W := by
  funext j
  refine extractStridedSlice_apply ![off, 0] W hs j
    (ix2 ⟨off + (j 0).val, by have := idx2_lt0 j; omega⟩ (j 1)) (fun a => ?_)
  fin_cases a
  · rfl
  · show (j 1).val = 0 + (j 1).val
    omega

/-! ## The eleven arrays -/

set_option maxHeartbeats 1000000 in
theorem s_rows (hr : InRange m) (c : Dev nD) :
    V5 (F := Ideal) m ρ c main_v5 = srows (m ((c : Thread nD τ).loc main_arg0)) (edges m c) := by
  show StableHlo.after hostOps0_4 (W4 m ρ c) (Proc.devRef .tc main_v5) = _
  after_results_simp
  simp only [TRef.ofBuf, TRef.toBuf, cast_eq]
  -- what the host operations leave is the guarded gather at the wrapped indices, the float format changed
  show truncf (F := Ideal) .bf16 (guarded (m ((c : Thread nD τ).loc main_arg0)) (sIdx (edges m c))) bitsLt_bf16_f32 = _
  -- the wrapped indices lie in 0 … 99999, so the guard lets every row through
  rw [guarded_eq_gather (m ((c : Thread nD τ).loc main_arg0)) (sIdx (edges m c)) fun j =>
    nodeIdx_range ![0, 0] slices_S200000x2_S200000x1_0_0 shapeCasts_S200000x1_S200000 bcast_S_S200000
      bcast_S200000_S200000x1_0 (edges m c) (hr c) j]
  rfl

set_option maxHeartbeats 1000000 in
theorem o_rows (hr : InRange m) (c : Dev nD) :
    V5 (F := Ideal) m ρ c main_v7 = orows (m ((c : Thread nD τ).loc main_arg0)) (edges m c) := by
  show StableHlo.after hostOps0_4 (W4 m ρ c) (Proc.devRef .tc main_v7) = _
  after_results_simp
  simp only [TRef.ofBuf, TRef.toBuf, cast_eq]
  -- what the host operations leave is the guarded gather at the wrapped indices, the float format changed
  show truncf (F := Ideal) .bf16 (guarded (m ((c : Thread nD τ).loc main_arg0)) (oIdx (edges m c))) bitsLt_bf16_f32 = _
  -- the wrapped indices lie in 0 … 99999, so the guard lets every row through
  rw [guarded_eq_gather (m ((c : Thread nD τ).loc main_arg0)) (oIdx (edges m c)) fun j =>
    nodeIdx_range ![0, 1] slices_S200000x2_S200000x1_0_1 shapeCasts_S200000x1_S200000 bcast_S_S200000
      bcast_S200000_S200000x1_0 (edges m c) (hr c) j]
  rfl

theorem p_rows (c : Dev nD) : V5 (F := Ideal) m ρ c main_v8 = m ((c : Thread nD τ).loc main_arg1) := by
  show StableHlo.after hostOps0_4 (W4 m ρ c) (Proc.devRef .tc main_v8) = _
  after_results
  rfl

theorem w_in (c : Dev nD) : V5 (F := Ideal) m ρ c main_v9 = m ((c : Thread nD τ).loc main_arg3) := by
  show StableHlo.after hostOps0_4 (W4 m ρ c) (Proc.devRef .tc main_v9) = _
  after_results
  rfl

theorem b_in (c : Dev nD) : rowVec (V5 (F := Ideal) m ρ c main_v10) = m ((c : Thread nD τ).loc main_arg4) := by
  show rowVec (StableHlo.after hostOps0_4 (W4 m ρ c) (Proc.devRef .tc main_v10)) = _
  after_results
  exact rowVec_addRow (m ((c : Thread nD τ).loc main_arg4)) shapeCasts_S768_S1x768

theorem w_edge (c : Dev nD) : V5 (F := Ideal) m ρ c main_v11 = m ((c : Thread nD τ).loc main_arg5) := by
  show StableHlo.after hostOps0_4 (W4 m ρ c) (Proc.devRef .tc main_v11) = _
  after_results
  rfl

theorem b_edge (c : Dev nD) : rowVec (V5 (F := Ideal) m ρ c main_v12) = m ((c : Thread nD τ).loc main_arg6) := by
  show rowVec (StableHlo.after hostOps0_4 (W4 m ρ c) (Proc.devRef .tc main_v12)) = _
  after_results
  exact rowVec_addRow (m ((c : Thread nD τ).loc main_arg6)) shapeCasts_S512_S1x512

theorem w_node_s (c : Dev nD) :
    V5 (F := Ideal) m ρ c main_v14 = rows 0 256 (by omega) (m ((c : Thread nD τ).loc main_arg7)) := by
  show StableHlo.after hostOps0_4 (W4 m ρ c) (Proc.devRef .tc main_v14) = _
  after_results
  exact slice_eq_rows 0 (by omega) (m ((c : Thread nD τ).loc main_arg7)) slices_S1024x512_S256x512_0_0

theorem w_node_p (c : Dev nD) :
    V5 (F := Ideal) m ρ c main_v16 = rows 256 512 (by omega) (m ((c : Thread nD τ).loc main_arg7)) := by
  show StableHlo.after hostOps0_4 (W4 m ρ c) (Proc.devRef .tc main_v16) = _
  after_results
  exact slice_eq_rows 256 (by omega) (m ((c : Thread nD τ).loc main_arg7)) slices_S1024x512_S512x512_256_0

theorem w_node_o (c : Dev nD) :
    V5 (F := Ideal) m ρ c main_v18 = rows 768 256 (by omega) (m ((c : Thread nD τ).loc main_arg7)) := by
  show StableHlo.after hostOps0_4 (W4 m ρ c) (Proc.devRef .tc main_v18) = _
  after_results
  exact slice_eq_rows 768 (by omega) (m ((c : Thread nD τ).loc main_arg7)) slices_S1024x512_S256x512_768_0

theorem b_node (c : Dev nD) : rowVec (V5 (F := Ideal) m ρ c main_v19) = m ((c : Thread nD τ).loc main_arg8) := by
  show rowVec (StableHlo.after hostOps0_4 (W4 m ρ c) (Proc.devRef .tc main_v19)) = _
  after_results
  exact rowVec_addRow (m ((c : Thread nD τ).loc main_arg8)) shapeCasts_S512_S1x512

end Cert.KernelIdeal.Entry

end
-- ==== Proof.Entry1.lean ====
/-
  What the second kernel finds in its four input arrays, and where the two results stand when the program ends.

  Between the kernels the host sums the first kernel's two row outputs into their nodes (by subject, then by object, from
  zero), counts the edge ends at each node the same way, changes W_out's float format (the identity on the extended reals)
  and reshapes b_out into a one-row matrix. No operation after the first kernel writes its first output, so the second
  result is that array; the first result is the second kernel's output array.
-/
import proofs.«424232_j87694642250356_3_alg».proof.Proof.Gen.KernelIdeal.Frame
import proofs.«424232_j87694642250356_3_alg».proof.Proof.Whole
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Exit

open Cert.KernelIdeal Cert.KernelIdeal.Gen Cert.KernelIdeal.Whole Cert.EdgeNet
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## The first kernel's exit contents at buffers it does not write

The first kernel writes only its three outputs, and the host stretches before it write neither an argument nor, after
the first stretch, the two index vectors; so at these buffers the exit contents are the launch contents, or the edge
list's column cut out by the first stretch. -/

/-- The five host stretches before the first kernel, from the launch contents. -/
private abbrev before0 (c : Dev nD) : Valuation τ sig (Elt Ideal) :=
  StableHlo.after hostOps0_4 (StableHlo.after hostOps0_3 (StableHlo.after hostOps0_2 (StableHlo.after hostOps0_1
    (StableHlo.after hostOps0 (W0 (F := Ideal) m ρ c)))))

set_option maxHeartbeats 1000000 in
theorem W6_arg9 (c : Dev nD) :
    W6 (F := Ideal) m ρ c (Proc.devRef .tc main_arg9) = m ((c : Thread nD τ).loc main_arg9) := by
  rw [W6_of_ne m ρ c main_arg9 (by decide)]
  show before0 m ρ c (Proc.devRef .tc main_arg9) = _
  unfold before0
  after_results_simp

set_option maxHeartbeats 1000000 in
theorem W6_arg10 (c : Dev nD) :
    W6 (F := Ideal) m ρ c (Proc.devRef .tc main_arg10) = m ((c : Thread nD τ).loc main_arg10) := by
  rw [W6_of_ne m ρ c main_arg10 (by decide)]
  show before0 m ρ c (Proc.devRef .tc main_arg10) = _
  unfold before0
  after_results_simp

set_option maxHeartbeats 1000000 in
/-- The subject column of the edge list, as the first stretch cut it out. -/
theorem W6_v1 (c : Dev nD) :
    W6 (F := Ideal) m ρ c (Proc.devRef .tc main_v1)
      = column ![0, 0] slices_S200000x2_S200000x1_0_0 shapeCasts_S200000x1_S200000 (m ((c : Thread nD τ).loc main_arg2)) := by
  rw [W6_of_ne m ρ c main_v1 (by decide)]
  show before0 m ρ c (Proc.devRef .tc main_v1) = _
  unfold before0
  after_results_simp
  rfl

set_option maxHeartbeats 1000000 in
/-- The object column of the edge list. -/
theorem W6_v3 (c : Dev nD) :
    W6 (F := Ideal) m ρ c (Proc.devRef .tc main_v3)
      = column ![0, 1] slices_S200000x2_S200000x1_0_1 shapeCasts_S200000x1_S200000 (m ((c : Thread nD τ).loc main_arg2)) := by
  rw [W6_of_ne m ρ c main_v3 (by decide)]
  show before0 m ρ c (Proc.devRef .tc main_v3) = _
  unfold before0
  after_results_simp
  rfl

/-! ## The second kernel's four arrays -/

set_option maxHeartbeats 1000000 in
theorem pooled_in (c : Dev nD) :
    V7 (F := Ideal) m ρ c main_v35
      = pool (m ((c : Thread nD τ).loc main_arg2)) ((dat0 (F := Ideal) (V5 m ρ) c).arrAt 12 cfg0.N)
          ((dat0 (F := Ideal) (V5 m ρ) c).arrAt 13 cfg0.N) := by
  show StableHlo.after hostOps1 (W6 (F := Ideal) m ρ c) (Proc.devRef .tc main_v35) = _
  after_results_simp
  have h12 : W6 (F := Ideal) m ρ c (Proc.devRef .tc main_v20_1) = (dat0 (F := Ideal) (V5 m ρ) c).arrAt 12 cfg0.N :=
    W6_arr (F := Ideal) m ρ c 12
  have h13 : W6 (F := Ideal) m ρ c (Proc.devRef .tc main_v20_2) = (dat0 (F := Ideal) (V5 m ρ) c).arrAt 13 cfg0.N :=
    W6_arr (F := Ideal) m ρ c 13
  rw [W6_v1, W6_v3, h12, h13]
  unfold Whole.pool Whole.sIdx Whole.oIdx nodeIdx
  rfl

set_option maxHeartbeats 1000000 in
theorem counts_in (c : Dev nD) : V7 (F := Ideal) m ρ c main_v53 = counts (m ((c : Thread nD τ).loc main_arg2)) := by
  show StableHlo.after hostOps1 (W6 (F := Ideal) m ρ c) (Proc.devRef .tc main_v53) = _
  after_results_simp
  rw [W6_v1, W6_v3]
  unfold Whole.counts Whole.sIdx Whole.oIdx nodeIdx
  rfl

set_option maxHeartbeats 1000000 in
theorem w_out (c : Dev nD) : V7 (F := Ideal) m ρ c main_v54 = m ((c : Thread nD τ).loc main_arg9) := by
  show StableHlo.after hostOps1 (W6 (F := Ideal) m ρ c) (Proc.devRef .tc main_v54) = _
  after_results_simp
  rw [W6_arg9]
  rfl

set_option maxHeartbeats 1000000 in
theorem b_out (c : Dev nD) : rowVec (V7 (F := Ideal) m ρ c main_v55) = m ((c : Thread nD τ).loc main_arg10) := by
  show rowVec (StableHlo.after hostOps1 (W6 (F := Ideal) m ρ c) (Proc.devRef .tc main_v55)) = _
  after_results_simp
  rw [W6_arg10]
  funext j
  show shapeCast S1x512 (m ((c : Thread nD τ).loc main_arg10)) shapeCasts_S512_S1x512 (ix2 ⟨0, Nat.one_pos⟩ (j 0)) = _
  refine shapeCast_apply _ _ _ j ?_
  rw [Shape.rowMajor_val_one, Shape.rowMajor_val_two]
  show (j 0).val = 0 * _ + (j 0).val
  omega

/-! ## The two results when the program ends -/

theorem obj_at_end (c : Dev nD) :
    W8 (F := Ideal) m ρ c (Proc.devRef .tc main_v56) = (dat1 (F := Ideal) (V7 m ρ) c).arrAt 4 cfg1.N :=
  W8_arr (F := Ideal) m ρ c 4

theorem pred_at_end (c : Dev nD) :
    W8 (F := Ideal) m ρ c (Proc.devRef .tc main_v20_0) = (dat0 (F := Ideal) (V5 m ρ) c).arrAt 11 cfg0.N :=
  calc W8 (F := Ideal) m ρ c (Proc.devRef .tc main_v20_0)
    _ = W7 (F := Ideal) m ρ c (Proc.devRef .tc main_v20_0) := W8_of_ne m ρ c main_v20_0 (by decide)
    _ = W6 (F := Ideal) m ρ c (Proc.devRef .tc main_v20_0) :=
        StableHlo.after_of_forall_not_mem (b := Proc.devRef .tc main_v20_0) _ _ (List.forall_iff_forall_mem.mp (by
          simp only [hostOps1, List.flatten_cons, List.flatten_nil, List.append_nil, List.cons_append,
            List.nil_append, List.Forall, StableHlo.nullary_writes, StableHlo.unary_writes, StableHlo.binary_writes,
            StableHlo.ternary_writes, StableHlo.quaternary_writes, StableHlo.reshape_writes,
            StableHlo.binaryIndexed_writes, Finset.mem_singleton]
          repeat' apply And.intro
          all_goals exact StableHlo.devRef_ne_of_ne (by decide)))
    _ = (dat0 (F := Ideal) (V5 m ρ) c).arrAt 11 cfg0.N := W6_arr (F := Ideal) m ρ c 11

end Cert.KernelIdeal.Exit

end
-- ==== Proof.LibDotSum.lean ====
/-
  A matrix product with ONE contracted axis, read at an output index as a sum over that axis's coordinate.
  The library states the product's value as a sum over the dimension numbers' contraction index set of the operands at
  two computed operand indices. For the two patterns below the contraction index is one coordinate `k`, and the operand
  indices are (r, k), (k, c) for rows × columns, and (k, r), (k, c) when the left operand is contracted over its rows.
  Each is stated for any extents and any dimension-numbers record with those axis lists.
-/
import Idealize.ShloMosaic.PureOps.Ideal.Laws
import Idealize.ShloMosaic.Lib.ValueIdx

noncomputable section

namespace Cert.Lib

open Idealize.ShloMosaic Idealize.ShloMosaic.ValueIdx

variable {M K N : Nat}

/-! ## Rows × columns: left axis 1 against right axis 0 -/

/-- The dimension numbers of an [M, K] × [K, N] product. -/
def rc (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

theorem rc_lhs_0 (i : (⟨2, ![M, N]⟩ : Shape).Idx) (q : (rc wf).contr.Idx) : ((rc wf).lhsIdx i q 0).val = (i 0).val := by
  unfold DotDims.lhsIdx
  rw [dif_neg (show ¬(0 : Fin (⟨2, ![M, K]⟩ : Shape).rank) ∈ (rc wf).lhsBatch by simp [rc]),
    dif_pos (show (0 : Fin (⟨2, ![M, K]⟩ : Shape).rank) ∈ (rc wf).lhsNonContracting by simp [rc])]
  rfl
theorem rc_lhs_1 (i : (⟨2, ![M, N]⟩ : Shape).Idx) (q : (rc wf).contr.Idx) :
    ((rc wf).lhsIdx i q 1).val = (q ⟨0, Nat.one_pos⟩).val :=
  (rc wf).lhsIdx_val_of_single rfl i q
theorem rc_rhs_0 (i : (⟨2, ![M, N]⟩ : Shape).Idx) (q : (rc wf).contr.Idx) :
    ((rc wf).rhsIdx i q 0).val = (q ⟨0, Nat.one_pos⟩).val :=
  (rc wf).rhsIdx_val_of_single rfl i q
theorem rc_rhs_1 (i : (⟨2, ![M, N]⟩ : Shape).Idx) (q : (rc wf).contr.Idx) : ((rc wf).rhsIdx i q 1).val = (i 1).val := by
  unfold DotDims.rhsIdx
  rw [dif_neg (show ¬(1 : Fin (⟨2, ![K, N]⟩ : Shape).rank) ∈ (rc wf).rhsBatch by simp [rc]),
    dif_pos (show (1 : Fin (⟨2, ![K, N]⟩ : Shape).rank) ∈ (rc wf).rhsNonContracting by simp [rc])]
  rfl

/-- The contraction sum of a rows × columns product at (r, c) runs over the pairs (r, k), (k, c). -/
theorem sum_rc {β : Type} [AddCommMonoid β] (f : (⟨2, ![M, K]⟩ : Shape).Idx → (⟨2, ![K, N]⟩ : Shape).Idx → β)
    (r : Fin M) (c : Fin N) :
    ∑ k : (rc wf).contr.Idx, f ((rc wf).lhsIdx (ix2 r c) k) ((rc wf).rhsIdx (ix2 r c) k)
      = ∑ k : Fin K, f (ix2 r k) (ix2 k c) := by
  rw [← Equiv.sum_comp (contrEquiv1 (rc wf) K rfl rfl).symm]
  refine Finset.sum_congr rfl fun k _ => ?_
  have hk := contrEquiv1_symm_val (rc wf) K rfl rfl k
  have el : (rc wf).lhsIdx (ix2 r c) ((contrEquiv1 (rc wf) K rfl rfl).symm k) = ix2 r k := funext fun a => Fin.ext (by
    match a with
    | ⟨0, _⟩ => exact rc_lhs_0 wf _ _
    | ⟨1, _⟩ => exact (rc_lhs_1 wf _ _).trans hk)
  have er : (rc wf).rhsIdx (ix2 r c) ((contrEquiv1 (rc wf) K rfl rfl).symm k) = ix2 k c := funext fun a => Fin.ext (by
    match a with
    | ⟨0, _⟩ => exact (rc_rhs_0 wf _ _).trans hk
    | ⟨1, _⟩ => exact rc_rhs_1 wf _ _)
  rw [el, er]

/-- The same for any record with those axis lists. -/
theorem sum_contr_rc {β : Type} [AddCommMonoid β] (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (f : (⟨2, ![M, K]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 r k) (ix2 k c) := by
  obtain ⟨lc, rc', ln, rn, lb, rb, wf'⟩ := d
  simp only at hlc hrc hln hrn hlb hrb
  subst hlc hrc hln hrn hlb hrb
  exact sum_rc wf' f r c

/-! ## Left operand contracted over its rows: left axis 0 against right axis 0 -/

/-- The dimension numbers of a [K, M]ᵀ × [K, N] product. -/
def cc (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

variable (wg : DotDims.WF ⟨2, ![K, M]⟩ ⟨2, ![K, N]⟩ ⟨2, ![M, N]⟩ [0] [0] [1] [1] [] [])

theorem cc_lhs_0 (i : (⟨2, ![M, N]⟩ : Shape).Idx) (q : (cc wg).contr.Idx) :
    ((cc wg).lhsIdx i q 0).val = (q ⟨0, Nat.one_pos⟩).val :=
  (cc wg).lhsIdx_val_of_single rfl i q
theorem cc_lhs_1 (i : (⟨2, ![M, N]⟩ : Shape).Idx) (q : (cc wg).contr.Idx) : ((cc wg).lhsIdx i q 1).val = (i 0).val := by
  unfold DotDims.lhsIdx
  rw [dif_neg (show ¬(1 : Fin (⟨2, ![K, M]⟩ : Shape).rank) ∈ (cc wg).lhsBatch by simp [cc]),
    dif_pos (show (1 : Fin (⟨2, ![K, M]⟩ : Shape).rank) ∈ (cc wg).lhsNonContracting by simp [cc])]
  rfl
theorem cc_rhs_0 (i : (⟨2, ![M, N]⟩ : Shape).Idx) (q : (cc wg).contr.Idx) :
    ((cc wg).rhsIdx i q 0).val = (q ⟨0, Nat.one_pos⟩).val :=
  (cc wg).rhsIdx_val_of_single rfl i q
theorem cc_rhs_1 (i : (⟨2, ![M, N]⟩ : Shape).Idx) (q : (cc wg).contr.Idx) : ((cc wg).rhsIdx i q 1).val = (i 1).val := by
  unfold DotDims.rhsIdx
  rw [dif_neg (show ¬(1 : Fin (⟨2, ![K, N]⟩ : Shape).rank) ∈ (cc wg).rhsBatch by simp [cc]),
    dif_pos (show (1 : Fin (⟨2, ![K, N]⟩ : Shape).rank) ∈ (cc wg).rhsNonContracting by simp [cc])]
  rfl

/-- The contraction sum at (r, c) runs over the pairs (k, r), (k, c). -/
theorem sum_cc {β : Type} [AddCommMonoid β] (f : (⟨2, ![K, M]⟩ : Shape).Idx → (⟨2, ![K, N]⟩ : Shape).Idx → β)
    (r : Fin M) (c : Fin N) :
    ∑ k : (cc wg).contr.Idx, f ((cc wg).lhsIdx (ix2 r c) k) ((cc wg).rhsIdx (ix2 r c) k)
      = ∑ k : Fin K, f (ix2 k r) (ix2 k c) := by
  rw [← Equiv.sum_comp (contrEquiv1 (cc wg) K rfl rfl).symm]
  refine Finset.sum_congr rfl fun k _ => ?_
  have hk := contrEquiv1_symm_val (cc wg) K rfl rfl k
  have el : (cc wg).lhsIdx (ix2 r c) ((contrEquiv1 (cc wg) K rfl rfl).symm k) = ix2 k r := funext fun a => Fin.ext (by
    match a with
    | ⟨0, _⟩ => exact (cc_lhs_0 wg _ _).trans hk
    | ⟨1, _⟩ => exact cc_lhs_1 wg _ _)
  have er : (cc wg).rhsIdx (ix2 r c) ((contrEquiv1 (cc wg) K rfl rfl).symm k) = ix2 k c := funext fun a => Fin.ext (by
    match a with
    | ⟨0, _⟩ => exact (cc_rhs_0 wg _ _).trans hk
    | ⟨1, _⟩ => exact cc_rhs_1 wg _ _)
  rw [el, er]

/-- The same for any record with those axis lists. -/
theorem sum_contr_cc {β : Type} [AddCommMonoid β] (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = [])
    (f : (⟨2, ![K, M]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 k r) (ix2 k c) := by
  obtain ⟨lc, rc', ln, rn, lb, rb, wf'⟩ := d
  simp only at hlc hrc hln hrn hlb hrb
  subst hlc hrc hln hrn hlb hrb
  exact sum_cc wf' f r c

/-! ## The products themselves, at an output index -/

/-- A rows × columns block product into the zero accumulator, at (r, c): the sum over k of A (r, k) · B (k, c). -/
theorem matmul_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 r k) * B (ix2 k c) := by
  simp only [matmul]
  rw [Ideal.matmul_constant_zero_apply]
  exact sum_contr_rc d hlc hrc hln hrn hlb hrb (fun a b => A a * B b) r c

/-- A block product whose left operand is contracted over its rows, into the zero accumulator, at (r, c): the sum over
    k of A (k, r) · B (k, c). -/
theorem matmul_cc_apply {φ₁ φ₂ : FTy} (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = []) (prec : Option ContractPrecision)
    (A : FVec Ideal ⟨2, ![K, M]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 k r) * B (ix2 k c) := by
  simp only [matmul]
  rw [Ideal.matmul_constant_zero_apply]
  exact sum_contr_cc d hlc hrc hln hrn hlb hrb (fun a b => A a * B b) r c

/-- The host's rows × columns product at (r, c): the same sum. -/
theorem dotGeneral_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    Host.dotGeneral d prec A B (ix2 r c) = ∑ k : Fin K, A (ix2 r k) * B (ix2 k c) := by
  simp only [Host.dotGeneral]
  rw [Ideal.dotGeneral_apply]
  exact sum_contr_rc d hlc hrc hln hrn hlb hrb (fun a b => A a * B b) r c

end Cert.Lib

end
-- ==== Proof.EdgeBlock.lean ====
/-
  The first kernel's three dense layers on one block of 1600 edges, from the blocks it loads.

    hidden   = relu ([s | p | o] · W_in + b_in)
    new_pred = relu (hidden · W_edge + b_edge)
    new_t    = relu (hidden[:, 0:256] · W_s + new_pred · W_p + hidden[:, 512:768] · W_o + b_node)

  It stores new_pred, new_t[:, 0:256] and new_t[:, 256:512]. The copies of hidden and new_pred it keeps in a narrower float
  format are hidden and new_pred themselves on the extended reals.
-/
import proofs.«424232_j87694642250356_3_alg».proof.Proof.Gen.KernelIdeal.Skeleton
import proofs.«424232_j87694642250356_3_alg».proof.Proof.Spec
import proofs.«424232_j87694642250356_3_alg».proof.Proof.LibDotSum
import Idealize.ShloMosaic.Lib.Pipeline.Value
import Idealize.ShloMosaic.Lib.ValueIdx
import Idealize.ShloMosaic.Lib.ValueLayout

set_option maxRecDepth 16384

noncomputable section

namespace Cert.KernelIdeal.Edge

open Cert.KernelIdeal Cert.KernelIdeal.Gen Cert.EdgeNet
open Idealize.ShloMosaic Idealize.ShloMosaic.TcCoe Idealize.ShloMosaic.ValueIdx Idealize.SL.Sem

/-! ## The operations of one layer, read at an entry -/

section Layer

variable {M K N : Nat}

/-- The zero the rectifier compares against. -/
theorem zero_splat_apply (s : Shape) (i : s.Idx) :
    broadcast s (Scalar.ofBits (F := Ideal) .f32 0x00000000#32) i = 0 :=
  Ideal.ofBits_zero_f32

/-- The bias row, cast to its own shape and broadcast over the M rows, at (r, c): the row's entry c. -/
theorem bias_apply (b : Vec Ideal ⟨2, ![1, N]⟩ .f32) (hs : (⟨2, ![1, N]⟩ : Shape).ShapeCasts ⟨2, ![1, N]⟩)
    (hb : (⟨2, ![1, N]⟩ : Shape).Broadcasts ⟨2, ![M, N]⟩) (r : Fin M) (c : Fin N) :
    broadcastTo ⟨2, ![M, N]⟩ (shapeCast ⟨2, ![1, N]⟩ b hs) hb (ix2 r c) = rowVec b (ix1 c) := by
  rw [shapeCast_self, broadcastTo_1b_ab_apply, rowVec_apply]
  rfl

/-- relu (A · W + b) as the program writes it: one product into the zero accumulator, the bias row broadcast over the
    rows and added, the maximum against the zero splat. -/
theorem dense_ops {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (A : FVec Ideal ⟨2, ![M, K]⟩ φ₁) (W : FVec Ideal ⟨2, ![K, N]⟩ φ₂) (b : Vec Ideal ⟨2, ![1, N]⟩ .f32)
    (hs : (⟨2, ![1, N]⟩ : Shape).ShapeCasts ⟨2, ![1, N]⟩) (hb : (⟨2, ![1, N]⟩ : Shape).Broadcasts ⟨2, ![M, N]⟩) :
    maximumf (addf (matmul d none A W (constant (F := Ideal) ⟨2, ![M, N]⟩ .f32 0x00000000#32))
        (broadcastTo ⟨2, ![M, N]⟩ (shapeCast ⟨2, ![1, N]⟩ b hs) hb))
      (broadcast ⟨2, ![M, N]⟩ (Scalar.ofBits (F := Ideal) .f32 0x00000000#32))
    = dense A W (rowVec b) := by
  funext i
  obtain ⟨r, c, rfl⟩ : ∃ (r : Fin M) (c : Fin N), i = ix2 r c := ⟨i 0, i 1, eq_ix2 i⟩
  rw [maximumf_apply, addf_apply, zero_splat_apply, Cert.Lib.matmul_rc_apply d hlc hrc hln hrn hlb hrb, bias_apply,
    dense_apply]

end Layer

/-! ## Three blocks side by side -/

section Join

variable {M a b c : Nat} {φ : FTy}

/-- The program's concatenation of three blocks along the columns is the specification's [A | B | C]. -/
theorem concat3_eq_join3 (n : Nat) (hn : n = a + b + c) (A : FVec Ideal ⟨2, ![M, a]⟩ φ) (B : FVec Ideal ⟨2, ![M, b]⟩ φ)
    (C : FVec Ideal ⟨2, ![M, c]⟩ φ)
    (h : Shape.Concatenates [(⟨2, ![M, a]⟩ : Shape), ⟨2, ![M, b]⟩, ⟨2, ![M, c]⟩] ⟨2, ![M, n]⟩ 1) :
    concatenate ⟨2, ![M, n]⟩ 1 [⟨⟨2, ![M, a]⟩, A⟩, ⟨⟨2, ![M, b]⟩, B⟩, ⟨⟨2, ![M, c]⟩, C⟩] h = join3 n hn A B C := by
  funext i
  obtain ⟨r, l, rfl⟩ : ∃ (r : Fin M) (l : Fin n), i = ix2 r l := ⟨i 0, i 1, eq_ix2 i⟩
  rw [join3_apply]
  split
  · next h1 =>
    refine concatenate_apply_piece (t := ⟨2, ![M, n]⟩) 1
      [⟨⟨2, ![M, a]⟩, A⟩, ⟨⟨2, ![M, b]⟩, B⟩, ⟨⟨2, ![M, c]⟩, C⟩] h (ix2 r l) 0 (Nat.succ_pos _) ⟨2, ![M, a]⟩ A rfl rfl 0 rfl
      (ix2 r ⟨l.val, h1⟩) ?_ ?_
    · intro ax
      match ax with
      | ⟨0, _⟩ => exact fun _ => rfl
      | ⟨1, _⟩ => exact fun hne => absurd rfl hne
    · exact Nat.zero_add _
  · next h1 =>
    split
    · next h2 =>
      refine concatenate_apply_piece (t := ⟨2, ![M, n]⟩) 1
        [⟨⟨2, ![M, a]⟩, A⟩, ⟨⟨2, ![M, b]⟩, B⟩, ⟨⟨2, ![M, c]⟩, C⟩] h (ix2 r l) 1 (by simp) ⟨2, ![M, b]⟩ B rfl rfl a ?_
        (ix2 r ⟨l.val - a, by omega⟩) ?_ ?_
      · simp
      · intro ax
        match ax with
        | ⟨0, _⟩ => exact fun _ => rfl
        | ⟨1, _⟩ => exact fun hne => absurd rfl hne
      · show a + (l.val - a) = l.val
        omega
    · next h2 =>
      refine concatenate_apply_piece (t := ⟨2, ![M, n]⟩) 1
        [⟨⟨2, ![M, a]⟩, A⟩, ⟨⟨2, ![M, b]⟩, B⟩, ⟨⟨2, ![M, c]⟩, C⟩] h (ix2 r l) 2 (by simp) ⟨2, ![M, c]⟩ C rfl rfl (a + b) ?_
        (ix2 r ⟨l.val - (a + b), by have := l.isLt; omega⟩) ?_ ?_
      · simp
      · intro ax
        match ax with
        | ⟨0, _⟩ => exact fun _ => rfl
        | ⟨1, _⟩ => exact fun hne => absurd rfl hne
      · show a + b + (l.val - (a + b)) = l.val
        omega

end Join

/-! ## Three products into one sum, and a window of columns -/

section Three

variable {M N a b c : Nat}

/-- relu (A · Wa + B · Wb + C · Wc + bias) as the program writes it: the three products added in that order, the bias
    row broadcast over the rows and added, the maximum against the zero splat. The products come in as arrays with their
    entries known. -/
theorem dense3_ops (PA PB PC : FVec Ideal ⟨2, ![M, N]⟩ .f32) (A : Mat M a) (Wa : Mat a N) (B : Mat M b) (Wb : Mat b N)
    (C : Mat M c) (Wc : Mat c N)
    (hA : ∀ (r : Fin M) (col : Fin N), PA (ix2 r col) = ∑ k : Fin a, A (ix2 r k) * Wa (ix2 k col))
    (hB : ∀ (r : Fin M) (col : Fin N), PB (ix2 r col) = ∑ k : Fin b, B (ix2 r k) * Wb (ix2 k col))
    (hC : ∀ (r : Fin M) (col : Fin N), PC (ix2 r col) = ∑ k : Fin c, C (ix2 r k) * Wc (ix2 k col))
    (bias : Vec Ideal ⟨2, ![1, N]⟩ .f32)
    (hs : (⟨2, ![1, N]⟩ : Shape).ShapeCasts ⟨2, ![1, N]⟩) (hb : (⟨2, ![1, N]⟩ : Shape).Broadcasts ⟨2, ![M, N]⟩) :
    maximumf (addf (addf (addf PA PB) PC) (broadcastTo ⟨2, ![M, N]⟩ (shapeCast ⟨2, ![1, N]⟩ bias hs) hb))
      (broadcast ⟨2, ![M, N]⟩ (Scalar.ofBits (F := Ideal) .f32 0x00000000#32))
    = dense3 A Wa B Wb C Wc (rowVec bias) := by
  funext i
  obtain ⟨r, col, rfl⟩ : ∃ (r : Fin M) (col : Fin N), i = ix2 r col := ⟨i 0, i 1, eq_ix2 i⟩
  rw [maximumf_apply, addf_apply, addf_apply, addf_apply, zero_splat_apply, hA, hB, hC, bias_apply, dense3_apply]

/-- A unit-stride slice of whole rows from column o is the specification's window of columns. -/
theorem slice_eq_cols {φ : FTy} (o w : Nat) (h : o + w ≤ N) (X : FVec Ideal ⟨2, ![M, N]⟩ φ)
    (hs : (⟨2, ![M, N]⟩ : Shape).Slices ![0, o] ⟨2, ![M, w]⟩) :
    extractStridedSlice ⟨2, ![M, w]⟩ ![0, o] X hs = cols o w h X := by
  funext i
  obtain ⟨r, col, rfl⟩ : ∃ (r : Fin M) (col : Fin w), i = ix2 r col := ⟨i 0, i 1, eq_ix2 i⟩
  rw [slice2_axis1_eq, cols_apply]

end Three

/-! ## The body's values, from the blocks it loads -/

/-- A value narrowed to a smaller float format is itself on the extended reals. -/
theorem truncf_eq {s : Shape} {φ ψ : FTy} (a : FVec Ideal s φ) (h : ψ.bits < φ.bits) : (truncf ψ a h : FVec Ideal s ψ) = a := rfl

/-- The hidden layer (its narrower copy is the layer itself). -/
theorem hidden_eq (x0 x1 x2 : Vec Ideal S1600x128 .bf16) (x3 : Vec Ideal S384x768 .bf16) (x4 : Vec Ideal S1x768 .f32) :
    k0_pay4 (F := Ideal) x0 x1 x2 x3 x4 = hidden x0 x1 x2 x3 (rowVec x4) := by
  have e0 : shapeCast S1600x128 x0 shapeCasts_S1600x128_S1600x128 = x0 := shapeCast_self _ _
  have e1 : shapeCast S1600x128 x1 shapeCasts_S1600x128_S1600x128 = x1 := shapeCast_self _ _
  have e2 : shapeCast S1600x128 x2 shapeCasts_S1600x128_S1600x128 = x2 := shapeCast_self _ _
  have e3 : shapeCast S384x768 x3 shapeCasts_S384x768_S384x768 = x3 := shapeCast_self _ _
  have hc : concatenate S1600x384 1 [⟨S1600x128, shapeCast S1600x128 x0 shapeCasts_S1600x128_S1600x128⟩,
        ⟨S1600x128, shapeCast S1600x128 x1 shapeCasts_S1600x128_S1600x128⟩,
        ⟨S1600x128, shapeCast S1600x128 x2 shapeCasts_S1600x128_S1600x128⟩]
        concatenates_S1600x128_S1600x128_S1600x128_S1600x384_d1 = join3 384 rfl x0 x1 x2 :=
    (concat3_eq_join3 (φ := .bf16) 384 rfl _ _ _ _).trans (by rw [e0, e1, e2])
  unfold k0_pay4 Cert.EdgeNet.hidden
  dsimp only
  rw [hc, e3, truncf_eq]
  exact dense_ops dot_S1600x384_S384x768_S1600x768_1_0_0_1_n_n rfl rfl rfl rfl rfl rfl _ x3 x4 _ _

/-- new_pred, the first stored value. -/
theorem pred_eq (x0 x1 x2 : Vec Ideal S1600x128 .bf16) (x3 : Vec Ideal S384x768 .bf16) (x4 : Vec Ideal S1x768 .f32)
    (x5 : Vec Ideal S768x512 .bf16) (x6 : Vec Ideal S1x512 .f32) :
    k0_pay5 (F := Ideal) x0 x1 x2 x3 x4 x5 x6 = newPred (hidden x0 x1 x2 x3 (rowVec x4)) x5 (rowVec x6) := by
  have e5 : shapeCast S768x512 x5 shapeCasts_S768x512_S768x512 = x5 := shapeCast_self _ _
  unfold k0_pay5 Cert.EdgeNet.newPred
  dsimp only
  rw [hidden_eq, e5]
  exact dense_ops dot_S1600x768_S768x512_S1600x512_1_0_0_1_n_n rfl rfl rfl rfl rfl rfl _ x5 x6 _ _

/-- The node update from new_pred, the two outer thirds of hidden, and the three weight matrices. -/
theorem node_eq (hid : FVec Ideal S1600x768 .bf16) (np : FVec Ideal S1600x512 .bf16) (w7 : FVec Ideal S256x512 .bf16)
    (w8 : FVec Ideal S512x512 .bf16) (w9 : FVec Ideal S256x512 .bf16) (x10 : Vec Ideal S1x512 .f32) :
    k0_pay1 (F := Ideal) np
        (extractStridedSlice S1600x256 ![0, 0] hid slices_S1600x768_o0_0_S1600x256)
        (extractStridedSlice S1600x256 ![0, 512] hid slices_S1600x768_o0_512_S1600x256) w7 w8 w9 x10
      = newT3 hid np w7 w8 w9 (rowVec x10) := by
  rw [slice_eq_cols 0 256 (by omega) hid, slice_eq_cols 512 256 (by omega) hid]
  unfold k0_pay1 Cert.EdgeNet.newT3
  dsimp only
  exact dense3_ops _ _ _ _ w7 np w8 _ w9
    (fun r col => Cert.Lib.matmul_rc_apply dot_S1600x256_S256x512_S1600x512_1_0_0_1_n_n rfl rfl rfl rfl rfl rfl none _ _ r col)
    (fun r col => Cert.Lib.matmul_rc_apply dot_S1600x512_S512x512_S1600x512_1_0_0_1_n_n rfl rfl rfl rfl rfl rfl none _ _ r col)
    (fun r col => Cert.Lib.matmul_rc_apply dot_S1600x256_S256x512_S1600x512_1_0_0_1_n_n rfl rfl rfl rfl rfl rfl none _ _ r col)
    x10 _ _

/-- The second and third stored values: the first and the second 256 columns of the node update. -/
theorem node_s_eq (v26 : FVec Ideal S1600x512 .bf16) (v27 v28 : FVec Ideal S1600x256 .bf16) (v30 : FVec Ideal S256x512 .bf16)
    (v32 : FVec Ideal S512x512 .bf16) (v34 : FVec Ideal S256x512 .bf16) (v40 : Vec Ideal S1x512 .f32) :
    k0_pay2 (F := Ideal) v26 v27 v28 v30 v32 v34 v40 = cols 0 256 (by omega) (k0_pay1 (F := Ideal) v26 v27 v28 v30 v32 v34 v40) := by
  unfold k0_pay2
  exact slice_eq_cols 0 256 (by omega) _ _

theorem node_o_eq (v26 : FVec Ideal S1600x512 .bf16) (v27 v28 : FVec Ideal S1600x256 .bf16) (v30 : FVec Ideal S256x512 .bf16)
    (v32 : FVec Ideal S512x512 .bf16) (v34 : FVec Ideal S256x512 .bf16) (v40 : Vec Ideal S1x512 .f32) :
    k0_pay3 (F := Ideal) v26 v27 v28 v30 v32 v34 v40 = cols 256 256 (by omega) (k0_pay1 (F := Ideal) v26 v27 v28 v30 v32 v34 v40) := by
  unfold k0_pay3
  exact slice_eq_cols 256 256 (by omega) _ _

end Cert.KernelIdeal.Edge

end
-- ==== Proof.EdgeArrays.lean ====
/-
  The first kernel's three output arrays once its 125 blocks of 1600 edges are written back: new_pred, and the first and
  the second 256 columns of the node update, each as one function of the whole arrays the region found. A block of rows of
  a dense layer is the dense layer of that block of rows, so the 125 blocks tile the whole-array functions exactly.
-/
import proofs.«424232_j87694642250356_3_alg».proof.Proof.Gen.KernelIdeal.Frame
import proofs.«424232_j87694642250356_3_alg».proof.Proof.Spec
import proofs.«424232_j87694642250356_3_alg».proof.Proof.EdgeBlock
import proofs.«424232_j87694642250356_3_alg».proof.Proof.LibDotSum
import Idealize.ShloMosaic.Lib.Pipeline.Value
import Idealize.ShloMosaic.Lib.ValueIdx
import Idealize.ShloMosaic.Lib.ValueLayout

set_option maxRecDepth 16384

noncomputable section

namespace Cert.EdgeNet

open Idealize.ShloMosaic Idealize.ShloMosaic.ValueIdx

/-! ## A block of rows of a layer is the layer of that block of rows

Every layer reads row r of its result off row r of its row arguments alone, so taking rows off, …, off + h - 1 commutes
with each of them. -/

section Rows

variable {M K N : Nat} {a b c : Nat}

theorem rows_dense (off h : Nat) (hle : off + h ≤ M) (A : Mat M K) (W : Mat K N) (bias : Vect N) :
    dense (rows off h hle A) W bias = rows off h hle (dense A W bias) := by
  funext i
  obtain ⟨r, col, rfl⟩ : ∃ (r : Fin h) (col : Fin N), i = ix2 r col := ⟨i 0, i 1, eq_ix2 i⟩
  rfl

theorem rows_join3 (n : Nat) (hn : n = a + b + c) (off h : Nat) (hle : off + h ≤ M) (A : Mat M a) (B : Mat M b)
    (C : Mat M c) :
    join3 n hn (rows off h hle A) (rows off h hle B) (rows off h hle C) = rows off h hle (join3 n hn A B C) := by
  funext i
  obtain ⟨r, j, rfl⟩ : ∃ (r : Fin h) (j : Fin n), i = ix2 r j := ⟨i 0, i 1, eq_ix2 i⟩
  rfl

theorem rows_cols (o w : Nat) (hw : o + w ≤ N) (off h : Nat) (hle : off + h ≤ M) (A : Mat M N) :
    cols o w hw (rows off h hle A) = rows off h hle (cols o w hw A) := by
  funext i
  obtain ⟨r, j, rfl⟩ : ∃ (r : Fin h) (j : Fin w), i = ix2 r j := ⟨i 0, i 1, eq_ix2 i⟩
  rfl

theorem rows_dense3 (off h : Nat) (hle : off + h ≤ M) (A : Mat M a) (Wa : Mat a N) (B : Mat M b) (Wb : Mat b N)
    (C : Mat M c) (Wc : Mat c N) (bias : Vect N) :
    dense3 (rows off h hle A) Wa (rows off h hle B) Wb (rows off h hle C) Wc bias
      = rows off h hle (dense3 A Wa B Wb C Wc bias) := by
  funext i
  obtain ⟨r, col, rfl⟩ : ∃ (r : Fin h) (col : Fin N), i = ix2 r col := ⟨i 0, i 1, eq_ix2 i⟩
  rfl

theorem rows_hidden (off h : Nat) (hle : off + h ≤ M) (s p o : Mat M 128) (Win : Mat 384 768) (bin : Vect 768) :
    hidden (rows off h hle s) (rows off h hle p) (rows off h hle o) Win bin = rows off h hle (hidden s p o Win bin) := by
  unfold hidden
  rw [rows_join3, rows_dense]

theorem rows_newPred (off h : Nat) (hle : off + h ≤ M) (hd : Mat M 768) (Wedge : Mat 768 512) (bedge : Vect 512) :
    newPred (rows off h hle hd) Wedge bedge = rows off h hle (newPred hd Wedge bedge) :=
  rows_dense off h hle hd Wedge bedge

theorem rows_newT3 (off h : Nat) (hle : off + h ≤ M) (hd : Mat M 768) (np : Mat M 512) (Ws : Mat 256 512)
    (Wp : Mat 512 512) (Wo : Mat 256 512) (bnode : Vect 512) :
    newT3 (rows off h hle hd) (rows off h hle np) Ws Wp Wo bnode = rows off h hle (newT3 hd np Ws Wp Wo bnode) := by
  unfold newT3
  rw [rows_cols, rows_cols, rows_dense3]

end Rows

end Cert.EdgeNet

namespace Cert.KernelIdeal.Edge

open Cert.KernelIdeal Cert.KernelIdeal.Gen Cert.EdgeNet
open Idealize.ShloMosaic Idealize.ShloMosaic.TcCoe Idealize.ShloMosaic.ValueIdx Idealize.SL.Sem
open Idealize.ShloMosaic.Pipeline (Dat Cfg Window)

/-! ## The grid: which block each window holds at a point -/

theorem zero_offsets : (![0, 0] : Fin 2 → Nat) = fun _ => 0 := funext fun a => by fin_cases a <;> rfl

/-- At point t the three edge-row inputs and the three outputs are on block (t, 0); the weights and biases are on block
    (0, 0), their whole array. Decided over the 125 points. -/
theorem block_index : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0)
    ∧ (win0_13.index t (0 : Fin 2) = t.val ∧ win0_13.index t (1 : Fin 2) = 0) :=
  (by decide +kernel : ∀ t : Fin grid0.N, _)

theorem point_lt (t : Fin cfg0.N) : t.val < 125 := lt_of_lt_of_eq t.isLt N_0

theorem block_le (t : Fin cfg0.N) : 1600 * t.val + 1600 ≤ 200000 := by have := point_lt t; omega

/-! ## The three output arrays, for any contents the region is entered with -/

variable (V : (c : Dev nD) → (b : Ref sig .tc) → Buf (Elt Ideal) ((c : Thread nD τ).loc b))

/-- The hidden layer over the whole arrays the region found. -/
abbrev hid (c : Dev nD) : Mat 200000 768 :=
  hidden (V c main_v5) (V c main_v8) (V c main_v7) (V c main_v9) (rowVec (V c main_v10))

/-- new_pred over the whole arrays. -/
abbrev pred (c : Dev nD) : Mat 200000 512 := newPred (hid V c) (V c main_v11) (rowVec (V c main_v12))

/-- The node update over the whole arrays. -/
abbrev node (c : Dev nD) : Mat 200000 512 :=
  newT3 (hid V c) (pred V c) (V c main_v14) (V c main_v16) (V c main_v18) (rowVec (V c main_v19))

/-! ## The blocks a point loads: rows 1600 t … 1600 t + 1599 of the edge arrays, and the weights whole -/

theorem in_block0 (c : Dev nD) (t : Fin cfg0.N) :
    (iblk0 V c 0 t : Vec Ideal S1600x128 .bf16) = rows (1600 * t.val) 1600 (block_le t) (V c main_v5) := by
  obtain ⟨e0, e1⟩ := (block_index t).1
  funext y
  unfold iblk0
  rw [View.read_apply]
  show V c main_v5 (((cfg0.win 0).blk t).view.emb y) = V c main_v5 (ix2 ⟨1600 * t.val + (y 0).val, by have hy : (y 0).val < 1600 := (y 0).isLt; have := block_le t; omega⟩ (y 1))
  congr 1
  funext a
  apply Fin.ext
  match a with
  | ⟨0, _⟩ => show win0_0.index t (0 : Fin 2) * 1600 + 1 * (y 0).val = 1600 * t.val + (y 0).val; omega
  | ⟨1, _⟩ => show win0_0.index t (1 : Fin 2) * 128 + 1 * (y 1).val = (y 1).val; omega

theorem in_block1 (c : Dev nD) (t : Fin cfg0.N) :
    (iblk0 V c 1 t : Vec Ideal S1600x128 .bf16) = rows (1600 * t.val) 1600 (block_le t) (V c main_v8) := by
  obtain ⟨e0, e1⟩ := (block_index t).2.1
  funext y
  unfold iblk0
  rw [View.read_apply]
  show V c main_v8 (((cfg0.win 1).blk t).view.emb y) = V c main_v8 (ix2 ⟨1600 * t.val + (y 0).val, by have hy : (y 0).val < 1600 := (y 0).isLt; have := block_le t; omega⟩ (y 1))
  congr 1
  funext a
  apply Fin.ext
  match a with
  | ⟨0, _⟩ => show win0_1.index t (0 : Fin 2) * 1600 + 1 * (y 0).val = 1600 * t.val + (y 0).val; omega
  | ⟨1, _⟩ => show win0_1.index t (1 : Fin 2) * 128 + 1 * (y 1).val = (y 1).val; omega

theorem in_block2 (c : Dev nD) (t : Fin cfg0.N) :
    (iblk0 V c 2 t : Vec Ideal S1600x128 .bf16) = rows (1600 * t.val) 1600 (block_le t) (V c main_v7) := by
  obtain ⟨e0, e1⟩ := (block_index t).2.2.1
  funext y
  unfold iblk0
  rw [View.read_apply]
  show V c main_v7 (((cfg0.win 2).blk t).view.emb y) = V c main_v7 (ix2 ⟨1600 * t.val + (y 0).val, by have hy : (y 0).val < 1600 := (y 0).isLt; have := block_le t; omega⟩ (y 1))
  congr 1
  funext a
  apply Fin.ext
  match a with
  | ⟨0, _⟩ => show win0_2.index t (0 : Fin 2) * 1600 + 1 * (y 0).val = 1600 * t.val + (y 0).val; omega
  | ⟨1, _⟩ => show win0_2.index t (1 : Fin 2) * 128 + 1 * (y 1).val = (y 1).val; omega

theorem in_block3 (c : Dev nD) (t : Fin cfg0.N) : (iblk0 V c 3 t : Vec Ideal S384x768 .bf16) = V c main_v9 := by
  obtain ⟨e0, e1⟩ := (block_index t).2.2.2.1
  funext y
  unfold iblk0
  rw [View.read_apply]
  show V c main_v9 (((cfg0.win 3).blk t).view.emb y) = V c main_v9 y
  congr 1
  funext a
  apply Fin.ext
  match a with
  | ⟨0, _⟩ => show win0_3.index t (0 : Fin 2) * 384 + 1 * (y 0).val = (y 0).val; omega
  | ⟨1, _⟩ => show win0_3.index t (1 : Fin 2) * 768 + 1 * (y 1).val = (y 1).val; omega

theorem in_block4 (c : Dev nD) (t : Fin cfg0.N) : (iblk0 V c 4 t : Vec Ideal S1x768 .f32) = V c main_v10 := by
  obtain ⟨e0, e1⟩ := (block_index t).2.2.2.2.1
  funext y
  unfold iblk0
  rw [View.read_apply]
  show V c main_v10 (((cfg0.win 4).blk t).view.emb y) = V c main_v10 y
  congr 1
  funext a
  apply Fin.ext
  match a with
  | ⟨0, _⟩ => show win0_4.index t (0 : Fin 2) * 1 + 1 * (y 0).val = (y 0).val; omega
  | ⟨1, _⟩ => show win0_4.index t (1 : Fin 2) * 768 + 1 * (y 1).val = (y 1).val; omega

theorem in_block5 (c : Dev nD) (t : Fin cfg0.N) : (iblk0 V c 5 t : Vec Ideal S768x512 .bf16) = V c main_v11 := by
  obtain ⟨e0, e1⟩ := (block_index t).2.2.2.2.2.1
  funext y
  unfold iblk0
  rw [View.read_apply]
  show V c main_v11 (((cfg0.win 5).blk t).view.emb y) = V c main_v11 y
  congr 1
  funext a
  apply Fin.ext
  match a with
  | ⟨0, _⟩ => show win0_5.index t (0 : Fin 2) * 768 + 1 * (y 0).val = (y 0).val; omega
  | ⟨1, _⟩ => show win0_5.index t (1 : Fin 2) * 512 + 1 * (y 1).val = (y 1).val; omega

theorem in_block6 (c : Dev nD) (t : Fin cfg0.N) : (iblk0 V c 6 t : Vec Ideal S1x512 .f32) = V c main_v12 := by
  obtain ⟨e0, e1⟩ := (block_index t).2.2.2.2.2.2.1
  funext y
  unfold iblk0
  rw [View.read_apply]
  show V c main_v12 (((cfg0.win 6).blk t).view.emb y) = V c main_v12 y
  congr 1
  funext a
  apply Fin.ext
  match a with
  | ⟨0, _⟩ => show win0_6.index t (0 : Fin 2) * 1 + 1 * (y 0).val = (y 0).val; omega
  | ⟨1, _⟩ => show win0_6.index t (1 : Fin 2) * 512 + 1 * (y 1).val = (y 1).val; omega

theorem in_block7 (c : Dev nD) (t : Fin cfg0.N) : (iblk0 V c 7 t : Vec Ideal S256x512 .bf16) = V c main_v14 := by
  obtain ⟨e0, e1⟩ := (block_index t).2.2.2.2.2.2.2.1
  funext y
  unfold iblk0
  rw [View.read_apply]
  show V c main_v14 (((cfg0.win 7).blk t).view.emb y) = V c main_v14 y
  congr 1
  funext a
  apply Fin.ext
  match a with
  | ⟨0, _⟩ => show win0_7.index t (0 : Fin 2) * 256 + 1 * (y 0).val = (y 0).val; omega
  | ⟨1, _⟩ => show win0_7.index t (1 : Fin 2) * 512 + 1 * (y 1).val = (y 1).val; omega

theorem in_block8 (c : Dev nD) (t : Fin cfg0.N) : (iblk0 V c 8 t : Vec Ideal S512x512 .bf16) = V c main_v16 := by
  obtain ⟨e0, e1⟩ := (block_index t).2.2.2.2.2.2.2.2.1
  funext y
  unfold iblk0
  rw [View.read_apply]
  show V c main_v16 (((cfg0.win 8).blk t).view.emb y) = V c main_v16 y
  congr 1
  funext a
  apply Fin.ext
  match a with
  | ⟨0, _⟩ => show win0_8.index t (0 : Fin 2) * 512 + 1 * (y 0).val = (y 0).val; omega
  | ⟨1, _⟩ => show win0_8.index t (1 : Fin 2) * 512 + 1 * (y 1).val = (y 1).val; omega

theorem in_block9 (c : Dev nD) (t : Fin cfg0.N) : (iblk0 V c 9 t : Vec Ideal S256x512 .bf16) = V c main_v18 := by
  obtain ⟨e0, e1⟩ := (block_index t).2.2.2.2.2.2.2.2.2.1
  funext y
  unfold iblk0
  rw [View.read_apply]
  show V c main_v18 (((cfg0.win 9).blk t).view.emb y) = V c main_v18 y
  congr 1
  funext a
  apply Fin.ext
  match a with
  | ⟨0, _⟩ => show win0_9.index t (0 : Fin 2) * 256 + 1 * (y 0).val = (y 0).val; omega
  | ⟨1, _⟩ => show win0_9.index t (1 : Fin 2) * 512 + 1 * (y 1).val = (y 1).val; omega

theorem in_block10 (c : Dev nD) (t : Fin cfg0.N) : (iblk0 V c 10 t : Vec Ideal S1x512 .f32) = V c main_v19 := by
  obtain ⟨e0, e1⟩ := (block_index t).2.2.2.2.2.2.2.2.2.2.1
  funext y
  unfold iblk0
  rw [View.read_apply]
  show V c main_v19 (((cfg0.win 10).blk t).view.emb y) = V c main_v19 y
  congr 1
  funext a
  apply Fin.ext
  match a with
  | ⟨0, _⟩ => show win0_10.index t (0 : Fin 2) * 1 + 1 * (y 0).val = (y 0).val; omega
  | ⟨1, _⟩ => show win0_10.index t (1 : Fin 2) * 512 + 1 * (y 1).val = (y 1).val; omega

/-! ## The first output: new_pred -/

theorem out_block11 (t : Fin cfg0.N) (G : Mat 200000 512) :
    ((cfg0.win 11).blk t).view.read (Elt Ideal) G
      = (cfg0.win 11).cut (grid0.coords t) (rows (1600 * t.val) 1600 (block_le t) G) := by
  obtain ⟨e0, e1⟩ := (block_index t).2.2.2.2.2.2.2.2.2.2.2.1
  funext j
  rw [View.read_apply]
  show G (((cfg0.win 11).blk t).view.emb j) = G (ix2 ⟨1600 * t.val + (j 0).val, by have hj : (j 0).val < 1600 := (j 0).isLt; have := block_le t; omega⟩ (j 1))
  congr 1
  funext a
  apply Fin.ext
  match a with
  | ⟨0, _⟩ => show win0_11.index t (0 : Fin 2) * 1600 + 1 * (j 0).val = 1600 * t.val + (j 0).val; omega
  | ⟨1, _⟩ => show win0_11.index t (1 : Fin 2) * 512 + 1 * (j 1).val = (j 1).val; omega

/-- An index of the array is in point t's block iff each coordinate is in the block's range on its axis. -/
theorem mem_block11 (t : Fin cfg0.N) (i : S200000x512.Idx) :
    i ∈ ((cfg0.win 11).blk t).view.set ↔ ∀ a : Fin 2, win0_11.index t a * S1600x512.size a ≤ (i a).val ∧ (i a).val < win0_11.index t a * S1600x512.size a + S1600x512.size a := by
  show i ∈ ((View.whole main_v20_0).slice (win0_11.rect t)).set ↔ _
  rw [View.set_slice_whole, Rect.mem_set_unit]
  exact Iff.rfl

/-- Row i lies in the block of point i / 1600: the 125 blocks of 1600 rows tile the 200000 rows. -/
theorem covered11 (i : S200000x512.Idx) :
    ∃ t : Fin cfg0.N, (cfg0.win 11).flush t = true ∧ i ∈ ((cfg0.win 11).blk t).view.set := by
  have hi0 : (i 0).val < 200000 := (i 0).isLt
  have hi1 : (i 1).val < 512 := (i 1).isLt
  have hN : (i 0).val / 1600 < cfg0.N := by rw [show cfg0.N = 125 from N_0]; omega
  obtain ⟨e0, e1⟩ := (block_index ⟨(i 0).val / 1600, hN⟩).2.2.2.2.2.2.2.2.2.2.2.1
  have e0' : win0_11.index ⟨(i 0).val / 1600, hN⟩ (0 : Fin 2) = (i 0).val / 1600 := e0
  refine ⟨⟨(i 0).val / 1600, hN⟩, flush0_11 _, ?_⟩
  rw [mem_block11]
  intro a
  match a with
  | ⟨0, _⟩ => show win0_11.index ⟨(i 0).val / 1600, hN⟩ (0 : Fin 2) * 1600 ≤ (i 0).val ∧ (i 0).val < win0_11.index ⟨(i 0).val / 1600, hN⟩ (0 : Fin 2) * 1600 + 1600; omega
  | ⟨1, _⟩ => show win0_11.index ⟨(i 0).val / 1600, hN⟩ (1 : Fin 2) * 512 ≤ (i 1).val ∧ (i 1).val < win0_11.index ⟨(i 0).val / 1600, hN⟩ (1 : Fin 2) * 512 + 512; omega

/-- What point t writes back to the first output is rows 1600 t … 1600 t + 1599 of new_pred over the whole arrays. -/
theorem pred_flushed (c : Dev nD) (t : Fin cfg0.N) :
    (dat0 (F := Ideal) V c).flushed 11 t = ((cfg0.win 11).blk t).view.read (Elt Ideal) (pred V c) := by
  show (cfg0.win 11).cut (grid0.coords t) ((dat0 V c).after 11 t) = _
  rw [after0_11]
  unfold out0_11
  rw [View.canon_unit_zero zero_offsets]
  simp only [View.ld_unit_zero (S := S1600x128) zero_offsets, View.ld_unit_zero (S := S384x768) zero_offsets,
    View.ld_unit_zero (S := S1x768) zero_offsets, View.ld_unit_zero (S := S768x512) zero_offsets,
    View.ld_unit_zero (S := S1x512) zero_offsets]
  rw [pred_eq, in_block0 V c t, in_block1 V c t, in_block2 V c t, in_block3 V c t, in_block4 V c t, in_block5 V c t,
    in_block6 V c t, rows_hidden, rows_newPred, out_block11 t]

theorem pred_array (c : Dev nD) : (dat0 (F := Ideal) V c).arrAt 11 cfg0.N = pred V c := by
  exact (dat0 V c).arrAt_eq_of_cover 11 (pred V c) (fun t _ => pred_flushed V c t) covered11

/-! ## The node update on one block, from the blocks the body loads -/

/-- The body's node update on a block is the three-product layer of the block's hidden layer and new_pred: the narrower
    copy of new_pred is new_pred itself on the extended reals, and the weight blocks are read as they are. -/
theorem node_block (x0 x1 x2 : Vec Ideal S1600x128 .bf16) (x3 : Vec Ideal S384x768 .bf16) (x4 : Vec Ideal S1x768 .f32)
    (x5 : Vec Ideal S768x512 .bf16) (x6 : Vec Ideal S1x512 .f32) (x7 : Vec Ideal S256x512 .bf16)
    (x8 : Vec Ideal S512x512 .bf16) (x9 : Vec Ideal S256x512 .bf16) (x10 : Vec Ideal S1x512 .f32) :
    k0_pay1 (F := Ideal) (k0_pay6 x0 x1 x2 x3 x4 x5 x6) (k0_pay7 x0 x1 x2 x3 x4) (k0_pay8 x0 x1 x2 x3 x4) (k0_pay9 x7)
        (k0_pay10 x8) (k0_pay11 x9) x10
      = newT3 (hidden x0 x1 x2 x3 (rowVec x4)) (newPred (hidden x0 x1 x2 x3 (rowVec x4)) x5 (rowVec x6)) x7 x8 x9
          (rowVec x10) := by
  have e6 : k0_pay6 (F := Ideal) x0 x1 x2 x3 x4 x5 x6 = k0_pay5 x0 x1 x2 x3 x4 x5 x6 := by
    unfold k0_pay6
    funext i
    exact truncf_apply _ _ i
  have e9 : k0_pay9 (F := Ideal) x7 = x7 := by unfold k0_pay9; exact shapeCast_self _ _
  have e10 : k0_pay10 (F := Ideal) x8 = x8 := by unfold k0_pay10; exact shapeCast_self _ _
  have e11 : k0_pay11 (F := Ideal) x9 = x9 := by unfold k0_pay11; exact shapeCast_self _ _
  unfold k0_pay7 k0_pay8
  rw [e6, e9, e10, e11, node_eq, pred_eq, hidden_eq]

/-! ## The second output: the first 256 columns of the node update -/

theorem out_block12 (t : Fin cfg0.N) (G : Mat 200000 256) :
    ((cfg0.win 12).blk t).view.read (Elt Ideal) G
      = (cfg0.win 12).cut (grid0.coords t) (rows (1600 * t.val) 1600 (block_le t) G) := by
  obtain ⟨e0, e1⟩ := (block_index t).2.2.2.2.2.2.2.2.2.2.2.2.1
  funext j
  rw [View.read_apply]
  show G (((cfg0.win 12).blk t).view.emb j) = G (ix2 ⟨1600 * t.val + (j 0).val, by have hj : (j 0).val < 1600 := (j 0).isLt; have := block_le t; omega⟩ (j 1))
  congr 1
  funext a
  apply Fin.ext
  match a with
  | ⟨0, _⟩ => show win0_12.index t (0 : Fin 2) * 1600 + 1 * (j 0).val = 1600 * t.val + (j 0).val; omega
  | ⟨1, _⟩ => show win0_12.index t (1 : Fin 2) * 256 + 1 * (j 1).val = (j 1).val; omega

/-- An index of the array is in point t's block iff each coordinate is in the block's range on its axis. -/
theorem mem_block12 (t : Fin cfg0.N) (i : S200000x256.Idx) :
    i ∈ ((cfg0.win 12).blk t).view.set ↔ ∀ a : Fin 2, win0_12.index t a * S1600x256.size a ≤ (i a).val ∧ (i a).val < win0_12.index t a * S1600x256.size a + S1600x256.size a := by
  show i ∈ ((View.whole main_v20_1).slice (win0_12.rect t)).set ↔ _
  rw [View.set_slice_whole, Rect.mem_set_unit]
  exact Iff.rfl

/-- Row i lies in the block of point i / 1600: the 125 blocks of 1600 rows tile the 200000 rows. -/
theorem covered12 (i : S200000x256.Idx) :
    ∃ t : Fin cfg0.N, (cfg0.win 12).flush t = true ∧ i ∈ ((cfg0.win 12).blk t).view.set := by
  have hi0 : (i 0).val < 200000 := (i 0).isLt
  have hi1 : (i 1).val < 256 := (i 1).isLt
  have hN : (i 0).val / 1600 < cfg0.N := by rw [show cfg0.N = 125 from N_0]; omega
  obtain ⟨e0, e1⟩ := (block_index ⟨(i 0).val / 1600, hN⟩).2.2.2.2.2.2.2.2.2.2.2.2.1
  have e0' : win0_12.index ⟨(i 0).val / 1600, hN⟩ (0 : Fin 2) = (i 0).val / 1600 := e0
  refine ⟨⟨(i 0).val / 1600, hN⟩, flush0_12 _, ?_⟩
  rw [mem_block12]
  intro a
  match a with
  | ⟨0, _⟩ => show win0_12.index ⟨(i 0).val / 1600, hN⟩ (0 : Fin 2) * 1600 ≤ (i 0).val ∧ (i 0).val < win0_12.index ⟨(i 0).val / 1600, hN⟩ (0 : Fin 2) * 1600 + 1600; omega
  | ⟨1, _⟩ => show win0_12.index ⟨(i 0).val / 1600, hN⟩ (1 : Fin 2) * 256 ≤ (i 1).val ∧ (i 1).val < win0_12.index ⟨(i 0).val / 1600, hN⟩ (1 : Fin 2) * 256 + 256; omega

/-- What point t writes back to this output is rows 1600 t … 1600 t + 1599 of columns 0 … 255 of the node update over the
    whole arrays. -/
theorem s_flushed (c : Dev nD) (t : Fin cfg0.N) :
    (dat0 (F := Ideal) V c).flushed 12 t
      = ((cfg0.win 12).blk t).view.read (Elt Ideal) (cols 0 256 (by omega) (node V c)) := by
  show (cfg0.win 12).cut (grid0.coords t) ((dat0 V c).after 12 t) = _
  rw [after0_12]
  unfold out0_12
  rw [View.canon_unit_zero zero_offsets]
  simp only [View.ld_unit_zero (S := S1600x128) zero_offsets, View.ld_unit_zero (S := S384x768) zero_offsets,
    View.ld_unit_zero (S := S1x768) zero_offsets, View.ld_unit_zero (S := S768x512) zero_offsets,
    View.ld_unit_zero (S := S1x512) zero_offsets, View.ld_unit_zero (S := S256x512) zero_offsets,
    View.ld_unit_zero (S := S512x512) zero_offsets]
  rw [node_s_eq, node_block, in_block0 V c t, in_block1 V c t, in_block2 V c t, in_block3 V c t, in_block4 V c t,
    in_block5 V c t, in_block6 V c t, in_block7 V c t, in_block8 V c t, in_block9 V c t, in_block10 V c t, rows_hidden,
    rows_newPred, rows_newT3, rows_cols, out_block12 t]

theorem s_array (c : Dev nD) : (dat0 (F := Ideal) V c).arrAt 12 cfg0.N = cols 0 256 (by omega) (node V c) := by
  exact (dat0 V c).arrAt_eq_of_cover 12 (cols 0 256 (by omega) (node V c)) (fun t _ => s_flushed V c t) covered12

/-! ## The third output: the second 256 columns of the node update -/

theorem out_block13 (t : Fin cfg0.N) (G : Mat 200000 256) :
    ((cfg0.win 13).blk t).view.read (Elt Ideal) G
      = (cfg0.win 13).cut (grid0.coords t) (rows (1600 * t.val) 1600 (block_le t) G) := by
  obtain ⟨e0, e1⟩ := (block_index t).2.2.2.2.2.2.2.2.2.2.2.2.2
  funext j
  rw [View.read_apply]
  show G (((cfg0.win 13).blk t).view.emb j) = G (ix2 ⟨1600 * t.val + (j 0).val, by have hj : (j 0).val < 1600 := (j 0).isLt; have := block_le t; omega⟩ (j 1))
  congr 1
  funext a
  apply Fin.ext
  match a with
  | ⟨0, _⟩ => show win0_13.index t (0 : Fin 2) * 1600 + 1 * (j 0).val = 1600 * t.val + (j 0).val; omega
  | ⟨1, _⟩ => show win0_13.index t (1 : Fin 2) * 256 + 1 * (j 1).val = (j 1).val; omega

/-- An index of the array is in point t's block iff each coordinate is in the block's range on its axis. -/
theorem mem_block13 (t : Fin cfg0.N) (i : S200000x256.Idx) :
    i ∈ ((cfg0.win 13).blk t).view.set ↔ ∀ a : Fin 2, win0_13.index t a * S1600x256.size a ≤ (i a).val ∧ (i a).val < win0_13.index t a * S1600x256.size a + S1600x256.size a := by
  show i ∈ ((View.whole main_v20_2).slice (win0_13.rect t)).set ↔ _
  rw [View.set_slice_whole, Rect.mem_set_unit]
  exact Iff.rfl

/-- Row i lies in the block of point i / 1600: the 125 blocks of 1600 rows tile the 200000 rows. -/
theorem covered13 (i : S200000x256.Idx) :
    ∃ t : Fin cfg0.N, (cfg0.win 13).flush t = true ∧ i ∈ ((cfg0.win 13).blk t).view.set := by
  have hi0 : (i 0).val < 200000 := (i 0).isLt
  have hi1 : (i 1).val < 256 := (i 1).isLt
  have hN : (i 0).val / 1600 < cfg0.N := by rw [show cfg0.N = 125 from N_0]; omega
  obtain ⟨e0, e1⟩ := (block_index ⟨(i 0).val / 1600, hN⟩).2.2.2.2.2.2.2.2.2.2.2.2.2
  have e0' : win0_13.index ⟨(i 0).val / 1600, hN⟩ (0 : Fin 2) = (i 0).val / 1600 := e0
  refine ⟨⟨(i 0).val / 1600, hN⟩, flush0_13 _, ?_⟩
  rw [mem_block13]
  intro a
  match a with
  | ⟨0, _⟩ => show win0_13.index ⟨(i 0).val / 1600, hN⟩ (0 : Fin 2) * 1600 ≤ (i 0).val ∧ (i 0).val < win0_13.index ⟨(i 0).val / 1600, hN⟩ (0 : Fin 2) * 1600 + 1600; omega
  | ⟨1, _⟩ => show win0_13.index ⟨(i 0).val / 1600, hN⟩ (1 : Fin 2) * 256 ≤ (i 1).val ∧ (i 1).val < win0_13.index ⟨(i 0).val / 1600, hN⟩ (1 : Fin 2) * 256 + 256; omega

/-- What point t writes back to this output is rows 1600 t … 1600 t + 1599 of columns 256 … 511 of the node update over the
    whole arrays. -/
theorem o_flushed (c : Dev nD) (t : Fin cfg0.N) :
    (dat0 (F := Ideal) V c).flushed 13 t
      = ((cfg0.win 13).blk t).view.read (Elt Ideal) (cols 256 256 (by omega) (node V c)) := by
  show (cfg0.win 13).cut (grid0.coords t) ((dat0 V c).after 13 t) = _
  rw [after0_13]
  unfold out0_13
  rw [View.canon_unit_zero zero_offsets]
  simp only [View.ld_unit_zero (S := S1600x128) zero_offsets, View.ld_unit_zero (S := S384x768) zero_offsets,
    View.ld_unit_zero (S := S1x768) zero_offsets, View.ld_unit_zero (S := S768x512) zero_offsets,
    View.ld_unit_zero (S := S1x512) zero_offsets, View.ld_unit_zero (S := S256x512) zero_offsets,
    View.ld_unit_zero (S := S512x512) zero_offsets]
  rw [node_o_eq, node_block, in_block0 V c t, in_block1 V c t, in_block2 V c t, in_block3 V c t, in_block4 V c t,
    in_block5 V c t, in_block6 V c t, in_block7 V c t, in_block8 V c t, in_block9 V c t, in_block10 V c t, rows_hidden,
    rows_newPred, rows_newT3, rows_cols, out_block13 t]

theorem o_array (c : Dev nD) : (dat0 (F := Ideal) V c).arrAt 13 cfg0.N = cols 256 256 (by omega) (node V c) := by
  exact (dat0 V c).arrAt_eq_of_cover 13 (cols 256 256 (by omega) (node V c)) (fun t _ => o_flushed V c t) covered13

end Cert.KernelIdeal.Edge

end
-- ==== Proof.PoolArray.lean ====
/-
  The second kernel: each block of 2000 nodes of  relu ((pooled / max 1 counts) · W_out + b_out),  and the whole array its
  fifty blocks make.
-/
import proofs.«424232_j87694642250356_3_alg».proof.Proof.Gen.KernelIdeal.Frame
import proofs.«424232_j87694642250356_3_alg».proof.Proof.Spec
import proofs.«424232_j87694642250356_3_alg».proof.Proof.LibDotSum
import Idealize.ShloMosaic.Lib.Pipeline.Value
import Idealize.ShloMosaic.Lib.ValueIdx
import Idealize.ShloMosaic.Lib.ValueLayout

set_option maxRecDepth 16384

noncomputable section

namespace Cert.KernelIdeal.Pool

open Cert.KernelIdeal Cert.KernelIdeal.Gen Cert.EdgeNet
open Idealize.ShloMosaic Idealize.ShloMosaic.TcCoe Idealize.ShloMosaic.ValueIdx Idealize.SL.Sem
open Idealize.ShloMosaic.Pipeline (Dat Cfg Window)

/-! ## The body's stored value -/

/-- A column of height a repeated along b columns reads, at (p, c), the column's entry in row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The one-word pattern 0x3F800000 is the extended real one. -/
theorem one_f32 : Ideal.ofBits .f32 0x3F800000#32 = 1 := by
  rw [show (1 : EReal) = ((1 : ℝ) : EReal) by norm_cast]
  simp [Ideal.ofBits, Ideal.ieee, -EReal.coe_mul]; norm_num

/-- The body's one stored value, from the four blocks it loads: the dense layer over the normalised rows. -/
theorem pay_eq (x0 : Vec Ideal S2000x256 .f32) (x1 : Vec Ideal S2000x1 .f32) (x2 : Vec Ideal S256x512 .bf16)
    (x3 : Vec Ideal S1x512 .f32) :
    k1_pay1 (F := Ideal) x0 x1 x2 x3 = newObj x0 x1 x2 (rowVec x3) := by
  funext i
  obtain ⟨r, c, rfl⟩ : ∃ (r : Fin 2000) (c : Fin 512), i = ix2 r c := ⟨i 0, i 1, eq_ix2 i⟩
  unfold k1_pay1
  rw [maximumf_apply, addf_apply, broadcast_apply,
    Cert.Lib.matmul_rc_apply dot_S2000x256_S256x512_S2000x512_1_0_0_1_n_n rfl rfl rfl rfl rfl rfl,
    broadcastTo_1b_ab_apply]
  unfold newObj
  rw [dense_apply]
  simp only [shapeCast_self, truncf_apply, divf_apply, broadcastTo_a1_ab_apply, maximumf_apply, broadcast_apply,
    Ideal.ofBits_def, one_f32, Ideal.ofBits_zero_f32, normed_apply, rowVec_apply]
  rfl

variable (V : (c : Dev nD) → (b : Ref sig .tc) → Buf (Elt Ideal) ((c : Thread nD τ).loc b))

/-! ## The layer over a block of rows

Entry (r, c) of the layer reads row r of the pooled rows and of the counts, all of the weights and the bias. So the
layer over rows 2000 n, …, 2000 n + 1999 of the two tall arrays is that block of rows of the layer over the whole
arrays. Stated for any blocks that agree with the arrays at the shifted rows. -/

theorem newObj_rows (A : Mat 100000 256) (cnt : Mat 100000 1) (W : Mat 256 512) (b : Mat 1 512)
    (A' : Mat 2000 256) (cnt' : Mat 2000 1) (W' : Mat 256 512) (b' : Mat 1 512) (n : Nat)
    (hA : ∀ (y : (⟨2, ![2000, 256]⟩ : Shape).Idx) (i : (⟨2, ![100000, 256]⟩ : Shape).Idx),
      (i 0).val = 2000 * n + (y 0).val → (i 1).val = (y 1).val → A' y = A i)
    (hc : ∀ (y : (⟨2, ![2000, 1]⟩ : Shape).Idx) (i : (⟨2, ![100000, 1]⟩ : Shape).Idx),
      (i 0).val = 2000 * n + (y 0).val → (i 1).val = (y 1).val → cnt' y = cnt i)
    (hW : ∀ y, W' y = W y) (hb : ∀ y, b' y = b y)
    (j : (⟨2, ![2000, 512]⟩ : Shape).Idx) (i : (⟨2, ![100000, 512]⟩ : Shape).Idx)
    (h0 : (i 0).val = 2000 * n + (j 0).val) (h1 : (i 1).val = (j 1).val) :
    newObj A' cnt' W' (rowVec b') j = newObj A cnt W (rowVec b) i := by
  obtain ⟨r, q, rfl⟩ : ∃ (r : Fin 2000) (q : Fin 512), j = ix2 r q := ⟨j 0, j 1, eq_ix2 j⟩
  obtain ⟨r', q', rfl⟩ : ∃ (r' : Fin 100000) (q' : Fin 512), i = ix2 r' q' := ⟨i 0, i 1, eq_ix2 i⟩
  obtain rfl : q' = q := Fin.ext h1
  have hr : r'.val = 2000 * n + r.val := h0
  unfold newObj
  rw [dense_apply, dense_apply, rowVec_apply, rowVec_apply, hb]
  have e : ∀ k : Fin 256, normed A' cnt' (ix2 r k) * W' (ix2 k q') = normed A cnt (ix2 r' k) * W (ix2 k q') := fun k => by
    rw [normed_apply, normed_apply, hA (ix2 r k) (ix2 r' k) hr rfl,
      hc (ix2 r ⟨0, Nat.one_pos⟩) (ix2 r' ⟨0, Nat.one_pos⟩) hr rfl, hW]
  simp only [e]

/-! ## From the fifty blocks to the array -/

theorem zero_offsets : (![0, 0] : Fin 2 → Nat) = fun _ => 0 := funext fun a => by fin_cases a <;> rfl

/-- The block indices, decided over the grid: at point t the two tall inputs and the output are at row block t, column
    block 0; the weights and the bias are at block (0, 0) at every point. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is block t of the layer over the whole arrays the region found: a block's element sits in
    its array at block index × block size + its coordinate in the block, on each axis. -/
theorem flushed_eq (c : Dev nD) (t : Fin cfg1.N) :
    (dat1 (F := Ideal) V c).flushed 4 t = ((cfg1.win 4).blk t).view.read (Elt Ideal)
      (newObj (V c main_v35) (V c main_v53) (V c main_v54) (rowVec (V c main_v55))) := by
  show (cfg1.win 4).cut (grid1.coords t) ((dat1 V c).after 4 t) = _
  rw [after1_4]
  unfold out1_4
  rw [View.canon_unit_zero zero_offsets]
  simp only [View.ld_unit_zero (S := S2000x256) zero_offsets, View.ld_unit_zero (S := S2000x1) zero_offsets,
    View.ld_unit_zero (S := S256x512) zero_offsets, View.ld_unit_zero (S := S1x512) zero_offsets]
  rw [pay_eq]
  obtain ⟨a00, a01, a10, a11, a20, a21, a30, a31, a40, a41⟩ := block_index t
  funext j
  show newObj (iblk1 V c 0 t) (iblk1 V c 1 t) (iblk1 V c 2 t) (rowVec (iblk1 V c 3 t)) ((cfg1.win 4).xinj (grid1.coords t) j)
    = newObj (V c main_v35) (V c main_v53) (V c main_v54) (rowVec (V c main_v55)) (((cfg1.win 4).blk t).view.emb j)
  refine newObj_rows _ _ _ _ _ _ _ _ t.val ?_ ?_ ?_ ?_ _ _ ?_ ?_
  · intro y i h0 h1
    show V c main_v35 (((cfg1.win 0).blk t).view.emb y) = V c main_v35 i
    refine congrArg _ (funext fun a => Fin.ext ?_)
    match a with
    | ⟨0, _⟩ => show win1_0.index t (0 : Fin 2) * 2000 + 1 * (y 0).val = (i 0).val; rw [h0, a00]; omega
    | ⟨1, _⟩ => show win1_0.index t (1 : Fin 2) * 256 + 1 * (y 1).val = (i 1).val; rw [h1, a01]; omega
  · intro y i h0 h1
    show V c main_v53 (((cfg1.win 1).blk t).view.emb y) = V c main_v53 i
    refine congrArg _ (funext fun a => Fin.ext ?_)
    match a with
    | ⟨0, _⟩ => show win1_1.index t (0 : Fin 2) * 2000 + 1 * (y 0).val = (i 0).val; rw [h0, a10]; omega
    | ⟨1, _⟩ => show win1_1.index t (1 : Fin 2) * 1 + 1 * (y 1).val = (i 1).val; rw [h1, a11]; omega
  · intro y
    show V c main_v54 (((cfg1.win 2).blk t).view.emb y) = V c main_v54 y
    refine congrArg _ (funext fun a => Fin.ext ?_)
    match a with
    | ⟨0, _⟩ => show win1_2.index t (0 : Fin 2) * 256 + 1 * (y 0).val = (y 0).val; rw [a20]; omega
    | ⟨1, _⟩ => show win1_2.index t (1 : Fin 2) * 512 + 1 * (y 1).val = (y 1).val; rw [a21]; omega
  · intro y
    show V c main_v55 (((cfg1.win 3).blk t).view.emb y) = V c main_v55 y
    refine congrArg _ (funext fun a => Fin.ext ?_)
    match a with
    | ⟨0, _⟩ => show win1_3.index t (0 : Fin 2) * 1 + 1 * (y 0).val = (y 0).val; rw [a30]; omega
    | ⟨1, _⟩ => show win1_3.index t (1 : Fin 2) * 512 + 1 * (y 1).val = (y 1).val; rw [a31]; omega
  · show win1_4.index t (0 : Fin 2) * 2000 + 1 * (j 0).val = 2000 * t.val + (j 0).val; rw [a40]; omega
  · show win1_4.index t (1 : Fin 2) * 512 + 1 * (j 1).val = (j 1).val; rw [a41]; omega

/-- An index of the output array is in point t's block iff each coordinate is in the block's range on its axis. -/
theorem mem_blk (t : Fin cfg1.N) (i : S100000x512.Idx) :
    i ∈ ((cfg1.win 4).blk t).view.set ↔ ∀ a : Fin 2, win1_4.index t a * S2000x512.size a ≤ (i a).val
      ∧ (i a).val < win1_4.index t a * S2000x512.size a + S2000x512.size a := by
  show i ∈ ((View.whole main_v56).slice (win1_4.rect t)).set ↔ _
  rw [View.set_slice_whole, Rect.mem_set_unit]
  exact Iff.rfl

/-- The fifty blocks tile the array: row i lies in the block of point i / 2000, which is written back. -/
theorem cover (i : S100000x512.Idx) :
    ∃ t : Fin cfg1.N, (cfg1.win 4).flush t = true ∧ i ∈ ((cfg1.win 4).blk t).view.set := by
  have hi0 : (i 0).val < 100000 := (i 0).isLt
  have hi1 : (i 1).val < 512 := (i 1).isLt
  have hN : cfg1.N = 50 := N_1
  have ht : (i 0).val / 2000 < cfg1.N := by rw [hN]; omega
  obtain ⟨-, -, -, -, -, -, -, -, a40, a41⟩ := block_index ⟨(i 0).val / 2000, ht⟩
  have b40 : win1_4.index ⟨(i 0).val / 2000, ht⟩ (0 : Fin 2) = (i 0).val / 2000 := a40
  refine ⟨⟨(i 0).val / 2000, ht⟩, flush1_4 _, ?_⟩
  rw [mem_blk]
  intro a
  match a with
  | ⟨0, _⟩ =>
    show win1_4.index ⟨(i 0).val / 2000, ht⟩ (0 : Fin 2) * 2000 ≤ (i 0).val
      ∧ (i 0).val < win1_4.index ⟨(i 0).val / 2000, ht⟩ (0 : Fin 2) * 2000 + 2000
    rw [b40]; omega
  | ⟨1, _⟩ =>
    show win1_4.index ⟨(i 0).val / 2000, ht⟩ (1 : Fin 2) * 512 ≤ (i 1).val
      ∧ (i 1).val < win1_4.index ⟨(i 0).val / 2000, ht⟩ (1 : Fin 2) * 512 + 512
    rw [a41]; omega

/-- The output array once all fifty blocks are written back: the same layer over the whole arrays the region found. -/
theorem obj_array (c : Dev nD) :
    (dat1 (F := Ideal) V c).arrAt 4 cfg1.N
      = newObj (V c main_v35) (V c main_v53) (V c main_v54) (rowVec (V c main_v55)) := by
  exact (dat1 (F := Ideal) V c).arrAt_eq_of_cover 4
    (newObj (V c main_v35) (V c main_v53) (V c main_v54) (rowVec (V c main_v55)))
    (fun t _ => flushed_eq V c t) cover

end Cert.KernelIdeal.Pool

end
-- ==== Proof.KernelResults.lean ====
/-
  The two results of the kernel program as functions of its eleven argument arrays.

  When the program ends, its second result is the first kernel's first output array and its first result the second
  kernel's output array. Each kernel's arrays are the specification's layers of what the kernel found; what the first
  found are the gathered rows, the predicate rows and the weights, what the second found are the first's two row outputs
  summed into their nodes, the counts, and the last weights. Put together these are the step's two whole-array functions.
  The node update comes out of the kernel as three products against three row ranges of W_node; that is the single
  product against W_node over the joined columns.
-/
import proofs.«424232_j87694642250356_3_alg».proof.Proof.Entry0
import proofs.«424232_j87694642250356_3_alg».proof.Proof.Entry1
import proofs.«424232_j87694642250356_3_alg».proof.Proof.EdgeArrays
import proofs.«424232_j87694642250356_3_alg».proof.Proof.PoolArray

set_option maxRecDepth 16384

noncomputable section

namespace Cert.KernelIdeal.Results

open Cert.KernelIdeal Cert.KernelIdeal.Gen Cert.KernelIdeal.Whole Cert.EdgeNet
open Idealize.ShloMosaic Idealize.ShloMosaic.TcCoe Idealize.SL.Sem

variable (m : (ℓ : Loc nD τ sig) → Buf (Elt Ideal) ℓ) (ρ : Dev nD → PrngReg)

/-- The hidden layer the first kernel computes is the step's. -/
theorem hid_value (hr : Entry.InRange m) (c : Dev nD) :
    Edge.hid (V5 (F := Ideal) m ρ) c = Whole.hid (m ((c : Thread nD τ).loc main_arg0)) (m ((c : Thread nD τ).loc main_arg1)) (m ((c : Thread nD τ).loc main_arg2)) (m ((c : Thread nD τ).loc main_arg3)) (m ((c : Thread nD τ).loc main_arg4)) := by
  show hidden (V5 (F := Ideal) m ρ c main_v5) (V5 (F := Ideal) m ρ c main_v8) (V5 (F := Ideal) m ρ c main_v7)
      (V5 (F := Ideal) m ρ c main_v9) (rowVec (V5 (F := Ideal) m ρ c main_v10)) = _
  rw [Entry.s_rows m ρ hr c, Entry.o_rows m ρ hr c, Entry.p_rows m ρ c, Entry.w_in m ρ c, Entry.b_in m ρ c]
  rfl

/-- new_pred likewise. -/
theorem pred_layer (hr : Entry.InRange m) (c : Dev nD) :
    Edge.pred (V5 (F := Ideal) m ρ) c = Whole.pred (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show newPred (Edge.hid (V5 (F := Ideal) m ρ) c) (V5 (F := Ideal) m ρ c main_v11) (rowVec (V5 (F := Ideal) m ρ c main_v12)) = _
  rw [hid_value m ρ hr c, Entry.w_edge m ρ c, Entry.b_edge m ρ c]
  rfl

/-- The node update: three products against rows 0–255, 256–767 and 768–1023 of W_node are one product against W_node. -/
theorem node_layer (hr : Entry.InRange m) (c : Dev nD) :
    Edge.node (V5 (F := Ideal) m ρ) c
      = Whole.node (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show newT3 (Edge.hid (V5 (F := Ideal) m ρ) c) (Edge.pred (V5 (F := Ideal) m ρ) c) (V5 (F := Ideal) m ρ c main_v14)
      (V5 (F := Ideal) m ρ c main_v16) (V5 (F := Ideal) m ρ c main_v18) (rowVec (V5 (F := Ideal) m ρ c main_v19)) = _
  rw [hid_value m ρ hr c, pred_layer m ρ hr c, Entry.w_node_s m ρ c, Entry.w_node_p m ρ c, Entry.w_node_o m ρ c,
    Entry.b_node m ρ c, ← newT_eq_newT3]
  rfl

/-- The second result. -/
theorem pred_value (hr : Entry.InRange m) (c : Dev nD) :
    W8 (F := Ideal) m ρ c (Proc.devRef .tc main_v20_0)
      = Whole.pred (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [Exit.pred_at_end m ρ c, Edge.pred_array (V5 (F := Ideal) m ρ) c]
  exact pred_layer m ρ hr c

/-- The first result. -/
theorem obj_value (hr : Entry.InRange m) (c : Dev nD) :
    W8 (F := Ideal) m ρ c (Proc.devRef .tc main_v56)
      = Whole.obj (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [Exit.obj_at_end m ρ c, Pool.obj_array (V7 (F := Ideal) m ρ) c, Exit.pooled_in m ρ c, Exit.counts_in m ρ c,
    Exit.w_out m ρ c, Exit.b_out m ρ c, Edge.s_array (V5 (F := Ideal) m ρ) c, Edge.o_array (V5 (F := Ideal) m ρ) c,
    node_layer m ρ hr c]
  rfl

end Cert.KernelIdeal.Results

end
-- ==== Proof.RefOps.lean ====
import proofs.«424232_j87694642250356_3_alg».proof.Proof.Gen.ReferenceIdeal
import Idealize.ShloMosaic.Lib.StableHlo.Run

noncomputable section

namespace Cert.ReferenceIdeal.Chunks

open Cert.ReferenceIdeal Cert.ReferenceIdeal.Gen Idealize.ShloMosaic Idealize.ShloMosaic.TcCoe Idealize.SL.Sem Idealize.ShloMosaic.StableHlo

variable {F : FTy → Type} [FloatOps F]

/-- Operations 1 … 22. -/
abbrev ops1 : List (HloOp τ sig (Elt F)) :=
  [ unary main_arg2 main_v0 ((extractStridedSlice S200000x1 ![0, 0] · slices_S200000x2_S200000x1_0_0) : (⟨S200000x2, .i32⟩ : BufTy).Contents (Elt F) → (⟨S200000x1, .i32⟩ : BufTy).Contents (Elt F)),
    reshape main_v0 main_v1 rfl shapeCasts_S200000x1_S200000,
    unary main_arg2 main_v2 ((extractStridedSlice S200000x1 ![0, 1] · slices_S200000x2_S200000x1_0_1) : (⟨S200000x2, .i32⟩ : BufTy).Contents (Elt F) → (⟨S200000x1, .i32⟩ : BufTy).Contents (Elt F)),
    reshape main_v2 main_v3 rfl shapeCasts_S200000x1_S200000,
    nullary main_c (constantI S_ 32 0#32),
    unary main_c main_v4 (broadcastInDim S200000 ![] bcast_S_S200000 : (⟨S_, .i32⟩ : BufTy).Contents (Elt F) → (⟨S200000, .i32⟩ : BufTy).Contents (Elt F)),
    binary main_v1 main_v4 main_v5 (cmpi .slt : (⟨S200000, .i32⟩ : BufTy).Contents (Elt F) → (⟨S200000, .i32⟩ : BufTy).Contents (Elt F) → (⟨S200000, .i1⟩ : BufTy).Contents (Elt F)),
    nullary main_c_0 (constantI S_ 32 100000#32),
    unary main_c_0 main_v6 (broadcastInDim S200000 ![] bcast_S_S200000 : (⟨S_, .i32⟩ : BufTy).Contents (Elt F) → (⟨S200000, .i32⟩ : BufTy).Contents (Elt F)),
    binary main_v1 main_v6 main_v7 (addi : (⟨S200000, .i32⟩ : BufTy).Contents (Elt F) → (⟨S200000, .i32⟩ : BufTy).Contents (Elt F) → (⟨S200000, .i32⟩ : BufTy).Contents (Elt F)),
    ternary main_v5 main_v7 main_v1 main_v8 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v8 main_v9 (broadcastInDim S200000x1 ![0] bcast_S200000_S200000x1_0 : (⟨S200000, .i32⟩ : BufTy).Contents (Elt F) → (⟨S200000x1, .i32⟩ : BufTy).Contents (Elt F)),
    binary main_arg0 main_v9 main_v10 ((fun x i => Host.gather gather_S100000x128_S200000x1_S200000x128_1_0_n_n_0_1_1128 x i) : (⟨S100000x128, .f32⟩ : BufTy).Contents (Elt F) → (⟨S200000x1, .i32⟩ : BufTy).Contents (Elt F) → (⟨S200000x128, .f32⟩ : BufTy).Contents (Elt F)),
    nullary main_c_1 (constantI S_ 32 0#32),
    unary main_c_1 main_v11 (broadcastInDim S200000 ![] bcast_S_S200000 : (⟨S_, .i32⟩ : BufTy).Contents (Elt F) → (⟨S200000, .i32⟩ : BufTy).Contents (Elt F)),
    binary main_v3 main_v11 main_v12 (cmpi .slt : (⟨S200000, .i32⟩ : BufTy).Contents (Elt F) → (⟨S200000, .i32⟩ : BufTy).Contents (Elt F) → (⟨S200000, .i1⟩ : BufTy).Contents (Elt F)),
    nullary main_c_2 (constantI S_ 32 100000#32),
    unary main_c_2 main_v13 (broadcastInDim S200000 ![] bcast_S_S200000 : (⟨S_, .i32⟩ : BufTy).Contents (Elt F) → (⟨S200000, .i32⟩ : BufTy).Contents (Elt F)),
    binary main_v3 main_v13 main_v14 (addi : (⟨S200000, .i32⟩ : BufTy).Contents (Elt F) → (⟨S200000, .i32⟩ : BufTy).Contents (Elt F) → (⟨S200000, .i32⟩ : BufTy).Contents (Elt F)),
    ternary main_v12 main_v14 main_v3 main_v15 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v15 main_v16 (broadcastInDim S200000x1 ![0] bcast_S200000_S200000x1_0 : (⟨S200000, .i32⟩ : BufTy).Contents (Elt F) → (⟨S200000x1, .i32⟩ : BufTy).Contents (Elt F)),
    binary main_arg0 main_v16 main_v17 ((fun x i => Host.gather gather_S100000x128_S200000x1_S200000x128_1_0_n_n_0_1_1128 x i) : (⟨S100000x128, .f32⟩ : BufTy).Contents (Elt F) → (⟨S200000x1, .i32⟩ : BufTy).Contents (Elt F) → (⟨S200000x128, .f32⟩ : BufTy).Contents (Elt F)) ]

/-- Operations 23 … 33. -/
abbrev ops2 : List (HloOp τ sig (Elt F)) :=
  [ nary ![main_v10, main_arg1, main_v17] main_v18 (fun u => concatenate S200000x384 1 [⟨S200000x128, u 0⟩, ⟨S200000x128, u 1⟩, ⟨S200000x128, u 2⟩] concatenates_S200000x128_S200000x128_S200000x128_S200000x384_d1),
    binary main_v18 main_arg3 main_v19 ((fun l r => Host.dotGeneral dot_S200000x384_S384x768_S200000x768_1_0_0_1_n_n none l r) : (⟨S200000x384, .f32⟩ : BufTy).Contents (Elt F) → (⟨S384x768, .f32⟩ : BufTy).Contents (Elt F) → (⟨S200000x768, .f32⟩ : BufTy).Contents (Elt F)),
    unary main_arg4 main_v20 (broadcastInDim S1x768 ![1] bcast_S768_S1x768_1 : (⟨S768, .f32⟩ : BufTy).Contents (Elt F) → (⟨S1x768, .f32⟩ : BufTy).Contents (Elt F)),
    unary main_v20 main_v21 (broadcastInDim S200000x768 ![0, 1] bcast_S1x768_S200000x768_0_1 : (⟨S1x768, .f32⟩ : BufTy).Contents (Elt F) → (⟨S200000x768, .f32⟩ : BufTy).Contents (Elt F)),
    binary main_v19 main_v21 main_v22 (addf : (⟨S200000x768, .f32⟩ : BufTy).Contents (Elt F) → (⟨S200000x768, .f32⟩ : BufTy).Contents (Elt F) → (⟨S200000x768, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S200000x768, .f32⟩) main_call0_v0) (broadcastInDim S200000x768 ![] bcast_S_S200000x768),
    TRef.binary (TRef.of (T := ⟨S200000x768, .f32⟩) main_v22) (TRef.of (T := ⟨S200000x768, .f32⟩) main_call0_v0) (TRef.of (T := ⟨S200000x768, .f32⟩) main_v23) maximumf,
    unary main_v23 main_v24 ((extractStridedSlice S200000x256 ![0, 0] · slices_S200000x768_S200000x256_0_0) : (⟨S200000x768, .f32⟩ : BufTy).Contents (Elt F) → (⟨S200000x256, .f32⟩ : BufTy).Contents (Elt F)),
    unary main_v23 main_v25 ((extractStridedSlice S200000x256 ![0, 256] · slices_S200000x768_S200000x256_0_256) : (⟨S200000x768, .f32⟩ : BufTy).Contents (Elt F) → (⟨S200000x256, .f32⟩ : BufTy).Contents (Elt F)),
    unary main_v23 main_v26 ((extractStridedSlice S200000x256 ![0, 512] · slices_S200000x768_S200000x256_0_512) : (⟨S200000x768, .f32⟩ : BufTy).Contents (Elt F) → (⟨S200000x256, .f32⟩ : BufTy).Contents (Elt F)) ]

/-- Operations 34 … 41. -/
abbrev ops3 : List (HloOp τ sig (Elt F)) :=
  [ nary ![main_v24, main_v25, main_v26] main_v27 (fun u => concatenate S200000x768 1 [⟨S200000x256, u 0⟩, ⟨S200000x256, u 1⟩, ⟨S200000x256, u 2⟩] concatenates_S200000x256_S200000x256_S200000x256_S200000x768_d1),
    binary main_v27 main_arg5 main_v28 ((fun l r => Host.dotGeneral dot_S200000x768_S768x512_S200000x512_1_0_0_1_n_n none l r) : (⟨S200000x768, .f32⟩ : BufTy).Contents (Elt F) → (⟨S768x512, .f32⟩ : BufTy).Contents (Elt F) → (⟨S200000x512, .f32⟩ : BufTy).Contents (Elt F)),
    unary main_arg6 main_v29 (broadcastInDim S1x512 ![1] bcast_S512_S1x512_1 : (⟨S512, .f32⟩ : BufTy).Contents (Elt F) → (⟨S1x512, .f32⟩ : BufTy).Contents (Elt F)),
    unary main_v29 main_v30 (broadcastInDim S200000x512 ![0, 1] bcast_S1x512_S200000x512_0_1 : (⟨S1x512, .f32⟩ : BufTy).Contents (Elt F) → (⟨S200000x512, .f32⟩ : BufTy).Contents (Elt F)),
    binary main_v28 main_v30 main_v31 (addf : (⟨S200000x512, .f32⟩ : BufTy).Contents (Elt F) → (⟨S200000x512, .f32⟩ : BufTy).Contents (Elt F) → (⟨S200000x512, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S200000x512, .f32⟩) main_call1_v0) (broadcastInDim S200000x512 ![] bcast_S_S200000x512),
    TRef.binary (TRef.of (T := ⟨S200000x512, .f32⟩) main_v31) (TRef.of (T := ⟨S200000x512, .f32⟩) main_call1_v0) (TRef.of (T := ⟨S200000x512, .f32⟩) main_v32) maximumf ]

/-- Operations 42 … 51. -/
abbrev ops4 : List (HloOp τ sig (Elt F)) :=
  [ nary ![main_v24, main_v32, main_v26] main_v33 (fun u => concatenate S200000x1024 1 [⟨S200000x256, u 0⟩, ⟨S200000x512, u 1⟩, ⟨S200000x256, u 2⟩] concatenates_S200000x256_S200000x512_S200000x256_S200000x1024_d1),
    binary main_v33 main_arg7 main_v34 ((fun l r => Host.dotGeneral dot_S200000x1024_S1024x512_S200000x512_1_0_0_1_n_n none l r) : (⟨S200000x1024, .f32⟩ : BufTy).Contents (Elt F) → (⟨S1024x512, .f32⟩ : BufTy).Contents (Elt F) → (⟨S200000x512, .f32⟩ : BufTy).Contents (Elt F)),
    unary main_arg8 main_v35 (broadcastInDim S1x512 ![1] bcast_S512_S1x512_1 : (⟨S512, .f32⟩ : BufTy).Contents (Elt F) → (⟨S1x512, .f32⟩ : BufTy).Contents (Elt F)),
    unary main_v35 main_v36 (broadcastInDim S200000x512 ![0, 1] bcast_S1x512_S200000x512_0_1 : (⟨S1x512, .f32⟩ : BufTy).Contents (Elt F) → (⟨S200000x512, .f32⟩ : BufTy).Contents (Elt F)),
    binary main_v34 main_v36 main_v37 (addf : (⟨S200000x512, .f32⟩ : BufTy).Contents (Elt F) → (⟨S200000x512, .f32⟩ : BufTy).Contents (Elt F) → (⟨S200000x512, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S200000x512, .f32⟩) main_call2_v0) (broadcastInDim S200000x512 ![] bcast_S_S200000x512),
    TRef.binary (TRef.of (T := ⟨S200000x512, .f32⟩) main_v37) (TRef.of (T := ⟨S200000x512, .f32⟩) main_call2_v0) (TRef.of (T := ⟨S200000x512, .f32⟩) main_v38) maximumf,
    unary main_v38 main_v39 ((extractStridedSlice S200000x256 ![0, 0] · slices_S200000x512_S200000x256_0_0) : (⟨S200000x512, .f32⟩ : BufTy).Contents (Elt F) → (⟨S200000x256, .f32⟩ : BufTy).Contents (Elt F)),
    unary main_v38 main_v40 ((extractStridedSlice S200000x256 ![0, 256] · slices_S200000x512_S200000x256_0_256) : (⟨S200000x512, .f32⟩ : BufTy).Contents (Elt F) → (⟨S200000x256, .f32⟩ : BufTy).Contents (Elt F)) ]

/-- Operations 52 … 71. -/
abbrev ops5 : List (HloOp τ sig (Elt F)) :=
  [ nullary main_cst (constant S_ .f32 0x00000000#32),
    unary main_cst main_v41 (broadcastInDim S100000x256 ![] bcast_S_S100000x256 : (⟨S_, .f32⟩ : BufTy).Contents (Elt F) → (⟨S100000x256, .f32⟩ : BufTy).Contents (Elt F)),
    nullary main_c_3 (constantI S_ 32 0#32),
    unary main_c_3 main_v42 (broadcastInDim S200000 ![] bcast_S_S200000 : (⟨S_, .i32⟩ : BufTy).Contents (Elt F) → (⟨S200000, .i32⟩ : BufTy).Contents (Elt F)),
    binary main_v1 main_v42 main_v43 (cmpi .slt : (⟨S200000, .i32⟩ : BufTy).Contents (Elt F) → (⟨S200000, .i32⟩ : BufTy).Contents (Elt F) → (⟨S200000, .i1⟩ : BufTy).Contents (Elt F)),
    nullary main_c_4 (constantI S_ 32 100000#32),
    unary main_c_4 main_v44 (broadcastInDim S200000 ![] bcast_S_S200000 : (⟨S_, .i32⟩ : BufTy).Contents (Elt F) → (⟨S200000, .i32⟩ : BufTy).Contents (Elt F)),
    binary main_v1 main_v44 main_v45 (addi : (⟨S200000, .i32⟩ : BufTy).Contents (Elt F) → (⟨S200000, .i32⟩ : BufTy).Contents (Elt F) → (⟨S200000, .i32⟩ : BufTy).Contents (Elt F)),
    ternary main_v43 main_v45 main_v1 main_v46 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v46 main_v47 (broadcastInDim S200000x1 ![0] bcast_S200000_S200000x1_0 : (⟨S200000, .i32⟩ : BufTy).Contents (Elt F) → (⟨S200000x1, .i32⟩ : BufTy).Contents (Elt F)),
    ternary main_v41 main_v47 main_v39 main_v48 ((fun x i u => Host.scatterAdd scatter_S100000x256_S200000x1_S200000x256_1_0_0_1 x i u) : (⟨S100000x256, .f32⟩ : BufTy).Contents (Elt F) → (⟨S200000x1, .i32⟩ : BufTy).Contents (Elt F) → (⟨S200000x256, .f32⟩ : BufTy).Contents (Elt F) → (⟨S100000x256, .f32⟩ : BufTy).Contents (Elt F)),
    nullary main_c_5 (constantI S_ 32 0#32),
    unary main_c_5 main_v49 (broadcastInDim S200000 ![] bcast_S_S200000 : (⟨S_, .i32⟩ : BufTy).Contents (Elt F) → (⟨S200000, .i32⟩ : BufTy).Contents (Elt F)),
    binary main_v3 main_v49 main_v50 (cmpi .slt : (⟨S200000, .i32⟩ : BufTy).Contents (Elt F) → (⟨S200000, .i32⟩ : BufTy).Contents (Elt F) → (⟨S200000, .i1⟩ : BufTy).Contents (Elt F)),
    nullary main_c_6 (constantI S_ 32 100000#32),
    unary main_c_6 main_v51 (broadcastInDim S200000 ![] bcast_S_S200000 : (⟨S_, .i32⟩ : BufTy).Contents (Elt F) → (⟨S200000, .i32⟩ : BufTy).Contents (Elt F)),
    binary main_v3 main_v51 main_v52 (addi : (⟨S200000, .i32⟩ : BufTy).Contents (Elt F) → (⟨S200000, .i32⟩ : BufTy).Contents (Elt F) → (⟨S200000, .i32⟩ : BufTy).Contents (Elt F)),
    ternary main_v50 main_v52 main_v3 main_v53 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v53 main_v54 (broadcastInDim S200000x1 ![0] bcast_S200000_S200000x1_0 : (⟨S200000, .i32⟩ : BufTy).Contents (Elt F) → (⟨S200000x1, .i32⟩ : BufTy).Contents (Elt F)),
    ternary main_v48 main_v54 main_v40 main_v55 ((fun x i u => Host.scatterAdd scatter_S100000x256_S200000x1_S200000x256_1_0_0_1 x i u) : (⟨S100000x256, .f32⟩ : BufTy).Contents (Elt F) → (⟨S200000x1, .i32⟩ : BufTy).Contents (Elt F) → (⟨S200000x256, .f32⟩ : BufTy).Contents (Elt F) → (⟨S100000x256, .f32⟩ : BufTy).Contents (Elt F)) ]

/-- Operations 72 … 93. -/
abbrev ops6 : List (HloOp τ sig (Elt F)) :=
  [ nullary main_cst_7 (constant S_ .f32 0x00000000#32),
    unary main_cst_7 main_v56 (broadcastInDim S100000 ![] bcast_S_S100000 : (⟨S_, .f32⟩ : BufTy).Contents (Elt F) → (⟨S100000, .f32⟩ : BufTy).Contents (Elt F)),
    nullary main_cst_8 (constant S_ .f32 0x3F800000#32),
    unary main_cst_8 main_v57 (broadcastInDim S200000 ![] bcast_S_S200000 : (⟨S_, .f32⟩ : BufTy).Contents (Elt F) → (⟨S200000, .f32⟩ : BufTy).Contents (Elt F)),
    nullary main_c_9 (constantI S_ 32 0#32),
    unary main_c_9 main_v58 (broadcastInDim S200000 ![] bcast_S_S200000 : (⟨S_, .i32⟩ : BufTy).Contents (Elt F) → (⟨S200000, .i32⟩ : BufTy).Contents (Elt F)),
    binary main_v1 main_v58 main_v59 (cmpi .slt : (⟨S200000, .i32⟩ : BufTy).Contents (Elt F) → (⟨S200000, .i32⟩ : BufTy).Contents (Elt F) → (⟨S200000, .i1⟩ : BufTy).Contents (Elt F)),
    nullary main_c_10 (constantI S_ 32 100000#32),
    unary main_c_10 main_v60 (broadcastInDim S200000 ![] bcast_S_S200000 : (⟨S_, .i32⟩ : BufTy).Contents (Elt F) → (⟨S200000, .i32⟩ : BufTy).Contents (Elt F)),
    binary main_v1 main_v60 main_v61 (addi : (⟨S200000, .i32⟩ : BufTy).Contents (Elt F) → (⟨S200000, .i32⟩ : BufTy).Contents (Elt F) → (⟨S200000, .i32⟩ : BufTy).Contents (Elt F)),
    ternary main_v59 main_v61 main_v1 main_v62 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v62 main_v63 (broadcastInDim S200000x1 ![0] bcast_S200000_S200000x1_0 : (⟨S200000, .i32⟩ : BufTy).Contents (Elt F) → (⟨S200000x1, .i32⟩ : BufTy).Contents (Elt F)),
    ternary main_v56 main_v63 main_v57 main_v64 ((fun x i u => Host.scatterAdd scatter_S100000_S200000x1_S200000_n_0_0_1 x i u) : (⟨S100000, .f32⟩ : BufTy).Contents (Elt F) → (⟨S200000x1, .i32⟩ : BufTy).Contents (Elt F) → (⟨S200000, .f32⟩ : BufTy).Contents (Elt F) → (⟨S100000, .f32⟩ : BufTy).Contents (Elt F)),
    nullary main_c_11 (constantI S_ 32 0#32),
    unary main_c_11 main_v65 (broadcastInDim S200000 ![] bcast_S_S200000 : (⟨S_, .i32⟩ : BufTy).Contents (Elt F) → (⟨S200000, .i32⟩ : BufTy).Contents (Elt F)),
    binary main_v3 main_v65 main_v66 (cmpi .slt : (⟨S200000, .i32⟩ : BufTy).Contents (Elt F) → (⟨S200000, .i32⟩ : BufTy).Contents (Elt F) → (⟨S200000, .i1⟩ : BufTy).Contents (Elt F)),
    nullary main_c_12 (constantI S_ 32 100000#32),
    unary main_c_12 main_v67 (broadcastInDim S200000 ![] bcast_S_S200000 : (⟨S_, .i32⟩ : BufTy).Contents (Elt F) → (⟨S200000, .i32⟩ : BufTy).Contents (Elt F)),
    binary main_v3 main_v67 main_v68 (addi : (⟨S200000, .i32⟩ : BufTy).Contents (Elt F) → (⟨S200000, .i32⟩ : BufTy).Contents (Elt F) → (⟨S200000, .i32⟩ : BufTy).Contents (Elt F)),
    ternary main_v66 main_v68 main_v3 main_v69 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v69 main_v70 (broadcastInDim S200000x1 ![0] bcast_S200000_S200000x1_0 : (⟨S200000, .i32⟩ : BufTy).Contents (Elt F) → (⟨S200000x1, .i32⟩ : BufTy).Contents (Elt F)),
    ternary main_v64 main_v70 main_v57 main_v71 ((fun x i u => Host.scatterAdd scatter_S100000_S200000x1_S200000_n_0_0_1 x i u) : (⟨S100000, .f32⟩ : BufTy).Contents (Elt F) → (⟨S200000x1, .i32⟩ : BufTy).Contents (Elt F) → (⟨S200000, .f32⟩ : BufTy).Contents (Elt F) → (⟨S100000, .f32⟩ : BufTy).Contents (Elt F)) ]

/-- Operations 94 … 107. -/
abbrev ops7 : List (HloOp τ sig (Elt F)) :=
  [ nullary main_cst_13 (constant S_ .f32 0x3F800000#32),
    TRef.unary (TRef.of (T := ⟨S_, .f32⟩) main_cst_13) (TRef.of (T := ⟨S_, .f32⟩) main_call3_v0) id,
    TRef.unary (TRef.of (T := ⟨S_, .f32⟩) main_call3_v0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_v71) (TRef.of (T := ⟨S100000, .f32⟩) main_v72) maximumf,
    unary main_v72 main_v73 (broadcastInDim S100000x1 ![0] bcast_S100000_S100000x1_0 : (⟨S100000, .f32⟩ : BufTy).Contents (Elt F) → (⟨S100000x1, .f32⟩ : BufTy).Contents (Elt F)),
    unary main_v73 main_v74 (broadcastInDim S100000x256 ![0, 1] bcast_S100000x1_S100000x256_0_1 : (⟨S100000x1, .f32⟩ : BufTy).Contents (Elt F) → (⟨S100000x256, .f32⟩ : BufTy).Contents (Elt F)),
    binary main_v55 main_v74 main_v75 (Host.divf : (⟨S100000x256, .f32⟩ : BufTy).Contents (Elt F) → (⟨S100000x256, .f32⟩ : BufTy).Contents (Elt F) → (⟨S100000x256, .f32⟩ : BufTy).Contents (Elt F)),
    binary main_v75 main_arg9 main_v76 ((fun l r => Host.dotGeneral dot_S100000x256_S256x512_S100000x512_1_0_0_1_n_n none l r) : (⟨S100000x256, .f32⟩ : BufTy).Contents (Elt F) → (⟨S256x512, .f32⟩ : BufTy).Contents (Elt F) → (⟨S100000x512, .f32⟩ : BufTy).Contents (Elt F)),
    unary main_arg10 main_v77 (broadcastInDim S1x512 ![1] bcast_S512_S1x512_1 : (⟨S512, .f32⟩ : BufTy).Contents (Elt F) → (⟨S1x512, .f32⟩ : BufTy).Contents (Elt F)),
    unary main_v77 main_v78 (broadcastInDim S100000x512 ![0, 1] bcast_S1x512_S100000x512_0_1 : (⟨S1x512, .f32⟩ : BufTy).Contents (Elt F) → (⟨S100000x512, .f32⟩ : BufTy).Contents (Elt F)),
    binary main_v76 main_v78 main_v79 (addf : (⟨S100000x512, .f32⟩ : BufTy).Contents (Elt F) → (⟨S100000x512, .f32⟩ : BufTy).Contents (Elt F) → (⟨S100000x512, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x512, .f32⟩) main_call4_v0) (broadcastInDim S100000x512 ![] bcast_S_S100000x512),
    TRef.binary (TRef.of (T := ⟨S100000x512, .f32⟩) main_v79) (TRef.of (T := ⟨S100000x512, .f32⟩) main_call4_v0) (TRef.of (T := ⟨S100000x512, .f32⟩) main_v80) maximumf ]

end Cert.ReferenceIdeal.Chunks

end
-- ==== Proof.RefRun.lean ====
/-
  The reference program's run, read back over its operation list cut into seven consecutive lists.

  The program is a straight line of host operations. Run in order from the launch memory, they leave every buffer at the
  fold of their results; cut into lists, the fold of the whole line is the folds of the lists one after the other. U0 is
  the launch contents and U k what the first k lists leave, so U7 is what the program ends with.
-/
import proofs.«424232_j87694642250356_3_alg».proof.Proof.RefOps
import Idealize.ShloMosaic.Lib.StableHlo.Run
import Idealize.ShloMosaic.Lib.Pipeline.Frame

noncomputable section

namespace Cert.ReferenceIdeal.Chunks

open Cert.ReferenceIdeal Cert.ReferenceIdeal.Gen Idealize.ShloMosaic Idealize.ShloMosaic.TcCoe Idealize.SL.Sem Idealize.ShloMosaic.StableHlo

variable {F : FTy → Type} [FloatOps F]

/-- The whole line. -/
abbrev ops : List (HloOp τ sig (Elt F)) := ops1 ++ (ops2 ++ (ops3 ++ (ops4 ++ (ops5 ++ (ops6 ++ ops7)))))

variable (m : (ℓ : Loc nD τ sig) → Buf (Elt F) ℓ)

/-- The buffers' contents at launch, and after each list. -/
abbrev U0 (c : Dev nD) : Valuation τ sig (Elt F) := launchContents m c
abbrev U1 (c : Dev nD) : Valuation τ sig (Elt F) := StableHlo.after ops1 (U0 m c)
abbrev U2 (c : Dev nD) : Valuation τ sig (Elt F) := StableHlo.after ops2 (U1 m c)
abbrev U3 (c : Dev nD) : Valuation τ sig (Elt F) := StableHlo.after ops3 (U2 m c)
abbrev U4 (c : Dev nD) : Valuation τ sig (Elt F) := StableHlo.after ops4 (U3 m c)
abbrev U5 (c : Dev nD) : Valuation τ sig (Elt F) := StableHlo.after ops5 (U4 m c)
abbrev U6 (c : Dev nD) : Valuation τ sig (Elt F) := StableHlo.after ops6 (U5 m c)
abbrev U7 (c : Dev nD) : Valuation τ sig (Elt F) := StableHlo.after ops7 (U6 m c)

/-- The fold of the whole line is the seven folds in turn. -/
theorem after_ops (c : Dev nD) : StableHlo.after (ops (F := F)) (U0 m c) = U7 m c := by
  show StableHlo.after (ops1 ++ (ops2 ++ (ops3 ++ (ops4 ++ (ops5 ++ (ops6 ++ ops7)))))) (U0 m c) = U7 m c
  rw [StableHlo.after_append, StableHlo.after_append, StableHlo.after_append, StableHlo.after_append,
    StableHlo.after_append, StableHlo.after_append]

set_option maxRecDepth 8192 in
set_option maxHeartbeats 4000000 in
/-- The program is the line run in order. -/
theorem main_eq (c : Dev nD) : main (F := F) c = seq (ops (F := F)) := by
  rfl

/-- Operations 1 … 22 touch TensorCore buffers only. -/
theorem ops1_sub : (ops1 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

/-- Operations 23 … 33 touch TensorCore buffers only. -/
theorem ops2_sub : (ops2 : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub .., unary_bufs_sub .., unary_bufs_sub .., unary_bufs_sub ..⟩

/-- Operations 34 … 41 touch TensorCore buffers only. -/
theorem ops3_sub : (ops3 : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub ..⟩

/-- Operations 42 … 51 touch TensorCore buffers only. -/
theorem ops4_sub : (ops4 : List (HloOp τ sig (Elt F))).Forall fun op => op.bufs ⊆ tcRefs τ sig :=
  ⟨nary_bufs_sub .., binary_bufs_sub .., unary_bufs_sub .., unary_bufs_sub .., binary_bufs_sub .., nullary_bufs_sub .., unary_bufs_sub .., binary_bufs_sub .., unary_bufs_sub .., unary_bufs_sub ..⟩

/-- Operations 52 … 71 touch TensorCore buffers only. -/
theorem ops5_sub : (ops5 : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub ..⟩

/-- Operations 72 … 93 touch TensorCore buffers only. -/
theorem ops6_sub : (ops6 : List (HloOp τ sig (Elt F))).Forall fun op => op.bufs ⊆ tcRefs τ sig :=
  ⟨nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub .., binary_bufs_sub .., ternary_bufs_sub .., unary_bufs_sub .., ternary_bufs_sub ..⟩

/-- Operations 94 … 107 touch TensorCore buffers only. -/
theorem ops7_sub : (ops7 : List (HloOp τ sig (Elt F))).Forall fun op => op.bufs ⊆ tcRefs τ sig :=
  ⟨nullary_bufs_sub .., unary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub ..⟩

/-- Every operation touches TensorCore buffers only. -/
theorem ops_sub : (ops : List (HloOp τ sig (Elt F))).Forall fun op => op.bufs ⊆ tcRefs τ sig :=
  List.forall_append.2 ⟨ops1_sub, List.forall_append.2 ⟨ops2_sub, List.forall_append.2 ⟨ops3_sub,
    List.forall_append.2 ⟨ops4_sub, List.forall_append.2 ⟨ops5_sub, List.forall_append.2 ⟨ops6_sub, ops7_sub⟩⟩⟩⟩⟩⟩

theorem scopedRefs_eq : (Finset.univ.filter fun b : Ref sig .tc => b.isScoped) = ∅ := by decide
theorem scopedSems_eq : (Finset.univ.filter fun sm : SemLoc sig => sm.isScoped .tc) = ∅ := by decide

/-- Operations 1 … 22 each determine their results. -/
theorem ops1_fresh : ∀ op ∈ (ops1 : List (HloOp τ sig (Elt F))), op.fresh = ∅ := by
  intro _ h; (repeat (cases h with | head => rfl | tail _ h => ?_)); exact nomatch h

/-- Operations 23 … 33 each determine their results. -/
theorem ops2_fresh : ∀ op ∈ (ops2 : List (HloOp τ sig (Elt F))), op.fresh = ∅ := by
  intro _ h; (repeat (cases h with | head => rfl | tail _ h => ?_)); exact nomatch h

/-- Operations 34 … 41 each determine their results. -/
theorem ops3_fresh : ∀ op ∈ (ops3 : List (HloOp τ sig (Elt F))), op.fresh = ∅ := by
  intro _ h; (repeat (cases h with | head => rfl | tail _ h => ?_)); exact nomatch h

/-- Operations 42 … 51 each determine their results. -/
theorem ops4_fresh : ∀ op ∈ (ops4 : List (HloOp τ sig (Elt F))), op.fresh = ∅ := by
  intro _ h; (repeat (cases h with | head => rfl | tail _ h => ?_)); exact nomatch h

/-- Operations 52 … 71 each determine their results. -/
theorem ops5_fresh : ∀ op ∈ (ops5 : List (HloOp τ sig (Elt F))), op.fresh = ∅ := by
  intro _ h; (repeat (cases h with | head => rfl | tail _ h => ?_)); exact nomatch h

/-- Operations 72 … 93 each determine their results. -/
theorem ops6_fresh : ∀ op ∈ (ops6 : List (HloOp τ sig (Elt F))), op.fresh = ∅ := by
  intro _ h; (repeat (cases h with | head => rfl | tail _ h => ?_)); exact nomatch h

/-- Operations 94 … 107 each determine their results. -/
theorem ops7_fresh : ∀ op ∈ (ops7 : List (HloOp τ sig (Elt F))), op.fresh = ∅ := by
  intro _ h; (repeat (cases h with | head => rfl | tail _ h => ?_)); exact nomatch h

/-- Every operation of the line determines its results: membership in the line is membership in one of the seven lists. -/
theorem ops_fresh : ∀ op ∈ (ops : List (HloOp τ sig (Elt F))), op.fresh = ∅ := by
  intro op h
  rcases List.mem_append.1 h with h | h
  · exact ops1_fresh op h
  rcases List.mem_append.1 h with h | h
  · exact ops2_fresh op h
  rcases List.mem_append.1 h with h | h
  · exact ops3_fresh op h
  rcases List.mem_append.1 h with h | h
  · exact ops4_fresh op h
  rcases List.mem_append.1 h with h | h
  · exact ops5_fresh op h
  rcases List.mem_append.1 h with h | h
  · exact ops6_fresh op h
  · exact ops7_fresh op h

/-- Every weakly fair execution of the program ends, with each buffer at what the seven lists leave. -/
theorem run (ρ : Dev nD → PrngReg) :
    θ_run defs (onTc (τ := τ) (main (F := F))) ⟨m, fun _ => 0, ρ⟩ fun r =>
      ∀ (c : Dev nD) (b : Ref sig .tc), r.2.mem ((c.tc : Thread nD τ).loc b) = U7 m c (Proc.devRef .tc b) :=
  (θ_run defs _ _).mono (fun _ h c b => (h c b).trans (congrFun (after_ops m c) (Proc.devRef .tc b)))
    (run_seq scopedRefs_eq scopedSems_eq defs main (fun _ => ops) main_eq (fun _ => ops_sub) m ρ (fun _ => ops_fresh))

end Cert.ReferenceIdeal.Chunks

end
-- ==== Proof.RefLayers.lean ====
/-
  The reference program's three dense layers, read off its first four operation lists.

  After the first list the node table's rows stand gathered at the subject and object indices; the second list joins
  them with the predicate rows and applies the first layer; the third applies the second layer, whose result new_pred is
  one of the program's two results; the fourth joins the outer thirds of the hidden layer with new_pred, applies the node
  update and cuts its two halves of 256 columns. Each is the specification's layer of the argument arrays: a product
  with one contracted axis is a sum over that axis, a bias row is added along the rows, the rectifier is a maximum with 0.
-/
import proofs.«424232_j87694642250356_3_alg».proof.Proof.RefRun
import proofs.«424232_j87694642250356_3_alg».proof.Proof.Whole
import proofs.«424232_j87694642250356_3_alg».proof.Proof.LibDotSum
import proofs.«424232_j87694642250356_3_alg».proof.Proof.EdgeBlock
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Values

open Cert.ReferenceIdeal Cert.ReferenceIdeal.Gen Cert.ReferenceIdeal.Chunks Cert.EdgeNet
open Idealize.ShloMosaic Idealize.ShloMosaic.TcCoe Idealize.ShloMosaic.ValueIdx Idealize.SL.Sem Idealize.ShloMosaic.StableHlo

/-! ## A dense layer as the host writes it -/

section HostLayer

variable {M K N : Nat}

/-- The bias vector laid as a 1 × N row and the row repeated down M rows reads, at (r, c), the vector's entry c. -/
theorem bias_rows_apply (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 b) (ix2 r c) = b (ix1 c) := by
  have hc := c.isLt
  rw [broadcastInDim_apply ![0, 1] h2 _ (ix2 r c) (ix2 ⟨0, Nat.one_pos⟩ c) (fun a => by
      match a with
      | ⟨0, _⟩ => show (0 : Nat) = if (1 : Nat) = 1 then 0 else r.val; rw [if_pos rfl]
      | ⟨1, _⟩ => show c.val = if N = 1 then 0 else c.val; split <;> omega),
    broadcastInDim_apply ![1] h1 b (ix2 ⟨0, Nat.one_pos⟩ c) (ix1 c) (fun a => by
      match a with
      | ⟨0, _⟩ => show c.val = if N = 1 then 0 else c.val; split <;> omega)]

/-- The scalar zero repeated over a whole array reads 0 everywhere. -/
theorem zero_bcast_apply (s : Shape) (h0 : (⟨0, ![]⟩ : Shape).BroadcastsInDim s ![]) (i : s.Idx) :
    broadcastInDim s ![] h0 (constant (F := Ideal) ⟨0, ![]⟩ .f32 0x00000000#32) i = 0 := by
  rw [broadcastInDim_apply ![] h0 _ i ix0 (fun a => a.elim0), constant_apply, Ideal.ofBits_zero_f32]

/-- relu (A · W + b) as the host writes it: one product with one contracted axis, the bias vector laid as a row and
    repeated down the rows, added, and the maximum against the zero repeated over the array. -/
theorem host_dense (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (A : FVec Ideal ⟨2, ![M, K]⟩ .f32) (W : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf (Host.dotGeneral (F := Ideal) d none A W)
        (broadcastInDim ⟨2, ![M, N]⟩ ![0, 1] h2 (broadcastInDim ⟨2, ![1, N]⟩ ![1] h1 b)))
      (broadcastInDim ⟨2, ![M, N]⟩ ![] h0 (constant (F := Ideal) ⟨0, ![]⟩ .f32 0x00000000#32))
    = dense A W b := by
  funext i
  obtain ⟨r, c, rfl⟩ : ∃ (r : Fin M) (c : Fin N), i = ix2 r c := ⟨i 0, i 1, eq_ix2 i⟩
  rw [maximumf_apply, addf_apply, zero_bcast_apply, Cert.Lib.dotGeneral_rc_apply d hlc hrc hln hrn hlb hrb, bias_rows_apply,
    dense_apply]

end HostLayer

/-! ## Windows of columns joined back -/

section Rejoin

variable {M : Nat}

/-- Three consecutive windows of columns that cover a matrix, joined side by side, are the matrix. -/
theorem join3_cols (a b c n : Nat) (h : n = a + b + c) (X : Mat M n) :
    join3 n h (cols 0 a (by omega) X) (cols a b (by omega) X) (cols (a + b) c (by omega) X) = X := by
  funext i
  obtain ⟨r, j, rfl⟩ : ∃ (r : Fin M) (j : Fin n), i = ix2 r j := ⟨i 0, i 1, eq_ix2 i⟩
  have hj := j.isLt
  rw [join3_apply]
  split
  · next h1 =>
    rw [cols_apply]
    exact congrArg X (congrArg (ix2 r) (Fin.ext (by show 0 + j.val = j.val; omega)))
  · next h1 =>
    split
    · next h2 =>
      rw [cols_apply]
      exact congrArg X (congrArg (ix2 r) (Fin.ext (by show a + (j.val - a) = j.val; omega)))
    · next h2 =>
      rw [cols_apply]
      exact congrArg X (congrArg (ix2 r) (Fin.ext (by show a + b + (j.val - (a + b)) = j.val; omega)))

/-- The three thirds of a matrix of 768 columns, joined back. -/
theorem join3_thirds (X : Mat M 768) :
    join3 768 rfl (cols 0 256 (by omega) X) (cols 256 256 (by omega) X) (cols 512 256 (by omega) X) = X :=
  join3_cols 256 256 256 768 rfl X

end Rejoin

/-! ## The three layers over this program's shapes -/

/-- The first layer: [s | p | o] joined, one product, the bias, the rectifier. -/
theorem hid_ops (s p o : FVec Ideal S200000x128 .f32) (W : FVec Ideal S384x768 .f32) (b : FVec Ideal S768 .f32) :
    maximumf (addf (Host.dotGeneral (F := Ideal) dot_S200000x384_S384x768_S200000x768_1_0_0_1_n_n none
          (concatenate S200000x384 1 [⟨S200000x128, s⟩, ⟨S200000x128, p⟩, ⟨S200000x128, o⟩]
            concatenates_S200000x128_S200000x128_S200000x128_S200000x384_d1) W)
        (broadcastInDim S200000x768 ![0, 1] bcast_S1x768_S200000x768_0_1 (broadcastInDim S1x768 ![1] bcast_S768_S1x768_1 b)))
      (broadcastInDim S200000x768 ![] bcast_S_S200000x768 (constant (F := Ideal) S_ .f32 0x00000000#32))
    = hidden s p o W b := by
  rw [Cert.KernelIdeal.Edge.concat3_eq_join3 (φ := .f32) 384 rfl]
  exact host_dense dot_S200000x384_S384x768_S200000x768_1_0_0_1_n_n rfl rfl rfl rfl rfl rfl _ W b _ _ _

/-- The second layer over three blocks of 256 columns joined. -/
theorem pred_ops (x y z : FVec Ideal S200000x256 .f32) (W : FVec Ideal S768x512 .f32) (b : FVec Ideal S512 .f32) :
    maximumf (addf (Host.dotGeneral (F := Ideal) dot_S200000x768_S768x512_S200000x512_1_0_0_1_n_n none
          (concatenate S200000x768 1 [⟨S200000x256, x⟩, ⟨S200000x256, y⟩, ⟨S200000x256, z⟩]
            concatenates_S200000x256_S200000x256_S200000x256_S200000x768_d1) W)
        (broadcastInDim S200000x512 ![0, 1] bcast_S1x512_S200000x512_0_1 (broadcastInDim S1x512 ![1] bcast_S512_S1x512_1 b)))
      (broadcastInDim S200000x512 ![] bcast_S_S200000x512 (constant (F := Ideal) S_ .f32 0x00000000#32))
    = dense (join3 768 rfl x y z) W b := by
  rw [Cert.KernelIdeal.Edge.concat3_eq_join3 (φ := .f32) 768 rfl]
  exact host_dense dot_S200000x768_S768x512_S200000x512_1_0_0_1_n_n rfl rfl rfl rfl rfl rfl _ W b _ _ _

/-- The node update over [x | y | z] of 256, 512 and 256 columns joined. -/
theorem node_ops (x : FVec Ideal S200000x256 .f32) (y : FVec Ideal S200000x512 .f32) (z : FVec Ideal S200000x256 .f32)
    (W : FVec Ideal S1024x512 .f32) (b : FVec Ideal S512 .f32) :
    maximumf (addf (Host.dotGeneral (F := Ideal) dot_S200000x1024_S1024x512_S200000x512_1_0_0_1_n_n none
          (concatenate S200000x1024 1 [⟨S200000x256, x⟩, ⟨S200000x512, y⟩, ⟨S200000x256, z⟩]
            concatenates_S200000x256_S200000x512_S200000x256_S200000x1024_d1) W)
        (broadcastInDim S200000x512 ![0, 1] bcast_S1x512_S200000x512_0_1 (broadcastInDim S1x512 ![1] bcast_S512_S1x512_1 b)))
      (broadcastInDim S200000x512 ![] bcast_S_S200000x512 (constant (F := Ideal) S_ .f32 0x00000000#32))
    = dense (join3 1024 rfl x y z) W b := by
  rw [Cert.KernelIdeal.Edge.concat3_eq_join3 (φ := .f32) 1024 rfl]
  exact host_dense dot_S200000x1024_S1024x512_S200000x512_1_0_0_1_n_n rfl rfl rfl rfl rfl rfl _ W b _ _ _

variable (m' : (ℓ : Loc nD τ sig) → Buf (Elt Ideal) ℓ)

/-! ## After the first list: the gathered rows; the arguments stand as launched -/

/-- The node table's rows at the subject of every edge. -/
theorem v10_at1 (c : Dev nD) :
    U1 (F := Ideal) m' c (Proc.devRef .tc main_v10) = Cert.KernelIdeal.Whole.srows (m' ((c.tc : Thread nD τ).loc main_arg0)) (m' ((c.tc : Thread nD τ).loc main_arg2)) := by
  show StableHlo.after ops1 (U0 m' c) (Proc.devRef .tc main_v10) = _
  after_results_simp
  rfl

/-- The node table's rows at the object of every edge. -/
theorem v17_at1 (c : Dev nD) :
    U1 (F := Ideal) m' c (Proc.devRef .tc main_v17) = Cert.KernelIdeal.Whole.orows (m' ((c.tc : Thread nD τ).loc main_arg0)) (m' ((c.tc : Thread nD τ).loc main_arg2)) := by
  show StableHlo.after ops1 (U0 m' c) (Proc.devRef .tc main_v17) = _
  after_results_simp
  rfl

theorem arg1_at1 (c : Dev nD) : U1 (F := Ideal) m' c (Proc.devRef .tc main_arg1) = m' ((c.tc : Thread nD τ).loc main_arg1) := by
  show StableHlo.after ops1 (U0 m' c) (Proc.devRef .tc main_arg1) = _
  after_results

theorem arg3_at1 (c : Dev nD) : U1 (F := Ideal) m' c (Proc.devRef .tc main_arg3) = m' ((c.tc : Thread nD τ).loc main_arg3) := by
  show StableHlo.after ops1 (U0 m' c) (Proc.devRef .tc main_arg3) = _
  after_results

theorem arg4_at1 (c : Dev nD) : U1 (F := Ideal) m' c (Proc.devRef .tc main_arg4) = m' ((c.tc : Thread nD τ).loc main_arg4) := by
  show StableHlo.after ops1 (U0 m' c) (Proc.devRef .tc main_arg4) = _
  after_results

theorem arg5_at1 (c : Dev nD) : U1 (F := Ideal) m' c (Proc.devRef .tc main_arg5) = m' ((c.tc : Thread nD τ).loc main_arg5) := by
  show StableHlo.after ops1 (U0 m' c) (Proc.devRef .tc main_arg5) = _
  after_results

theorem arg6_at1 (c : Dev nD) : U1 (F := Ideal) m' c (Proc.devRef .tc main_arg6) = m' ((c.tc : Thread nD τ).loc main_arg6) := by
  show StableHlo.after ops1 (U0 m' c) (Proc.devRef .tc main_arg6) = _
  after_results

theorem arg7_at1 (c : Dev nD) : U1 (F := Ideal) m' c (Proc.devRef .tc main_arg7) = m' ((c.tc : Thread nD τ).loc main_arg7) := by
  show StableHlo.after ops1 (U0 m' c) (Proc.devRef .tc main_arg7) = _
  after_results

theorem arg8_at1 (c : Dev nD) : U1 (F := Ideal) m' c (Proc.devRef .tc main_arg8) = m' ((c.tc : Thread nD τ).loc main_arg8) := by
  show StableHlo.after ops1 (U0 m' c) (Proc.devRef .tc main_arg8) = _
  after_results

/-! ## After the second list: the hidden layer and its three thirds -/

theorem arg5_at2 (c : Dev nD) : U2 (F := Ideal) m' c (Proc.devRef .tc main_arg5) = m' ((c.tc : Thread nD τ).loc main_arg5) := by
  show StableHlo.after ops2 (U1 m' c) (Proc.devRef .tc main_arg5) = _
  generalize hV : U1 (F := Ideal) m' c = V
  after_results
  rw [← hV]
  exact arg5_at1 m' c

theorem arg6_at2 (c : Dev nD) : U2 (F := Ideal) m' c (Proc.devRef .tc main_arg6) = m' ((c.tc : Thread nD τ).loc main_arg6) := by
  show StableHlo.after ops2 (U1 m' c) (Proc.devRef .tc main_arg6) = _
  generalize hV : U1 (F := Ideal) m' c = V
  after_results
  rw [← hV]
  exact arg6_at1 m' c

theorem arg7_at2 (c : Dev nD) : U2 (F := Ideal) m' c (Proc.devRef .tc main_arg7) = m' ((c.tc : Thread nD τ).loc main_arg7) := by
  show StableHlo.after ops2 (U1 m' c) (Proc.devRef .tc main_arg7) = _
  generalize hV : U1 (F := Ideal) m' c = V
  after_results
  rw [← hV]
  exact arg7_at1 m' c

theorem arg8_at2 (c : Dev nD) : U2 (F := Ideal) m' c (Proc.devRef .tc main_arg8) = m' ((c.tc : Thread nD τ).loc main_arg8) := by
  show StableHlo.after ops2 (U1 m' c) (Proc.devRef .tc main_arg8) = _
  generalize hV : U1 (F := Ideal) m' c = V
  after_results
  rw [← hV]
  exact arg8_at1 m' c

/-- The hidden layer. -/
theorem v23_at2 (c : Dev nD) : U2 (F := Ideal) m' c (Proc.devRef .tc main_v23) = Cert.KernelIdeal.Whole.hid (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) := by
  show StableHlo.after ops2 (U1 m' c) (Proc.devRef .tc main_v23) = _
  generalize hV : U1 (F := Ideal) m' c = V
  have e10 : V (Proc.devRef .tc main_v10) = Cert.KernelIdeal.Whole.srows (m' ((c.tc : Thread nD τ).loc main_arg0)) (m' ((c.tc : Thread nD τ).loc main_arg2)) := by rw [← hV]; exact v10_at1 m' c
  have e17 : V (Proc.devRef .tc main_v17) = Cert.KernelIdeal.Whole.orows (m' ((c.tc : Thread nD τ).loc main_arg0)) (m' ((c.tc : Thread nD τ).loc main_arg2)) := by rw [← hV]; exact v17_at1 m' c
  have e1 : V (Proc.devRef .tc main_arg1) = m' ((c.tc : Thread nD τ).loc main_arg1) := by rw [← hV]; exact arg1_at1 m' c
  have e3 : V (Proc.devRef .tc main_arg3) = m' ((c.tc : Thread nD τ).loc main_arg3) := by rw [← hV]; exact arg3_at1 m' c
  have e4 : V (Proc.devRef .tc main_arg4) = m' ((c.tc : Thread nD τ).loc main_arg4) := by rw [← hV]; exact arg4_at1 m' c
  after_results
  simp only [TRef.ofBuf, TRef.toBuf, cast_eq]
  dsimp only [Matrix.cons_val]
  rw [e10, e17, e1, e3, e4, hid_ops]
  rfl

/-- Its first 256 columns. -/
theorem v24_at2 (c : Dev nD) : U2 (F := Ideal) m' c (Proc.devRef .tc main_v24) = cols 0 256 (by omega) (Cert.KernelIdeal.Whole.hid (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4))) := by
  show StableHlo.after ops2 (U1 m' c) (Proc.devRef .tc main_v24) = _
  generalize hV : U1 (F := Ideal) m' c = V
  have e10 : V (Proc.devRef .tc main_v10) = Cert.KernelIdeal.Whole.srows (m' ((c.tc : Thread nD τ).loc main_arg0)) (m' ((c.tc : Thread nD τ).loc main_arg2)) := by rw [← hV]; exact v10_at1 m' c
  have e17 : V (Proc.devRef .tc main_v17) = Cert.KernelIdeal.Whole.orows (m' ((c.tc : Thread nD τ).loc main_arg0)) (m' ((c.tc : Thread nD τ).loc main_arg2)) := by rw [← hV]; exact v17_at1 m' c
  have e1 : V (Proc.devRef .tc main_arg1) = m' ((c.tc : Thread nD τ).loc main_arg1) := by rw [← hV]; exact arg1_at1 m' c
  have e3 : V (Proc.devRef .tc main_arg3) = m' ((c.tc : Thread nD τ).loc main_arg3) := by rw [← hV]; exact arg3_at1 m' c
  have e4 : V (Proc.devRef .tc main_arg4) = m' ((c.tc : Thread nD τ).loc main_arg4) := by rw [← hV]; exact arg4_at1 m' c
  after_results
  simp only [TRef.ofBuf, TRef.toBuf, cast_eq]
  dsimp only [Matrix.cons_val]
  rw [e10, e17, e1, e3, e4, hid_ops]
  exact Cert.KernelIdeal.Edge.slice_eq_cols (φ := .f32) 0 256 (by omega) _ _

/-- Its middle 256 columns. -/
theorem v25_at2 (c : Dev nD) : U2 (F := Ideal) m' c (Proc.devRef .tc main_v25) = cols 256 256 (by omega) (Cert.KernelIdeal.Whole.hid (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4))) := by
  show StableHlo.after ops2 (U1 m' c) (Proc.devRef .tc main_v25) = _
  generalize hV : U1 (F := Ideal) m' c = V
  have e10 : V (Proc.devRef .tc main_v10) = Cert.KernelIdeal.Whole.srows (m' ((c.tc : Thread nD τ).loc main_arg0)) (m' ((c.tc : Thread nD τ).loc main_arg2)) := by rw [← hV]; exact v10_at1 m' c
  have e17 : V (Proc.devRef .tc main_v17) = Cert.KernelIdeal.Whole.orows (m' ((c.tc : Thread nD τ).loc main_arg0)) (m' ((c.tc : Thread nD τ).loc main_arg2)) := by rw [← hV]; exact v17_at1 m' c
  have e1 : V (Proc.devRef .tc main_arg1) = m' ((c.tc : Thread nD τ).loc main_arg1) := by rw [← hV]; exact arg1_at1 m' c
  have e3 : V (Proc.devRef .tc main_arg3) = m' ((c.tc : Thread nD τ).loc main_arg3) := by rw [← hV]; exact arg3_at1 m' c
  have e4 : V (Proc.devRef .tc main_arg4) = m' ((c.tc : Thread nD τ).loc main_arg4) := by rw [← hV]; exact arg4_at1 m' c
  after_results
  simp only [TRef.ofBuf, TRef.toBuf, cast_eq]
  dsimp only [Matrix.cons_val]
  rw [e10, e17, e1, e3, e4, hid_ops]
  exact Cert.KernelIdeal.Edge.slice_eq_cols (φ := .f32) 256 256 (by omega) _ _

/-- Its last 256 columns. -/
theorem v26_at2 (c : Dev nD) : U2 (F := Ideal) m' c (Proc.devRef .tc main_v26) = cols 512 256 (by omega) (Cert.KernelIdeal.Whole.hid (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4))) := by
  show StableHlo.after ops2 (U1 m' c) (Proc.devRef .tc main_v26) = _
  generalize hV : U1 (F := Ideal) m' c = V
  have e10 : V (Proc.devRef .tc main_v10) = Cert.KernelIdeal.Whole.srows (m' ((c.tc : Thread nD τ).loc main_arg0)) (m' ((c.tc : Thread nD τ).loc main_arg2)) := by rw [← hV]; exact v10_at1 m' c
  have e17 : V (Proc.devRef .tc main_v17) = Cert.KernelIdeal.Whole.orows (m' ((c.tc : Thread nD τ).loc main_arg0)) (m' ((c.tc : Thread nD τ).loc main_arg2)) := by rw [← hV]; exact v17_at1 m' c
  have e1 : V (Proc.devRef .tc main_arg1) = m' ((c.tc : Thread nD τ).loc main_arg1) := by rw [← hV]; exact arg1_at1 m' c
  have e3 : V (Proc.devRef .tc main_arg3) = m' ((c.tc : Thread nD τ).loc main_arg3) := by rw [← hV]; exact arg3_at1 m' c
  have e4 : V (Proc.devRef .tc main_arg4) = m' ((c.tc : Thread nD τ).loc main_arg4) := by rw [← hV]; exact arg4_at1 m' c
  after_results
  simp only [TRef.ofBuf, TRef.toBuf, cast_eq]
  dsimp only [Matrix.cons_val]
  rw [e10, e17, e1, e3, e4, hid_ops]
  exact Cert.KernelIdeal.Edge.slice_eq_cols (φ := .f32) 512 256 (by omega) _ _

/-! ## After the third list: new_pred -/

theorem arg7_at3 (c : Dev nD) : U3 (F := Ideal) m' c (Proc.devRef .tc main_arg7) = m' ((c.tc : Thread nD τ).loc main_arg7) := by
  show StableHlo.after ops3 (U2 m' c) (Proc.devRef .tc main_arg7) = _
  generalize hV : U2 (F := Ideal) m' c = V
  after_results
  rw [← hV]
  exact arg7_at2 m' c

theorem arg8_at3 (c : Dev nD) : U3 (F := Ideal) m' c (Proc.devRef .tc main_arg8) = m' ((c.tc : Thread nD τ).loc main_arg8) := by
  show StableHlo.after ops3 (U2 m' c) (Proc.devRef .tc main_arg8) = _
  generalize hV : U2 (F := Ideal) m' c = V
  after_results
  rw [← hV]
  exact arg8_at2 m' c

theorem v24_at3 (c : Dev nD) : U3 (F := Ideal) m' c (Proc.devRef .tc main_v24) = cols 0 256 (by omega) (Cert.KernelIdeal.Whole.hid (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4))) := by
  show StableHlo.after ops3 (U2 m' c) (Proc.devRef .tc main_v24) = _
  generalize hV : U2 (F := Ideal) m' c = V
  after_results
  rw [← hV]
  exact v24_at2 m' c

theorem v26_at3 (c : Dev nD) : U3 (F := Ideal) m' c (Proc.devRef .tc main_v26) = cols 512 256 (by omega) (Cert.KernelIdeal.Whole.hid (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4))) := by
  show StableHlo.after ops3 (U2 m' c) (Proc.devRef .tc main_v26) = _
  generalize hV : U2 (F := Ideal) m' c = V
  after_results
  rw [← hV]
  exact v26_at2 m' c

/-- The three thirds of the hidden layer joined back are the hidden layer, so the second layer is applied to it. -/
theorem v32_at3 (c : Dev nD) : U3 (F := Ideal) m' c (Proc.devRef .tc main_v32) = Cert.KernelIdeal.Whole.pred (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) := by
  show StableHlo.after ops3 (U2 m' c) (Proc.devRef .tc main_v32) = _
  generalize hV : U2 (F := Ideal) m' c = V
  have e24 : V (Proc.devRef .tc main_v24) = cols 0 256 (by omega) (Cert.KernelIdeal.Whole.hid (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4))) := by rw [← hV]; exact v24_at2 m' c
  have e25 : V (Proc.devRef .tc main_v25) = cols 256 256 (by omega) (Cert.KernelIdeal.Whole.hid (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4))) := by rw [← hV]; exact v25_at2 m' c
  have e26 : V (Proc.devRef .tc main_v26) = cols 512 256 (by omega) (Cert.KernelIdeal.Whole.hid (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4))) := by rw [← hV]; exact v26_at2 m' c
  have e5 : V (Proc.devRef .tc main_arg5) = m' ((c.tc : Thread nD τ).loc main_arg5) := by rw [← hV]; exact arg5_at2 m' c
  have e6 : V (Proc.devRef .tc main_arg6) = m' ((c.tc : Thread nD τ).loc main_arg6) := by rw [← hV]; exact arg6_at2 m' c
  after_results
  simp only [TRef.ofBuf, TRef.toBuf, cast_eq]
  dsimp only [Matrix.cons_val]
  rw [e24, e25, e26, e5, e6, pred_ops, join3_thirds]
  rfl

/-! ## After the fourth list: the node update's two halves; new_pred stands -/

/-- new_pred, once the third list has run (no later operation writes it). -/
theorem pred_at4 (c : Dev nD) :
    U4 (F := Ideal) m' c (Proc.devRef .tc main_v32) = Cert.KernelIdeal.Whole.pred (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) := by
  show StableHlo.after ops4 (U3 m' c) (Proc.devRef .tc main_v32) = _
  generalize hV : U3 (F := Ideal) m' c = V
  after_results
  rw [← hV]
  exact v32_at3 m' c

/-- The first 256 columns of the node update. -/
theorem s_at4 (c : Dev nD) :
    U4 (F := Ideal) m' c (Proc.devRef .tc main_v39)
      = cols 0 256 (by omega) (Cert.KernelIdeal.Whole.node (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8))) := by
  show StableHlo.after ops4 (U3 m' c) (Proc.devRef .tc main_v39) = _
  generalize hV : U3 (F := Ideal) m' c = V
  have e24 : V (Proc.devRef .tc main_v24) = cols 0 256 (by omega) (Cert.KernelIdeal.Whole.hid (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4))) := by rw [← hV]; exact v24_at3 m' c
  have e32 : V (Proc.devRef .tc main_v32) = Cert.KernelIdeal.Whole.pred (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) := by rw [← hV]; exact v32_at3 m' c
  have e26 : V (Proc.devRef .tc main_v26) = cols 512 256 (by omega) (Cert.KernelIdeal.Whole.hid (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4))) := by rw [← hV]; exact v26_at3 m' c
  have e7 : V (Proc.devRef .tc main_arg7) = m' ((c.tc : Thread nD τ).loc main_arg7) := by rw [← hV]; exact arg7_at3 m' c
  have e8 : V (Proc.devRef .tc main_arg8) = m' ((c.tc : Thread nD τ).loc main_arg8) := by rw [← hV]; exact arg8_at3 m' c
  after_results
  simp only [TRef.ofBuf, TRef.toBuf, cast_eq]
  dsimp only [Matrix.cons_val]
  rw [e24, e32, e26, e7, e8, node_ops]
  exact Cert.KernelIdeal.Edge.slice_eq_cols (φ := .f32) 0 256 (by omega) _ _

/-- Its second 256 columns. -/
theorem o_at4 (c : Dev nD) :
    U4 (F := Ideal) m' c (Proc.devRef .tc main_v40)
      = cols 256 256 (by omega) (Cert.KernelIdeal.Whole.node (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8))) := by
  show StableHlo.after ops4 (U3 m' c) (Proc.devRef .tc main_v40) = _
  generalize hV : U3 (F := Ideal) m' c = V
  have e24 : V (Proc.devRef .tc main_v24) = cols 0 256 (by omega) (Cert.KernelIdeal.Whole.hid (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4))) := by rw [← hV]; exact v24_at3 m' c
  have e32 : V (Proc.devRef .tc main_v32) = Cert.KernelIdeal.Whole.pred (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) := by rw [← hV]; exact v32_at3 m' c
  have e26 : V (Proc.devRef .tc main_v26) = cols 512 256 (by omega) (Cert.KernelIdeal.Whole.hid (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4))) := by rw [← hV]; exact v26_at3 m' c
  have e7 : V (Proc.devRef .tc main_arg7) = m' ((c.tc : Thread nD τ).loc main_arg7) := by rw [← hV]; exact arg7_at3 m' c
  have e8 : V (Proc.devRef .tc main_arg8) = m' ((c.tc : Thread nD τ).loc main_arg8) := by rw [← hV]; exact arg8_at3 m' c
  after_results
  simp only [TRef.ofBuf, TRef.toBuf, cast_eq]
  dsimp only [Matrix.cons_val]
  rw [e24, e32, e26, e7, e8, node_ops]
  exact Cert.KernelIdeal.Edge.slice_eq_cols (φ := .f32) 256 256 (by omega) _ _

end Cert.ReferenceIdeal.Values

end
-- ==== Proof.RefPool.lean ====
/-
  The reference program's two results, read off its last three operation lists.

  The fifth list sums the two halves of the node update into their nodes, the sixth counts the edge ends at each node,
  and the seventh divides the sums by the counts raised to at least 1 and applies the last dense layer. Summing into
  nodes is applied to the same index arrays and in the same order as in the specification, so it is carried as it is
  given; only the last layer is read at an entry. No operation writes an argument, and none after the third list writes
  new_pred.
-/
import proofs.«424232_j87694642250356_3_alg».proof.Proof.RefLayers
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost

set_option maxRecDepth 16384

noncomputable section

namespace Cert.ReferenceIdeal.Values

open Cert.ReferenceIdeal Cert.ReferenceIdeal.Gen Cert.ReferenceIdeal.Chunks Cert.EdgeNet
open Idealize.ShloMosaic Idealize.ShloMosaic.TcCoe Idealize.ShloMosaic.ValueIdx Idealize.SL.Sem Idealize.ShloMosaic.StableHlo

variable (m' : (ℓ : Loc nD τ sig) → Buf (Elt Ideal) ℓ)

/-! ## The buffers each list writes, and what a list leaves alone -/

/-- The buffers list 1 writes. -/
def wr1 : List (Ref sig .tc) := [main_v0, main_v1, main_v2, main_v3, main_c, main_v4, main_v5, main_c_0, main_v6, main_v7, main_v8, main_v9, main_v10, main_c_1, main_v11, main_v12, main_c_2, main_v13, main_v14, main_v15, main_v16, main_v17]

/-- The buffers list 2 writes. -/
def wr2 : List (Ref sig .tc) := [main_v18, main_v19, main_v20, main_v21, main_v22, main_call0_cst, main_call0_v0, main_v23, main_v24, main_v25, main_v26]

/-- The buffers list 3 writes. -/
def wr3 : List (Ref sig .tc) := [main_v27, main_v28, main_v29, main_v30, main_v31, main_call1_cst, main_call1_v0, main_v32]

/-- The buffers list 4 writes. -/
def wr4 : List (Ref sig .tc) := [main_v33, main_v34, main_v35, main_v36, main_v37, main_call2_cst, main_call2_v0, main_v38, main_v39, main_v40]

/-- The buffers list 5 writes. -/
def wr5 : List (Ref sig .tc) := [main_cst, main_v41, main_c_3, main_v42, main_v43, main_c_4, main_v44, main_v45, main_v46, main_v47, main_v48, main_c_5, main_v49, main_v50, main_c_6, main_v51, main_v52, main_v53, main_v54, main_v55]

/-- The buffers list 6 writes. -/
def wr6 : List (Ref sig .tc) := [main_cst_7, main_v56, main_cst_8, main_v57, main_c_9, main_v58, main_v59, main_c_10, main_v60, main_v61, main_v62, main_v63, main_v64, main_c_11, main_v65, main_v66, main_c_12, main_v67, main_v68, main_v69, main_v70, main_v71]

/-- The buffers list 7 writes. -/
def wr7 : List (Ref sig .tc) := [main_cst_13, main_call3_v0, main_call3_v1, main_v72, main_v73, main_v74, main_v75, main_v76, main_v77, main_v78, main_v79, main_call4_cst, main_call4_v0, main_v80]

/-- A buffer list 1 does not write keeps its contents over it. -/
theorem keep1 (V : Valuation τ sig (Elt Ideal)) (b : Ref sig .tc) (h : b ∉ wr1) :
    StableHlo.after (ops1 (F := Ideal)) V (Proc.devRef .tc b) = V (Proc.devRef .tc b) :=
  StableHlo.after_of_writes_sub (W := wr1) _ V (by
    simp only [ops1, wr1, List.Forall, StableHlo.nullary_writes, StableHlo.unary_writes, StableHlo.binary_writes,
      StableHlo.ternary_writes, StableHlo.reshape_writes, StableHlo.nary_writes, Finset.singleton_subset_iff, List.mem_toFinset]
    repeat' apply And.intro
    all_goals exact List.mem_map_of_mem (by decide)) h

/-- A buffer list 2 does not write keeps its contents over it. -/
theorem keep2 (V : Valuation τ sig (Elt Ideal)) (b : Ref sig .tc) (h : b ∉ wr2) :
    StableHlo.after (ops2 (F := Ideal)) V (Proc.devRef .tc b) = V (Proc.devRef .tc b) :=
  StableHlo.after_of_writes_sub (W := wr2) _ V (by
    simp only [ops2, wr2, List.Forall, StableHlo.nullary_writes, StableHlo.unary_writes, StableHlo.binary_writes,
      StableHlo.ternary_writes, StableHlo.reshape_writes, StableHlo.nary_writes, Finset.singleton_subset_iff, List.mem_toFinset]
    repeat' apply And.intro
    all_goals exact List.mem_map_of_mem (by decide)) h

/-- A buffer list 3 does not write keeps its contents over it. -/
theorem keep3 (V : Valuation τ sig (Elt Ideal)) (b : Ref sig .tc) (h : b ∉ wr3) :
    StableHlo.after (ops3 (F := Ideal)) V (Proc.devRef .tc b) = V (Proc.devRef .tc b) :=
  StableHlo.after_of_writes_sub (W := wr3) _ V (by
    simp only [ops3, wr3, List.Forall, StableHlo.nullary_writes, StableHlo.unary_writes, StableHlo.binary_writes,
      StableHlo.ternary_writes, StableHlo.reshape_writes, StableHlo.nary_writes, Finset.singleton_subset_iff, List.mem_toFinset]
    repeat' apply And.intro
    all_goals exact List.mem_map_of_mem (by decide)) h

/-- A buffer list 4 does not write keeps its contents over it. -/
theorem keep4 (V : Valuation τ sig (Elt Ideal)) (b : Ref sig .tc) (h : b ∉ wr4) :
    StableHlo.after (ops4 (F := Ideal)) V (Proc.devRef .tc b) = V (Proc.devRef .tc b) :=
  StableHlo.after_of_writes_sub (W := wr4) _ V (by
    simp only [ops4, wr4, List.Forall, StableHlo.nullary_writes, StableHlo.unary_writes, StableHlo.binary_writes,
      StableHlo.ternary_writes, StableHlo.reshape_writes, StableHlo.nary_writes, Finset.singleton_subset_iff, List.mem_toFinset]
    repeat' apply And.intro
    all_goals exact List.mem_map_of_mem (by decide)) h

/-- A buffer list 5 does not write keeps its contents over it. -/
theorem keep5 (V : Valuation τ sig (Elt Ideal)) (b : Ref sig .tc) (h : b ∉ wr5) :
    StableHlo.after (ops5 (F := Ideal)) V (Proc.devRef .tc b) = V (Proc.devRef .tc b) :=
  StableHlo.after_of_writes_sub (W := wr5) _ V (by
    simp only [ops5, wr5, List.Forall, StableHlo.nullary_writes, StableHlo.unary_writes, StableHlo.binary_writes,
      StableHlo.ternary_writes, StableHlo.reshape_writes, StableHlo.nary_writes, Finset.singleton_subset_iff, List.mem_toFinset]
    repeat' apply And.intro
    all_goals exact List.mem_map_of_mem (by decide)) h

/-- A buffer list 6 does not write keeps its contents over it. -/
theorem keep6 (V : Valuation τ sig (Elt Ideal)) (b : Ref sig .tc) (h : b ∉ wr6) :
    StableHlo.after (ops6 (F := Ideal)) V (Proc.devRef .tc b) = V (Proc.devRef .tc b) :=
  StableHlo.after_of_writes_sub (W := wr6) _ V (by
    simp only [ops6, wr6, List.Forall, StableHlo.nullary_writes, StableHlo.unary_writes, StableHlo.binary_writes,
      StableHlo.ternary_writes, StableHlo.reshape_writes, StableHlo.nary_writes, Finset.singleton_subset_iff, List.mem_toFinset]
    repeat' apply And.intro
    all_goals exact List.mem_map_of_mem (by decide)) h

/-- A buffer list 7 does not write keeps its contents over it. -/
theorem keep7 (V : Valuation τ sig (Elt Ideal)) (b : Ref sig .tc) (h : b ∉ wr7) :
    StableHlo.after (ops7 (F := Ideal)) V (Proc.devRef .tc b) = V (Proc.devRef .tc b) :=
  StableHlo.after_of_writes_sub (W := wr7) _ V (by
    simp only [ops7, wr7, List.Forall, StableHlo.nullary_writes, StableHlo.unary_writes, StableHlo.binary_writes,
      StableHlo.ternary_writes, StableHlo.reshape_writes, StableHlo.nary_writes, Finset.singleton_subset_iff, List.mem_toFinset]
    repeat' apply And.intro
    all_goals exact List.mem_map_of_mem (by decide)) h

/-- A buffer none of the seven lists writes holds at the end what it held at launch. -/
theorem kept_of_unwritten (c : Dev nD) (b : Ref sig .tc) (h1 : b ∉ wr1) (h2 : b ∉ wr2) (h3 : b ∉ wr3) (h4 : b ∉ wr4)
    (h5 : b ∉ wr5) (h6 : b ∉ wr6) (h7 : b ∉ wr7) :
    U7 (F := Ideal) m' c (Proc.devRef .tc b) = m' ((c.tc : Thread nD τ).loc b) := by
  show StableHlo.after ops7 (U6 m' c) (Proc.devRef .tc b) = _
  rw [keep7 _ b h7]
  show StableHlo.after ops6 (U5 m' c) (Proc.devRef .tc b) = _
  rw [keep6 _ b h6]
  show StableHlo.after ops5 (U4 m' c) (Proc.devRef .tc b) = _
  rw [keep5 _ b h5]
  show StableHlo.after ops4 (U3 m' c) (Proc.devRef .tc b) = _
  rw [keep4 _ b h4]
  show StableHlo.after ops3 (U2 m' c) (Proc.devRef .tc b) = _
  rw [keep3 _ b h3]
  show StableHlo.after ops2 (U1 m' c) (Proc.devRef .tc b) = _
  rw [keep2 _ b h2]
  show StableHlo.after ops1 (U0 m' c) (Proc.devRef .tc b) = _
  rw [keep1 _ b h1]

/-! ## Edge ends as node indices, and the two summations into nodes -/

/-- A column of edge ends as node indices: a negative entry e stands for the node e + 100000; laid out as a
    200000 × 1 index array. -/
def wrapCol (col : IVec SV 32) : IVec SC 32 :=
  broadcastInDim SC ![0] bcast_S200000_S200000x1_0
    (select (cmpi .slt col (broadcastInDim SV ![] bcast_S_S200000 (constantI S0 32 0#32)))
      (addi col (broadcastInDim SV ![] bcast_S_S200000 (constantI S0 32 100000#32))) col)

/-- Column 0 and column 1 of the edge list, as vectors. -/
def col0 (e : IVec SE 32) : IVec SV 32 := column ![0, 0] slices_S200000x2_S200000x1_0_0 shapeCasts_S200000x1_S200000 e
def col1 (e : IVec SE 32) : IVec SV 32 := column ![0, 1] slices_S200000x2_S200000x1_0_1 shapeCasts_S200000x1_S200000 e

/-- Per-edge rows summed into their nodes, by the first index column and then by the second, from zero. -/
def poolOf (i1 i3 : IVec SV 32) (us uo : Mat 200000 256) : Mat 100000 256 :=
  Host.scatterAdd (F := Ideal) scatter_S100000x256_S200000x1_S200000x256_1_0_0_1
    (Host.scatterAdd (F := Ideal) scatter_S100000x256_S200000x1_S200000x256_1_0_0_1
      (broadcastInDim S100000x256 ![] bcast_S_S100000x256 (constant (F := Ideal) S_ .f32 0x00000000#32)) (wrapCol i1) us)
    (wrapCol i3) uo

/-- The number of edge ends at each node, as a vector: the same two summations of rows of ones. -/
def countOf (i1 i3 : IVec SV 32) : Vect 100000 :=
  Host.scatterAdd (F := Ideal) scatter_S100000_S200000x1_S200000_n_0_0_1
    (Host.scatterAdd (F := Ideal) scatter_S100000_S200000x1_S200000_n_0_0_1
      (broadcastInDim S100000 ![] bcast_S_S100000 (constant (F := Ideal) S_ .f32 0x00000000#32)) (wrapCol i1)
      (broadcastInDim S200000 ![] bcast_S_S200000 (constant (F := Ideal) S_ .f32 0x3F800000#32)))
    (wrapCol i3) (broadcastInDim S200000 ![] bcast_S_S200000 (constant (F := Ideal) S_ .f32 0x3F800000#32))

/-- The specification's pooled rows are the two summations at the two columns of the edge list. -/
theorem pool_eq (e : IVec SE 32) (us uo : Mat 200000 256) :
    Cert.KernelIdeal.Whole.pool e us uo = poolOf (col0 e) (col1 e) us uo := by
  unfold Cert.KernelIdeal.Whole.pool Cert.KernelIdeal.Whole.sIdx Cert.KernelIdeal.Whole.oIdx nodeIdx poolOf wrapCol col0 col1
  rfl

/-- The specification's counts are the vector of counts read as a column. -/
theorem counts_eq (e : IVec SE 32) :
    Cert.KernelIdeal.Whole.counts e
      = shapeCast S100000x1 (countOf (col0 e) (col1 e)) Cert.KernelIdeal.Gen.shapeCasts_S100000_S100000x1 := by
  unfold Cert.KernelIdeal.Whole.counts Cert.KernelIdeal.Whole.sIdx Cert.KernelIdeal.Whole.oIdx nodeIdx countOf wrapCol col0 col1
  rfl

/-! ## What each list leaves, from any contents it starts on -/

/-- The first list cuts column 0 of the edge list and lays it as a vector … -/
theorem after1_v1 (V : Valuation τ sig (Elt Ideal)) :
    StableHlo.after (ops1 (F := Ideal)) V (Proc.devRef .tc main_v1) = col0 (V (Proc.devRef .tc main_arg2)) := by
  after_results
  rfl

/-- … and column 1 likewise. -/
theorem after1_v3 (V : Valuation τ sig (Elt Ideal)) :
    StableHlo.after (ops1 (F := Ideal)) V (Proc.devRef .tc main_v3) = col1 (V (Proc.devRef .tc main_arg2)) := by
  after_results
  rfl

set_option maxHeartbeats 1000000 in
/-- The fifth list sums the two halves of the node update into their nodes. -/
theorem after5_v55 (V : Valuation τ sig (Elt Ideal)) :
    StableHlo.after (ops5 (F := Ideal)) V (Proc.devRef .tc main_v55)
      = poolOf (V (Proc.devRef .tc main_v1)) (V (Proc.devRef .tc main_v3)) (V (Proc.devRef .tc main_v39))
          (V (Proc.devRef .tc main_v40)) := by
  after_results_simp
  rfl

set_option maxHeartbeats 1000000 in
/-- The sixth list counts the edge ends at each node. -/
theorem after6_v71 (V : Valuation τ sig (Elt Ideal)) :
    StableHlo.after (ops6 (F := Ideal)) V (Proc.devRef .tc main_v71)
      = countOf (V (Proc.devRef .tc main_v1)) (V (Proc.devRef .tc main_v3)) := by
  after_results_simp
  rfl

/-! ## The last list: the division by the counts and the last dense layer -/

/-- Dividing by the counts, raised to at least 1 and laid across the 256 columns, is the specification's division by
    the counts read as a column: at (r, k) both divide the entry by max 1 (counts r). -/
theorem divf_clip_eq (p : FVec Ideal S100000x256 .f32) (v : FVec Ideal S100000 .f32) :
    Host.divf p (broadcastInDim S100000x256 ![0, 1] bcast_S100000x1_S100000x256_0_1
        (broadcastInDim S100000x1 ![0] bcast_S100000_S100000x1_0
          (maximumf (broadcastInDim S100000 ![] bcast_S_S100000 (constant (F := Ideal) S_ .f32 0x3F800000#32)) v)))
      = normed (M := 100000) p (shapeCast S100000x1 v Cert.KernelIdeal.Gen.shapeCasts_S100000_S100000x1) := by
  funext i
  obtain ⟨r, k, rfl⟩ : ∃ (r : Fin 100000) (k : Fin 256), i = ix2 r k := ⟨i 0, i 1, eq_ix2 i⟩
  rw [hostDivf_apply, normed_apply,
    broadcastInDim_apply ![0, 1] bcast_S100000x1_S100000x256_0_1 _ (ix2 r k) (ix2 r ⟨0, Nat.one_pos⟩) (fun a => by
      match a with
      | ⟨0, _⟩ => show r.val = if (100000 : Nat) = 1 then 0 else r.val; split <;> omega
      | ⟨1, _⟩ => show (0 : Nat) = if (1 : Nat) = 1 then 0 else k.val; split <;> omega),
    broadcastInDim_apply ![0] bcast_S100000_S100000x1_0 _ (ix2 r ⟨0, Nat.one_pos⟩) (ix1 r) (fun a => by
      match a with
      | ⟨0, _⟩ => show r.val = if (100000 : Nat) = 1 then 0 else r.val; split <;> omega),
    maximumf_apply, broadcastInDim_scalar_apply, constant_apply, Ideal.ofBits_one_f32,
    shapeCast_apply v _ (ix2 r ⟨0, Nat.one_pos⟩) (ix1 r) (by
      rw [Shape.rowMajor_val_one, Shape.rowMajor_val_two]
      show r.val = r.val * 1 + 0
      omega)]

set_option maxHeartbeats 1000000 in
/-- The seventh list divides the sums by the counts raised to at least 1 and applies the last dense layer. -/
theorem after7_v80 (V : Valuation τ sig (Elt Ideal)) :
    StableHlo.after (ops7 (F := Ideal)) V (Proc.devRef .tc main_v80)
      = dense (M := 100000) (K := 256) (N := 512)
          (normed (M := 100000) (V (Proc.devRef .tc main_v55))
            (shapeCast S100000x1 (V (Proc.devRef .tc main_v71)) Cert.KernelIdeal.Gen.shapeCasts_S100000_S100000x1))
          (V (Proc.devRef .tc main_arg9)) (V (Proc.devRef .tc main_arg10)) := by
  after_results
  simp only [TRef.ofBuf, TRef.toBuf, cast_eq, id_eq]
  rw [divf_clip_eq]
  exact host_dense dot_S100000x256_S256x512_S100000x512_1_0_0_1_n_n rfl rfl rfl rfl rfl rfl _ _ _ _ _ _

/-! ## The two columns of the edge list, the sums and the counts, at the boundaries -/

/-- Column 0 of the edge list stands in its buffer from the first list on: the next three lists do not write it. -/
theorem col0_at4 (c : Dev nD) :
    U4 (F := Ideal) m' c (Proc.devRef .tc main_v1) = col0 (m' ((c.tc : Thread nD τ).loc main_arg2)) := by
  show StableHlo.after ops4 (U3 m' c) (Proc.devRef .tc main_v1) = _
  rw [keep4 _ main_v1 (by decide)]
  show StableHlo.after ops3 (U2 m' c) (Proc.devRef .tc main_v1) = _
  rw [keep3 _ main_v1 (by decide)]
  show StableHlo.after ops2 (U1 m' c) (Proc.devRef .tc main_v1) = _
  rw [keep2 _ main_v1 (by decide)]
  exact after1_v1 (U0 m' c)

/-- Column 1 likewise. -/
theorem col1_at4 (c : Dev nD) :
    U4 (F := Ideal) m' c (Proc.devRef .tc main_v3) = col1 (m' ((c.tc : Thread nD τ).loc main_arg2)) := by
  show StableHlo.after ops4 (U3 m' c) (Proc.devRef .tc main_v3) = _
  rw [keep4 _ main_v3 (by decide)]
  show StableHlo.after ops3 (U2 m' c) (Proc.devRef .tc main_v3) = _
  rw [keep3 _ main_v3 (by decide)]
  show StableHlo.after ops2 (U1 m' c) (Proc.devRef .tc main_v3) = _
  rw [keep2 _ main_v3 (by decide)]
  exact after1_v3 (U0 m' c)

/-- A buffer the first six lists leave alone holds after them what it held at launch. -/
theorem at6_of_unwritten (c : Dev nD) (b : Ref sig .tc) (h1 : b ∉ wr1) (h2 : b ∉ wr2) (h3 : b ∉ wr3) (h4 : b ∉ wr4)
    (h5 : b ∉ wr5) (h6 : b ∉ wr6) :
    U6 (F := Ideal) m' c (Proc.devRef .tc b) = m' ((c.tc : Thread nD τ).loc b) := by
  show StableHlo.after ops6 (U5 m' c) (Proc.devRef .tc b) = _
  rw [keep6 _ b h6]
  show StableHlo.after ops5 (U4 m' c) (Proc.devRef .tc b) = _
  rw [keep5 _ b h5]
  show StableHlo.after ops4 (U3 m' c) (Proc.devRef .tc b) = _
  rw [keep4 _ b h4]
  show StableHlo.after ops3 (U2 m' c) (Proc.devRef .tc b) = _
  rw [keep3 _ b h3]
  show StableHlo.after ops2 (U1 m' c) (Proc.devRef .tc b) = _
  rw [keep2 _ b h2]
  show StableHlo.after ops1 (U0 m' c) (Proc.devRef .tc b) = _
  rw [keep1 _ b h1]

/-- After the fifth list: the pooled rows of the specification. -/
theorem pooled_at5 (c : Dev nD) :
    U5 (F := Ideal) m' c (Proc.devRef .tc main_v55)
      = Cert.KernelIdeal.Whole.pool (m' ((c.tc : Thread nD τ).loc main_arg2))
          (cols 0 256 (by omega) (Cert.KernelIdeal.Whole.node (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8))))
          (cols 256 256 (by omega) (Cert.KernelIdeal.Whole.node (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)))) := by
  show StableHlo.after ops5 (U4 m' c) (Proc.devRef .tc main_v55) = _
  rw [after5_v55, col0_at4, col1_at4, s_at4, o_at4, pool_eq]

/-- After the sixth list: the counts of the specification, still as a vector. -/
theorem counts_at6 (c : Dev nD) :
    U6 (F := Ideal) m' c (Proc.devRef .tc main_v71)
      = countOf (col0 (m' ((c.tc : Thread nD τ).loc main_arg2))) (col1 (m' ((c.tc : Thread nD τ).loc main_arg2))) := by
  show StableHlo.after ops6 (U5 m' c) (Proc.devRef .tc main_v71) = _
  rw [after6_v71]
  show countOf (StableHlo.after ops5 (U4 m' c) (Proc.devRef .tc main_v1)) (StableHlo.after ops5 (U4 m' c) (Proc.devRef .tc main_v3)) = _
  rw [keep5 _ main_v1 (by decide), keep5 _ main_v3 (by decide), col0_at4, col1_at4]

/-- The sixth list does not write the pooled rows. -/
theorem pooled_at6 (c : Dev nD) :
    U6 (F := Ideal) m' c (Proc.devRef .tc main_v55) = U5 (F := Ideal) m' c (Proc.devRef .tc main_v55) := by
  show StableHlo.after ops6 (U5 m' c) (Proc.devRef .tc main_v55) = _
  rw [keep6 _ main_v55 (by decide)]

/-- The second result: new_pred, unchanged since the third list. -/
theorem pred_result (c : Dev nD) :
    U7 (F := Ideal) m' c (Proc.devRef .tc main_v32) = Cert.KernelIdeal.Whole.pred (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) := by
  show StableHlo.after ops7 (U6 m' c) (Proc.devRef .tc main_v32) = _
  rw [keep7 _ main_v32 (by decide)]
  show StableHlo.after ops6 (U5 m' c) (Proc.devRef .tc main_v32) = _
  rw [keep6 _ main_v32 (by decide)]
  show StableHlo.after ops5 (U4 m' c) (Proc.devRef .tc main_v32) = _
  rw [keep5 _ main_v32 (by decide)]
  exact pred_at4 m' c

/-- The first result. -/
theorem obj_result (c : Dev nD) :
    U7 (F := Ideal) m' c (Proc.devRef .tc main_v80) = Cert.KernelIdeal.Whole.obj (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) := by
  show StableHlo.after ops7 (U6 m' c) (Proc.devRef .tc main_v80) = _
  rw [after7_v80, pooled_at6, pooled_at5, counts_at6,
    at6_of_unwritten m' c main_arg9 (by decide) (by decide) (by decide) (by decide) (by decide) (by decide),
    at6_of_unwritten m' c main_arg10 (by decide) (by decide) (by decide) (by decide) (by decide) (by decide)]
  unfold Cert.KernelIdeal.Whole.obj newObj
  rw [counts_eq]

/-! ## The arguments are never written -/

theorem kept0 (c : Dev nD) : U7 (F := Ideal) m' c (Proc.devRef .tc main_arg0) = m' ((c.tc : Thread nD τ).loc main_arg0) :=
  kept_of_unwritten m' c main_arg0 (by decide) (by decide) (by decide) (by decide) (by decide) (by decide) (by decide)

theorem kept1 (c : Dev nD) : U7 (F := Ideal) m' c (Proc.devRef .tc main_arg1) = m' ((c.tc : Thread nD τ).loc main_arg1) :=
  kept_of_unwritten m' c main_arg1 (by decide) (by decide) (by decide) (by decide) (by decide) (by decide) (by decide)

theorem kept2 (c : Dev nD) : U7 (F := Ideal) m' c (Proc.devRef .tc main_arg2) = m' ((c.tc : Thread nD τ).loc main_arg2) :=
  kept_of_unwritten m' c main_arg2 (by decide) (by decide) (by decide) (by decide) (by decide) (by decide) (by decide)

theorem kept3 (c : Dev nD) : U7 (F := Ideal) m' c (Proc.devRef .tc main_arg3) = m' ((c.tc : Thread nD τ).loc main_arg3) :=
  kept_of_unwritten m' c main_arg3 (by decide) (by decide) (by decide) (by decide) (by decide) (by decide) (by decide)

theorem kept4 (c : Dev nD) : U7 (F := Ideal) m' c (Proc.devRef .tc main_arg4) = m' ((c.tc : Thread nD τ).loc main_arg4) :=
  kept_of_unwritten m' c main_arg4 (by decide) (by decide) (by decide) (by decide) (by decide) (by decide) (by decide)

theorem kept5 (c : Dev nD) : U7 (F := Ideal) m' c (Proc.devRef .tc main_arg5) = m' ((c.tc : Thread nD τ).loc main_arg5) :=
  kept_of_unwritten m' c main_arg5 (by decide) (by decide) (by decide) (by decide) (by decide) (by decide) (by decide)

theorem kept6 (c : Dev nD) : U7 (F := Ideal) m' c (Proc.devRef .tc main_arg6) = m' ((c.tc : Thread nD τ).loc main_arg6) :=
  kept_of_unwritten m' c main_arg6 (by decide) (by decide) (by decide) (by decide) (by decide) (by decide) (by decide)

theorem kept7 (c : Dev nD) : U7 (F := Ideal) m' c (Proc.devRef .tc main_arg7) = m' ((c.tc : Thread nD τ).loc main_arg7) :=
  kept_of_unwritten m' c main_arg7 (by decide) (by decide) (by decide) (by decide) (by decide) (by decide) (by decide)

theorem kept8 (c : Dev nD) : U7 (F := Ideal) m' c (Proc.devRef .tc main_arg8) = m' ((c.tc : Thread nD τ).loc main_arg8) :=
  kept_of_unwritten m' c main_arg8 (by decide) (by decide) (by decide) (by decide) (by decide) (by decide) (by decide)

theorem kept9 (c : Dev nD) : U7 (F := Ideal) m' c (Proc.devRef .tc main_arg9) = m' ((c.tc : Thread nD τ).loc main_arg9) :=
  kept_of_unwritten m' c main_arg9 (by decide) (by decide) (by decide) (by decide) (by decide) (by decide) (by decide)

theorem kept10 (c : Dev nD) : U7 (F := Ideal) m' c (Proc.devRef .tc main_arg10) = m' ((c.tc : Thread nD τ).loc main_arg10) :=
  kept_of_unwritten m' c main_arg10 (by decide) (by decide) (by decide) (by decide) (by decide) (by decide) (by decide)

end Cert.ReferenceIdeal.Values

end
-- ==== Proof.lean ====
/-
  One message-passing step of a graph network: a Pallas program of two kernels against its jnp reference, over the extended
  reals, for edge lists whose entries e satisfy −100000 ≤ e < 100000 (the node table has 100000 rows and a negative entry
  e stands for e + 100000: outside that range the reference indexes past its table).

  Both programs gather the node table's rows at each edge's subject and object, run three dense layers with rectifiers
  over the edges (Spec.lean), sum the node update's two halves into the nodes by subject and by object and count the edge
  ends per node (Step.lean, Whole.lean), and run a last dense layer over the averaged sums. They differ in three ways, none
  of which changes a value on the extended reals:
   · the kernel program narrows several arrays to a smaller float format: the identity here;
   · it computes the layers block by block, 1600 edges or 2000 nodes at a time: a block of rows of a dense layer is the
     dense layer of that block of rows (EdgeArrays.lean, PoolArray.lean over EdgeBlock.lean);
   · its node update is three products against three row ranges of W_node where the reference has one product over the
     joined columns: a regrouping of a finite sum (Spec.lean, dense_join3).
  Its gather also replaces a row whose index is out of range by a fill value; in the stated range there is none
  (Entry0.lean). So both programs end with Whole.obj and Whole.pred of the argument arrays: the kernel program by
  KernelResults.lean over its run (KernelRun.lean), the reference by RefPool.lean over its run (RefRun.lean).
  No law used needs the inputs finite.
-/
import proofs.«424232_j87694642250356_3_alg».proof.Defs
import proofs.«424232_j87694642250356_3_alg».proof.Proof.Gen.Kernel
import proofs.«424232_j87694642250356_3_alg».proof.Proof.Gen.Kernel.Skeleton
import proofs.«424232_j87694642250356_3_alg».proof.Proof.Gen.Kernel.Launch
import proofs.«424232_j87694642250356_3_alg».proof.Proof.Gen.Kernel.Points
import proofs.«424232_j87694642250356_3_alg».proof.Proof.Gen.Kernel.Frame
import proofs.«424232_j87694642250356_3_alg».proof.Proof.Gen.KernelIdeal
import proofs.«424232_j87694642250356_3_alg».proof.Proof.Gen.KernelIdeal.Skeleton
import proofs.«424232_j87694642250356_3_alg».proof.Proof.Gen.KernelIdeal.Launch
import proofs.«424232_j87694642250356_3_alg».proof.Proof.Gen.KernelIdeal.Points
import proofs.«424232_j87694642250356_3_alg».proof.Proof.Gen.KernelIdeal.Frame
import proofs.«424232_j87694642250356_3_alg».proof.Proof.Gen.ReferenceIdeal
import proofs.«424232_j87694642250356_3_alg».proof.Proof.Gen.Pre_finite_inputs
import proofs.«424232_j87694642250356_3_alg».proof.Proof.KernelRun
import proofs.«424232_j87694642250356_3_alg».proof.Proof.KernelResults
import proofs.«424232_j87694642250356_3_alg».proof.Proof.RefRun
import proofs.«424232_j87694642250356_3_alg».proof.Proof.RefPool
import Idealize.ShloMosaic.Adequacy
import Idealize.ShloMosaic.Init

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The two frames of the kernel program are generated whole. -/
theorem frame_k : Cert.frame_Kernel := fun m ρ _ => Cert.Kernel.Gen.frame m ρ
theorem frame_ki : Cert.frame_KernelIdeal := fun m ρ _ => Cert.KernelIdeal.Gen.frame m ρ

/-- The reference runs, and no operation of it writes an argument. -/
theorem frame_ri : Cert.frame_ReferenceIdeal := fun m ρ _ =>
  (θ_run Cert.ReferenceIdeal.defs _ _).mono
    (fun r h c => ⟨(h c Cert.ReferenceIdeal.main_arg0).trans (Cert.ReferenceIdeal.Values.kept0 m c),
      (h c Cert.ReferenceIdeal.main_arg1).trans (Cert.ReferenceIdeal.Values.kept1 m c),
      (h c Cert.ReferenceIdeal.main_arg2).trans (Cert.ReferenceIdeal.Values.kept2 m c),
      (h c Cert.ReferenceIdeal.main_arg3).trans (Cert.ReferenceIdeal.Values.kept3 m c),
      (h c Cert.ReferenceIdeal.main_arg4).trans (Cert.ReferenceIdeal.Values.kept4 m c),
      (h c Cert.ReferenceIdeal.main_arg5).trans (Cert.ReferenceIdeal.Values.kept5 m c),
      (h c Cert.ReferenceIdeal.main_arg6).trans (Cert.ReferenceIdeal.Values.kept6 m c),
      (h c Cert.ReferenceIdeal.main_arg7).trans (Cert.ReferenceIdeal.Values.kept7 m c),
      (h c Cert.ReferenceIdeal.main_arg8).trans (Cert.ReferenceIdeal.Values.kept8 m c),
      (h c Cert.ReferenceIdeal.main_arg9).trans (Cert.ReferenceIdeal.Values.kept9 m c),
      (h c Cert.ReferenceIdeal.main_arg10).trans (Cert.ReferenceIdeal.Values.kept10 m c)⟩)
    (Cert.ReferenceIdeal.Chunks.run (F := Ideal) m ρ)

/-- The ideal pass rewrote nothing. -/
theorem preserves : Cert.preserves_Kernel_KernelIdeal := trivial

/-- Both programs end with the step's two whole-array functions of the arguments. -/
theorem algebraic : Cert.algebraic_KernelIdeal_ReferenceIdeal := by
  intro m ρ m' ρ' hpre hagree
  have hr := Cert.KernelIdeal.Entry.inRange_of_pre m hpre
  refine ⟨fun c => Cert.KernelIdeal.Whole.obj (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.KernelIdeal.Whole.pred (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Results.obj_value m ρ hr c),
        (h c).2.1.trans (Cert.KernelIdeal.Results.pred_value m ρ hr c), (h c).2.2⟩)
      (Cert.KernelIdeal.Results.run_results (F := Ideal) m ρ)
  · refine (θ_run Cert.ReferenceIdeal.defs _ _).mono (fun r h c => ⟨?_, ?_,
      (h c Cert.ReferenceIdeal.main_arg0).trans (Cert.ReferenceIdeal.Values.kept0 m' c),
      (h c Cert.ReferenceIdeal.main_arg1).trans (Cert.ReferenceIdeal.Values.kept1 m' c),
      (h c Cert.ReferenceIdeal.main_arg2).trans (Cert.ReferenceIdeal.Values.kept2 m' c),
      (h c Cert.ReferenceIdeal.main_arg3).trans (Cert.ReferenceIdeal.Values.kept3 m' c),
      (h c Cert.ReferenceIdeal.main_arg4).trans (Cert.ReferenceIdeal.Values.kept4 m' c),
      (h c Cert.ReferenceIdeal.main_arg5).trans (Cert.ReferenceIdeal.Values.kept5 m' c),
      (h c Cert.ReferenceIdeal.main_arg6).trans (Cert.ReferenceIdeal.Values.kept6 m' c),
      (h c Cert.ReferenceIdeal.main_arg7).trans (Cert.ReferenceIdeal.Values.kept7 m' c),
      (h c Cert.ReferenceIdeal.main_arg8).trans (Cert.ReferenceIdeal.Values.kept8 m' c),
      (h c Cert.ReferenceIdeal.main_arg9).trans (Cert.ReferenceIdeal.Values.kept9 m' c),
      (h c Cert.ReferenceIdeal.main_arg10).trans (Cert.ReferenceIdeal.Values.kept10 m' c)⟩)
      (Cert.ReferenceIdeal.Chunks.run (F := Ideal) m' ρ')
    · rw [h c Cert.ReferenceIdeal.main_v80, Cert.ReferenceIdeal.Values.obj_result m' c]
      obtain ⟨e0, e1, e2, e3, e4, e5, e6, e7, e8, e9, e10⟩ := hagree c
      rw [e0, e1, e2, e3, e4, e5, e6, e7, e8, e9, e10]
    · rw [h c Cert.ReferenceIdeal.main_v32, Cert.ReferenceIdeal.Values.pred_result m' c]
      obtain ⟨e0, e1, e2, e3, e4, e5, e6, -, -, -, -⟩ := hagree c
      rw [e0, e1, e2, e3, e4, e5, e6]

theorem claim : Cert.Claim := ⟨Cert.Kernel.Gen.facts, Cert.KernelIdeal.Gen.facts, Cert.ReferenceIdeal.Gen.facts,
  Cert.Pre_finite_inputs.Gen.facts, frame_k, frame_ki, frame_ri, preserves, algebraic⟩

end Cert.Proof

end
